-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S1000000 : Shape := ⟨1, ![1000000]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S1000000x3 .f32) (main_arg1 : FVec F S1000000x3 .f32) (main_arg2 : FVec F S1000000 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S1000000x3 .f32 := Host.absf main_arg1
  let main_cst_0 : FVec F S_ .f32 := constant S_ .f32 0x7F800000#32
  let main_v5 : FVec F S1000000x3 .f32 := broadcastInDim S1000000x3 ![] bcast_S_S1000000x3 main_cst_0
  let main_v6 : IVec S1000000x3 1 := cmpf .olt main_v4 main_v5
  let main_c_1 : IVec S_ 1 := constantI S_ 1 1#1
  let main_v7 : IVec S_ 1 := (fun x v => Host.reduce IntOp.andi x v reducesTo_S1000000x3_S_d0_1 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  main_v13
-- ==== Kernel.lean ====
abbrev S1000000x3 : Shape := ⟨2, ![1000000, 3]⟩
abbrev S1000000 : Shape := ⟨1, ![1000000]⟩
abbrev S_ : Shape := ⟨0, ![]⟩
abbrev S1015808x3 : Shape := ⟨2, ![1015808, 3]⟩
abbrev S1015808 : Shape := ⟨1, ![1015808]⟩
abbrev S3x1015808 : Shape := ⟨2, ![3, 1015808]⟩
abbrev S1x1015808 : Shape := ⟨2, ![1, 1015808]⟩
abbrev S7x1015808 : Shape := ⟨2, ![7, 1015808]⟩
abbrev S8x1015808 : Shape := ⟨2, ![8, 1015808]⟩
abbrev S7x32768 : Shape := ⟨2, ![7, 32768]⟩
abbrev S8x32768 : Shape := ⟨2, ![8, 32768]⟩
abbrev S1x32768 : Shape := ⟨2, ![1, 32768]⟩
abbrev S8126464 : Shape := ⟨1, ![8126464]⟩
abbrev S2097152 : Shape := ⟨1, ![2097152]⟩
abbrev S8126464x1 : Shape := ⟨2, ![8126464, 1]⟩
abbrev S8126464x3 : Shape := ⟨2, ![8126464, 3]⟩
abbrev S2097152x3 : Shape := ⟨2, ![2097152, 3]⟩
abbrev S2097152x1 : Shape := ⟨2, ![2097152, 1]⟩
abbrev S2097152x4 : Shape := ⟨2, ![2097152, 4]⟩

abbrev nBuf : Space → Nat
  | .hbm => 40
  | .vmem => 12
  | .smem => 0
  | _ => 0

abbrev bufTy : (tb : Table) → Fin (tcTables nBuf tb) → BufTy
  | .hbm, ⟨0, _⟩ => ⟨S1000000x3, .f32⟩
  | .hbm, ⟨1, _⟩ => ⟨S1000000x3, .f32⟩
  | .hbm, ⟨2, _⟩ => ⟨S1000000, .f32⟩
  | .hbm, ⟨3, _⟩ => ⟨S_, .i32⟩
  | .hbm, ⟨4, _⟩ => ⟨S_, .f32⟩
  | .hbm, ⟨5, _⟩ => ⟨S1015808x3, .f32⟩
  | .hbm, ⟨6, _⟩ => ⟨S_, .i32⟩
  | .hbm, ⟨7, _⟩ => ⟨S_, .f32⟩
  | .hbm, ⟨8, _⟩ => ⟨S1015808x3, .f32⟩
  | .hbm, ⟨9, _⟩ => ⟨S_, .i32⟩
  | .hbm, ⟨10, _⟩ => ⟨S_, .f32⟩
  | .hbm, ⟨11, _⟩ => ⟨S1015808, .f32⟩
  | .hbm, ⟨12, _⟩ => ⟨S3x1015808, .f32⟩
  | .hbm, ⟨13, _⟩ => ⟨S3x1015808, .f32⟩
  | .hbm, ⟨14, _⟩ => ⟨S1x1015808, .f32⟩
  | .hbm, ⟨15, _⟩ => ⟨S7x1015808, .f32⟩
  | .hbm, ⟨16, _⟩ => ⟨S8x1015808, .i32⟩
  | .hbm, ⟨17, _⟩ => ⟨S8x1015808, .f32⟩
  | .hbm, ⟨18, _⟩ => ⟨S8x1015808, .f32⟩
  | .hbm, ⟨19, _⟩ => ⟨S8x1015808, .f32⟩
  | .hbm, ⟨20, _⟩ => ⟨S8x1015808, .f32⟩
  | .hbm, ⟨21, _⟩ => ⟨S8126464, .i32⟩
  | .hbm, ⟨22, _⟩ => ⟨S8126464, .f32⟩
  | .hbm, ⟨23, _⟩ => ⟨S8126464, .f32⟩
  | .hbm, ⟨24, _⟩ => ⟨S8126464, .f32⟩
  | .hbm, ⟨25, _⟩ => ⟨S8126464, .f32⟩
  | .hbm, ⟨26, _⟩ => ⟨S_, .f32⟩
  | .hbm, ⟨27, _⟩ => ⟨S2097152, .f32⟩
  | .hbm, ⟨28, _⟩ => ⟨S8126464x1, .i32⟩
  | .hbm, ⟨29, _⟩ => ⟨S2097152, .f32⟩
  | .hbm, ⟨30, _⟩ => ⟨S8126464x1, .f32⟩
  | .hbm, ⟨31, _⟩ => ⟨S8126464x1, .f32⟩
  | .hbm, ⟨32, _⟩ => ⟨S8126464x1, .f32⟩
  | .hbm, ⟨33, _⟩ => ⟨S8126464x3, .f32⟩
  | .hbm, ⟨34, _⟩ => ⟨S_, .f32⟩
  | .hbm, ⟨35, _⟩ => ⟨S2097152x3, .f32⟩
  | .hbm, ⟨36, _⟩ => ⟨S8126464x1, .i32⟩
  | .hbm, ⟨37, _⟩ => ⟨S2097152x3, .f32⟩
  | .hbm, ⟨38, _⟩ => ⟨S2097152x1, .f32⟩
  | .hbm, ⟨39, _⟩ => ⟨S2097152x4, .f32⟩
  | .local _ .vmem, ⟨0, _⟩ => ⟨S7x32768, .f32⟩
  | .local _ .vmem, ⟨1, _⟩ => ⟨S7x32768, .f32⟩
  | .local _ .vmem, ⟨2, _⟩ => ⟨S8x32768, .i32⟩
  | .local _ .vmem, ⟨3, _⟩ => ⟨S8x32768, .i32⟩
  | .local _ .vmem, ⟨4, _⟩ => ⟨S8x32768, .f32⟩
  | .local _ .vmem, ⟨5, _⟩ => ⟨S8x32768, .f32⟩
  | .local _ .vmem, ⟨6, _⟩ => ⟨S8x32768, .f32⟩
  | .local _ .vmem, ⟨7, _⟩ => ⟨S8x32768, .f32⟩
  | .local _ .vmem, ⟨8, _⟩ => ⟨S8x32768, .f32⟩
  | .local _ .vmem, ⟨9, _⟩ => ⟨S8x32768, .f32⟩
  | .local _ .vmem, ⟨10, _⟩ => ⟨S8x32768, .f32⟩
  | .local _ .vmem, ⟨11, _⟩ => ⟨S8x32768, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_c_1 : Ref sig .tc := ⟨.hbm, 9, rfl⟩
abbrev main_call2_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S7x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S1000000x3_S1015808x3_0158080_000 : S1000000x3.Pads (![0, 0] : Fin 2 → Nat) ![15808, 0] ![0, 0] S1015808x3
  h_S_ : 0 < S_.numel
  pads_S1000000_S1015808_0158080 : S1000000.Pads (![0] : Fin 1 → Nat) ![15808] ![0] S1015808
  transposes_S1015808x3_S3x1015808_1_0 : S1015808x3.Transposes [1, 0] S3x1015808
  bcast_S1015808_S1x1015808_1 : S1015808.BroadcastsInDim S1x1015808 (![1] : Fin 1 → Fin S1x1015808.rank)
  concatenates_S3x1015808_S3x1015808_S1x1015808_S7x1015808_d0 : Shape.Concatenates [S3x1015808, S3x1015808, S1x1015808] S7x1015808 0
  inb_S7x32768_S1x32768_0_0 : ∀ a, (![0, 0] : Fin 2 → Nat) a + S1x32768.size a ≤ S7x32768.size a
  h_S1x32768 : 0 < S1x32768.numel
  shapeCasts_S1x32768_S1x32768 : S1x32768.ShapeCasts S1x32768
  inb_S7x32768_S1x32768_1_0 : ∀ a, (![1, 0] : Fin 2 → Nat) a + S1x32768.size a ≤ S7x32768.size a
  inb_S7x32768_S1x32768_2_0 : ∀ a, (![2, 0] : Fin 2 → Nat) a + S1x32768.size a ≤ S7x32768.size a
  inb_S7x32768_S1x32768_3_0 : ∀ a, (![3, 0] : Fin 2 → Nat) a + S1x32768.size a ≤ S7x32768.size a
  inb_S7x32768_S1x32768_4_0 : ∀ a, (![4, 0] : Fin 2 → Nat) a + S1x32768.size a ≤ S7x32768.size a
  inb_S7x32768_S1x32768_5_0 : ∀ a, (![5, 0] : Fin 2 → Nat) a + S1x32768.size a ≤ S7x32768.size a
  inb_S7x32768_S1x32768_6_0 : ∀ a, (![6, 0] : Fin 2 → Nat) a + S1x32768.size a ≤ S7x32768.size a
  concatenates_S1x32768_S1x32768_S1x32768_S1x32768_S1x32768_S1x32768_S1x32768_S1x32768_S8x32768_d0 : Shape.Concatenates [S1x32768, S1x32768, S1x32768, S1x32768, S1x32768, S1x32768, S1x32768, S1x32768] S8x32768 0
  inb_S8x32768_S8x32768_0_0 : ∀ a, (![0, 0] : Fin 2 → Nat) a + S8x32768.size a ≤ S8x32768.size a
  h_S8x32768 : 0 < S8x32768.numel
  shapeCasts_S8x1015808_S8126464 : S8x1015808.ShapeCasts S8126464
  bcast_S_S2097152 : S_.BroadcastsInDim S2097152 (![] : Fin 0 → Fin S2097152.rank)
  bcast_S8126464_S8126464x1_0 : S8126464.BroadcastsInDim S8126464x1 (![0] : Fin 1 → Fin S8126464x1.rank)
  concatenates_S8126464x1_S8126464x1_S8126464x1_S8126464x3_d1 : Shape.Concatenates [S8126464x1, S8126464x1, S8126464x1] S8126464x3 1
  bcast_S_S2097152x3 : S_.BroadcastsInDim S2097152x3 (![] : Fin 0 → Fin S2097152x3.rank)
  bcast_S2097152_S2097152x1_0 : S2097152.BroadcastsInDim S2097152x1 (![0] : Fin 1 → Fin S2097152x1.rank)
  concatenates_S2097152x1_S2097152x3_S2097152x4_d1 : Shape.Concatenates [S2097152x1, S2097152x3] S2097152x4 1
  scatter_S2097152_S8126464x1_S8126464_n_0_0_1_wf : ScatterDims.WF S2097152 S8126464x1 S8126464 [] [0] [0] 1
  scatter_S2097152x3_S8126464x1_S8126464x3_1_0_0_1_wf : ScatterDims.WF S2097152x3 S8126464x1 S8126464x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x32768.size a ≤ S7x1015808.size a
  hwx0_0 : ∀ i : grid0.Coords, EltTy.bits .f32 = 32 ∨ (Rect.block (s := S7x1015808) S7x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32768.size a ≤ S8x1015808.size a
  hwx0_1 : ∀ i : grid0.Coords, EltTy.bits .i32 = 32 ∨ (Rect.block (s := S8x1015808) S8x32768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32768.size a ≤ S8x1015808.size a
  hwx0_2 : ∀ i : grid0.Coords, EltTy.bits .f32 = 32 ∨ (Rect.block (s := S8x1015808) S8x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32768.size a ≤ S8x1015808.size a
  hwx0_3 : ∀ i : grid0.Coords, EltTy.bits .f32 = 32 ∨ (Rect.block (s := S8x1015808) S8x32768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x32768.size a ≤ S8x1015808.size a
  hwx0_4 : ∀ i : grid0.Coords, EltTy.bits .f32 = 32 ∨ (Rect.block (s := S8x1015808) S8x32768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x32768.size a ≤ S8x1015808.size a
  hwx0_5 : ∀ i : grid0.Coords, EltTy.bits .f32 = 32 ∨ (Rect.block (s := S8x1015808) S8x32768.size (cc0_transform_5 i) (hinb0_5 i)).WholeWords (EltTy.packing .f32)

variable [Facts₀]

def scatter_S2097152_S8126464x1_S8126464_n_0_0_1 : ScatterDims S2097152 S8126464x1 S8126464 where
  updateWindowDims := []
  insertedWindowDims := [0]
  scatterDimsToOperandDims := [0]
  indexVectorDim := 1
  wf := scatter_S2097152_S8126464x1_S8126464_n_0_0_1_wf
def scatter_S2097152x3_S8126464x1_S8126464x3_1_0_0_1 : ScatterDims S2097152x3 S8126464x1 S8126464x3 where
  updateWindowDims := [1]
  insertedWindowDims := [0]
  scatterDimsToOperandDims := [0]
  indexVectorDim := 1
  wf := scatter_S2097152x3_S8126464x1_S8126464x3_1_0_0_1_wf

abbrev win0_0 : Pipeline.Window sig grid0 :=
  Pipeline.Window.ofSpec (Memref.whole main_v6) S7x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7_0) S8x32768.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7_1) S8x32768.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_2) S8x32768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_3) S8x32768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_4) S8x32768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S1000000 : Shape := ⟨1, ![1000000]⟩
abbrev S3 : Shape := ⟨1, ![3]⟩
abbrev S8x3 : Shape := ⟨2, ![8, 3]⟩
abbrev S1x3 : Shape := ⟨2, ![1, 3]⟩
abbrev S_ : Shape := ⟨0, ![]⟩
abbrev S1000000x1x3 : Shape := ⟨3, ![1000000, 1, 3]⟩
abbrev S1x8x3 : Shape := ⟨3, ![1, 8, 3]⟩
abbrev S1000000x8x3 : Shape := ⟨3, ![1000000, 8, 3]⟩
abbrev S1000000x8x1 : Shape := ⟨3, ![1000000, 8, 1]⟩
abbrev S1000000x8 : Shape := ⟨2, ![1000000, 8]⟩
abbrev S8000000 : Shape := ⟨1, ![8000000]⟩
abbrev S1000000x1 : Shape := ⟨2, ![1000000, 1]⟩
abbrev S2097152 : Shape := ⟨1, ![2097152]⟩
abbrev S8000000x1 : Shape := ⟨2, ![8000000, 1]⟩
abbrev S8000000x3 : Shape := ⟨2, ![8000000, 3]⟩
abbrev S2097152x3 : Shape := ⟨2, ![2097152, 3]⟩
abbrev S2097152x1 : Shape := ⟨2, ![2097152, 1]⟩
abbrev S2097152x4 : Shape := ⟨2, ![2097152, 4]⟩

abbrev nBuf : Space → Nat
  | .hbm => 131
  | .vmem => 0
  | .smem => 0
  | _ => 0

abbrev hbmTy0_0 (i : Nat) : BufTy := match i % 128 with
  | 0 => ⟨S1000000x3, .f32⟩
  | 1 => ⟨S1000000x3, .f32⟩
  | 2 => ⟨S1000000, .f32⟩
  | 3 => ⟨S3, .f32⟩
  | 4 => ⟨S8x3, .i32⟩
  | 5 => ⟨S1x3, .f32⟩
  | 6 => ⟨S1000000x3, .f32⟩
  | 7 => ⟨S1000000x3, .f32⟩
  | 8 => ⟨S_, .f32⟩
  | 9 => ⟨S1000000x3, .f32⟩
  | 10 => ⟨S1000000x3, .f32⟩
  | 11 => ⟨S1000000x3, .f32⟩
  | 12 => ⟨S1000000x1x3, .f32⟩
  | 13 => ⟨S1x8x3, .i32⟩
  | 14 => ⟨S1x8x3, .f32⟩
  | 15 => ⟨S1000000x8x3, .f32⟩
  | 16 => ⟨S1000000x8x3, .f32⟩
  | 17 => ⟨S1000000x8x3, .f32⟩
  | 18 => ⟨S1000000x1x3, .f32⟩
  | 19 => ⟨S1000000x8x3, .f32⟩
  | 20 => ⟨S1000000x8x3, .f32⟩
  | 21 => ⟨S1000000x8x3, .i32⟩
  | 22 => ⟨S1000000x8x1, .i32⟩
  | 23 => ⟨S1000000x8, .i32⟩
  | 24 => ⟨S1000000x8x1, .i32⟩
  | 25 => ⟨S1000000x8, .i32⟩
  | 26 => ⟨S_, .i32⟩
  | 27 => ⟨S1000000x8, .i32⟩
  | 28 => ⟨S1000000x8, .i32⟩
  | 29 => ⟨S1000000x8, .i32⟩
  | 30 => ⟨S1000000x8x1, .i32⟩
  | 31 => ⟨S1000000x8, .i32⟩
  | 32 => ⟨S_, .i32⟩
  | 33 => ⟨S1000000x8, .i32⟩
  | 34 => ⟨S1000000x8, .i32⟩
  | 35 => ⟨S1000000x8, .i32⟩
  | 36 => ⟨S1000000x8x3, .f32⟩
  | 37 => ⟨S_, .f32⟩
  | 38 => ⟨S1000000x8x3, .f32⟩
  | 39 => ⟨S1000000x8x3, .f32⟩
  | 40 => ⟨S1000000x8x1, .f32⟩
  | 41 => ⟨S1000000x8, .f32⟩
  | 42 => ⟨S1000000x8x1, .f32⟩
  | 43 => ⟨S1000000x8, .f32⟩
  | 44 => ⟨S1000000x8, .f32⟩
  | 45 => ⟨S1000000x8x1, .f32⟩
  | 46 => ⟨S1000000x8, .f32⟩
  | 47 => ⟨S1000000x8, .f32⟩
  | 48 => ⟨S_, .i32⟩
  | 49 => ⟨S1000000x8, .i32⟩
  | 50 => ⟨S1000000x8, .i1⟩
  | 51 => ⟨S_, .i32⟩
  | 52 => ⟨S1000000x8, .i32⟩
  | 53 => ⟨S1000000x8, .i1⟩
  | 54 => ⟨S1000000x8, .i1⟩
  | 55 => ⟨S_, .f32⟩
  | 56 => ⟨S_, .f32⟩
  | 57 => ⟨S1000000x8, .f32⟩
  | 58 => ⟨S1000000x8, .f32⟩
  | 59 => ⟨S1000000x8x1, .f32⟩
  | 60 => ⟨S1000000x8, .f32⟩
  | 61 => ⟨S1000000x8, .f32⟩
  | 62 => ⟨S1000000x8, .f32⟩
  | 63 => ⟨S1000000x8x1, .f32⟩
  | 64 => ⟨S1000000x8, .f32⟩
  | 65 => ⟨S1000000x8, .f32⟩
  | 66 => ⟨S1000000x8x1, .f32⟩
  | 67 => ⟨S1000000x8, .f32⟩
  | 68 => ⟨S1000000x8, .f32⟩
  | 69 => ⟨S1000000x8x1, .f32⟩
  | 70 => ⟨S1000000x8, .f32⟩
  | 71 => ⟨S1000000x8, .f32⟩
  | 72 => ⟨S1000000x8, .f32⟩
  | 73 => ⟨S1000000x8x1, .f32⟩
  | 74 => ⟨S1000000x8, .f32⟩
  | 75 => ⟨S1000000x8, .f32⟩
  | 76 => ⟨S1000000x8x1, .f32⟩
  | 77 => ⟨S1000000x8, .f32⟩
  | 78 => ⟨S1000000x8, .f32⟩
  | 79 => ⟨S1000000x8x1, .f32⟩
  | 80 => ⟨S1000000x8, .f32⟩
  | 81 => ⟨S1000000x8, .f32⟩
  | 82 => ⟨S1000000x8, .f32⟩
  | 83 => ⟨S1000000x8x1, .f32⟩
  | 84 => ⟨S1000000x8, .f32⟩
  | 85 => ⟨S1000000x8, .f32⟩
  | 86 => ⟨S1000000x8x1, .f32⟩
  | 87 => ⟨S1000000x8, .f32⟩
  | 88 => ⟨S1000000x8, .f32⟩
  | 89 => ⟨S1000000x8x1, .f32⟩
  | 90 => ⟨S1000000x8x1, .f32⟩
  | 91 => ⟨S1000000x8x1, .f32⟩
  | 92 => ⟨S1000000x8x3, .f32⟩
  | 93 => ⟨S_, .f32⟩
  | 94 => ⟨S1000000x8x3, .f32⟩
  | 95 => ⟨S1000000x8x3, .f32⟩
  | 96 => ⟨S1000000x8x1, .i1⟩
  | 97 => ⟨S_, .f32⟩
  | 98 => ⟨S_, .f32⟩
  | 99 => ⟨S1000000x8x3, .i1⟩
  | 100 => ⟨S1000000x8x3, .f32⟩
  | 101 => ⟨S1000000x8x3, .f32⟩
  | 102 => ⟨S_, .i32⟩
  | 103 => ⟨S_, .i32⟩
  | 104 => ⟨S_, .i32⟩
  | 105 => ⟨S1000000x8, .i32⟩
  | 106 => ⟨S1000000x8, .i32⟩
  | 107 => ⟨S_, .i32⟩
  | 108 => ⟨S1000000x8, .i32⟩
  | 109 => ⟨S1000000x8, .i32⟩
  | 110 => ⟨S8000000, .i32⟩
  | 111 => ⟨S1000000x1, .f32⟩
  | 112 => ⟨S1000000x8, .f32⟩
  | 113 => ⟨S1000000x8, .f32⟩
  | 114 => ⟨S8000000, .f32⟩
  | 115 => ⟨S_, .f32⟩
  | 116 => ⟨S2097152, .f32⟩
  | 117 => ⟨S8000000x1, .i32⟩
  | 118 => ⟨S2097152, .f32⟩
  | 119 => ⟨S1000000x8x1, .f32⟩
  | 120 => ⟨S1000000x1x3, .f32⟩
  | 121 => ⟨S1000000x8x3, .f32⟩
  | 122 => ⟨S1000000x8x3, .f32⟩
  | 123 => ⟨S1000000x8x3, .f32⟩
  | 124 => ⟨S8000000x3, .f32⟩
  | 125 => ⟨S_, .f32⟩
  | 126 => ⟨S2097152x3, .f32⟩
  | 127 => ⟨S8000000x1, .i32⟩
  | _ => ⟨S1000000x3, .f32⟩

abbrev hbmTy0_1 (i : Nat) : BufTy := match i % 128 with
  | 0 => ⟨S2097152x3, .f32⟩
  | 1 => ⟨S2097152x1, .f32⟩
  | 2 => ⟨S2097152x4, .f32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_4 : Ref sig .tc := ⟨.hbm, 48, rfl⟩
abbrev main_v39 : Ref sig .tc := ⟨.hbm, 49, rfl⟩
abbrev main_v40 : Ref sig .tc := ⟨.hbm, 50, rfl⟩
abbrev main_c_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_call0_v0 : Ref sig .tc := ⟨.hbm, 56, rfl⟩
abbrev main_call0_v1 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_7 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_8 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v82 : Ref sig .tc := ⟨.hbm, 101, rfl⟩
abbrev main_c_9 : Ref sig .tc := ⟨.hbm, 102, rfl⟩
abbrev main_c_10 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_11 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_12 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  bcast_S_S1000000x3 : S_.BroadcastsInDim S1000000x3 (![] : Fin 0 → Fin S1000000x3.rank)
  bcast_S1000000x3_S1000000x1x3_0_2 : S1000000x3.BroadcastsInDim S1000000x1x3 (![0, 2] : Fin 2 → Fin S1000000x1x3.rank)
  bcast_S8x3_S1x8x3_1_2 : S8x3.BroadcastsInDim S1x8x3 (![1, 2] : Fin 2 → Fin S1x8x3.rank)
  bcast_S1000000x1x3_S1000000x8x3_0_1_2 : S1000000x1x3.BroadcastsInDim S1000000x8x3 (![0, 1, 2] : Fin 3 → Fin S1000000x8x3.rank)
  bcast_S1x8x3_S1000000x8x3_0_1_2 : S1x8x3.BroadcastsInDim S1000000x8x3 (![0, 1, 2] : Fin 3 → Fin S1000000x8x3.rank)
  slices_S1000000x8x3_S1000000x8x1_0_0_2 : S1000000x8x3.Slices ![0, 0, 2] S1000000x8x1
  shapeCasts_S1000000x8x1_S1000000x8 : S1000000x8x1.ShapeCasts S1000000x8
  slices_S1000000x8x3_S1000000x8x1_0_0_0 : S1000000x8x3.Slices ![0, 0, 0] S1000000x8x1
  bcast_S_S1000000x8 : S_.BroadcastsInDim S1000000x8 (![] : Fin 0 → Fin S1000000x8.rank)
  slices_S1000000x8x3_S1000000x8x1_0_0_1 : S1000000x8x3.Slices ![0, 0, 1] S1000000x8x1
  bcast_S_S1000000x8x3 : S_.BroadcastsInDim S1000000x8x3 (![] : Fin 0 → Fin S1000000x8x3.rank)
  bcast_S1000000x8_S1000000x8x1_0_1 : S1000000x8.BroadcastsInDim S1000000x8x1 (![0, 1] : Fin 2 → Fin S1000000x8x1.rank)
  concatenates_S1000000x8x1_S1000000x8x1_S1000000x8x1_S1000000x8x3_d2 : Shape.Concatenates [S1000000x8x1, S1000000x8x1, S1000000x8x1] S1000000x8x3 2
  bcast_S1000000x8x1_S1000000x8x3_0_1_2 : S1000000x8x1.BroadcastsInDim S1000000x8x3 (![0, 1, 2] : Fin 3 → Fin S1000000x8x3.rank)
  shapeCasts_S1000000x8_S8000000 : S1000000x8.ShapeCasts S8000000
  bcast_S1000000_S1000000x1_0 : S1000000.BroadcastsInDim S1000000x1 (![0] : Fin 1 → Fin S1000000x1.rank)
  bcast_S1000000x1_S1000000x8_0_1 : S1000000x1.BroadcastsInDim S1000000x8 (![0, 1] : Fin 2 → Fin S1000000x8.rank)
  bcast_S_S2097152 : S_.BroadcastsInDim S2097152 (![] : Fin 0 → Fin S2097152.rank)
  bcast_S8000000_S8000000x1_0 : S8000000.BroadcastsInDim S8000000x1 (![0] : Fin 1 → Fin S8000000x1.rank)
  shapeCasts_S1000000x8x3_S8000000x3 : S1000000x8x3.ShapeCasts S8000000x3
  bcast_S_S2097152x3 : S_.BroadcastsInDim S2097152x3 (![] : Fin 0 → Fin S2097152x3.rank)
  bcast_S2097152_S2097152x1_0 : S2097152.BroadcastsInDim S2097152x1 (![0] : Fin 1 → Fin S2097152x1.rank)
  concatenates_S2097152x1_S2097152x3_S2097152x4_d1 : Shape.Concatenates [S2097152x1, S2097152x3] S2097152x4 1
  scatter_S2097152_S8000000x1_S8000000_n_0_0_1_wf : ScatterDims.WF S2097152 S8000000x1 S8000000 [] [0] [0] 1
  scatter_S2097152x3_S8000000x1_S8000000x3_1_0_0_1_wf : ScatterDims.WF S2097152x3 S8000000x1 S8000000x3 [1] [0] [0] 1

variable [Facts₀]

def scatter_S2097152_S8000000x1_S8000000_n_0_0_1 : ScatterDims S2097152 S8000000x1 S8000000 where
  updateWindowDims := []
  insertedWindowDims := [0]
  scatterDimsToOperandDims := [0]
  indexVectorDim := 1
  wf := scatter_S2097152_S8000000x1_S8000000_n_0_0_1_wf
def scatter_S2097152x3_S8000000x1_S8000000x3_1_0_0_1 : ScatterDims S2097152x3 S8000000x1 S8000000x3 where
  updateWindowDims := [1]
  insertedWindowDims := [0]
  scatterDimsToOperandDims := [0]
  indexVectorDim := 1
  wf := scatter_S2097152x3_S8000000x1_S8000000x3_1_0_0_1_wf

class Facts : Prop extends Facts₀ where

variable [Facts]
-- ==== Proof.K.Main.lean ====
/-
  @main around its one kernel region, at any instance.  Before the region the host pads the three argument arrays with
  15808 zero rows, transposes the two [1015808, 3] arrays, and stacks the seven channel rows into one [7, 1015808] array;
  after it the host flattens the five result arrays, adds their entries into zero-filled grids by two accumulating
  scatters, and joins the two grids.  Stated here: the buffer contents when the region is entered (`V0`, `V`), @main as
  prefix, region and tail for the library's launch theorem, that the tail touches no array of the pipeline, that no host
  line writes an argument array, each window's block at a grid point, and the frame claim read off a frame run.
-/
import proofs.«111574_j40132174414020_1_alg».proof.Proof.Gen.Kernel.Launch
import proofs.«111574_j40132174414020_1_alg».proof.Proof.Gen.Kernel.Skeleton
import proofs.«111574_j40132174414020_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host stretches before the region, in order. -/
abbrev prefixOps : List (List (HloOp τ sig (Elt F))) :=
  [hostOps0, hostOps0_1, hostOps0_2, hostOps0_3, hostOps0_4, hostOps0_5, hostOps0_6]

/-- Core `c`'s buffer contents when the region is entered: after the host operations before it. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the prefix, the region, and the tail: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (prefixOps (F := F)) [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0` either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1` either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg2` either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the library's frame post read at the three
    argument arrays (none is staged by a window, so each is in the post's second clause) is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

end Cert.Kernel.Hand

end
-- ==== Proof.K.Run.lean ====
/-
  The kernel body run once on whole staging buffers, at any instance.  The body loads the seven channel rows of its input
  block, computes per corner, and stores five whole blocks (cell numbers, mass shares, three momentum shares), each a
  concatenation of eight corner rows.  Stated here: from the input buffer at contents `x0` and the five output buffers at
  anything, the body runs to its continuation with the input buffer unchanged and each output buffer overwritten by a list
  of stored pieces; the lists are the witness the symbolic run finds.
-/
import proofs.«111574_j40132174414020_1_alg».proof.Proof.Gen.Kernel.Launch
import proofs.«111574_j40132174414020_1_alg».proof.Proof.Gen.Kernel.Skeleton
import proofs.«111574_j40132174414020_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the body stores into each of its five output buffers. -/
structure Pieces (F : FTy → Type) [FloatOps F] where
  p1 : List (View.Piece (Elt F) S8x32768 .i32)
  p2 : List (View.Piece (Elt F) S8x32768 .f32)
  p3 : List (View.Piece (Elt F) S8x32768 .f32)
  p4 : List (View.Piece (Elt F) S8x32768 .f32)
  p5 : List (View.Piece (Elt F) S8x32768 .f32)

set_option maxHeartbeats 4000000 in
/-- The body's triple with the stored pieces as witness. -/
noncomputable def kernelRun (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) :
    { L : Pieces F //
      ∀ (E : Set ℕ) (K : PUnit → sProp 𝕄),
        iprop(owns (c : Thread nD τ) arg1 fullShare x0
            ∗ (∃ d, owns (c : Thread nD τ) arg2 fullShare d)
            ∗ (∃ d, owns (c : Thread nD τ) arg3 fullShare d)
            ∗ (∃ d, owns (c : Thread nD τ) arg4 fullShare d)
            ∗ (∃ d, owns (c : Thread nD τ) arg5 fullShare d)
            ∗ (∃ d, owns (c : Thread nD τ) arg6 fullShare d)
            ∗ (iprop(owns (c : Thread nD τ) arg1 fullShare x0
                ∗ (∃ f, arg2.view.loc (c : Thread nD τ) ↦[arg2.view.set]{fullShare} arg2.view.writes (Elt F) f L.p1)
                ∗ (∃ f, arg3.view.loc (c : Thread nD τ) ↦[arg3.view.set]{fullShare} arg3.view.writes (Elt F) f L.p2)
                ∗ (∃ f, arg4.view.loc (c : Thread nD τ) ↦[arg4.view.set]{fullShare} arg4.view.writes (Elt F) f L.p3)
                ∗ (∃ f, arg5.view.loc (c : Thread nD τ) ↦[arg5.view.set]{fullShare} arg5.view.writes (Elt F) f L.p4)
                ∗ (∃ f, arg6.view.loc (c : Thread nD τ) ↦[arg6.view.set]{fullShare} arg6.view.writes (Elt F) f L.p5)) -∗ K ⟨⟩))
          ⊢ wp frame (wpE (defs₀ (F := F)) Variants.none c none) E
              (cc0__mpm_kernel i arg1 harg1 arg2 harg2 arg3 harg3 arg4 harg4 arg5 harg5 arg6 harg6) K } := by
  refine ⟨⟨?_, ?_, ?_, ?_, ?_⟩, fun E K => ?run⟩
  case run =>
    simp only [cc0__mpm_kernel_eq_skeleton]; unfold cc0__mpm_kernel_skel
    unfold owns
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, Hk⟩
    obtain rfl := harg1.eq_unread hf0
    sl_exec
    sl_step
    iapply Hk
    isplitl [H0]
    · iexists _; isplitr; · ipureintro; exact harg1.read_unread _
      iexact H0
    isplitl [H1]; · iexists _; iexact H1
    isplitl [H2]; · iexists _; iexact H2
    isplitl [H3]; · iexists _; iexact H3
    isplitl [H4]; · iexists _; iexact H4
    iexists _; iexact H5

end Cert.Kernel.Hand

end
-- ==== Proof.Spec.lean ====
/-
  The particle-to-grid transfer both programs compute, stated once and index by index.
  A particle at position (x, y, z) in a grid of 128³ cells of width 1/64 touches the eight corners of its cell.
  For corner k (bits i j l of k, most significant first) and axis coordinate x with offset bit b:
    rel x = 64·x,  gp x b = ⌊rel x⌋ + b,  dist = rel x − gp,  wgt = 1 − |dist|.
  The corner's cell number is gp z + 128·gp x + 16384·gp y as 32-bit words, kept only if it lies in [0, 2²¹) (else the
  weight is replaced by zero) and clipped into that range; the weight is the product of the three axis weights; the
  corner receives weight·mass, and weight·mass·velocity per velocity component.  The result array's row c is the sum,
  over all (particle, corner) pairs whose clipped cell number is c, of those four quantities.
  Every float operation is the instance's own field, so the same text reads at any instance; literals stay bit patterns.
-/
import Idealize.ShloMosaic.PureOps
import Idealize.ShloMosaic.PureOps.Ideal
import Idealize.ShloMosaic.Lib.ValueIdx

noncomputable section

namespace Cert.Spec

open Idealize.ShloMosaic Idealize.ShloMosaic.ValueIdx

variable {F : FTy → Type} [FloatOps F]

/-- Bit of corner `k` along axis `a` (axis 0 is the most significant of the three bits). -/
def bit (k : Fin 8) (a : Fin 3) : Bool := decide ((k.val / 2 ^ (2 - a.val)) % 2 = 1)

/-- The offset 0.0 or 1.0 as the float literal both programs spell. -/
def offF (b : Bool) : F .f32 := FloatOps.ofBits .f32 (if b then 0x3F800000#32 else 0x00000000#32)

/-- Position in cell units: x · 64. -/
def rel (x : F .f32) : F .f32 := FloatOps.mulf x (FloatOps.ofBits .f32 0x42800000#32)
/-- Grid coordinate of the corner along one axis: ⌊rel x⌋ + offset. -/
def gp (x : F .f32) (b : Bool) : F .f32 := FloatOps.addf (FloatOps.floor (rel x)) (offF b)
/-- Signed distance to the corner along one axis. -/
def dist (x : F .f32) (b : Bool) : F .f32 := FloatOps.subf (rel x) (gp x b)
/-- Linear shape weight along one axis: 1 − |dist|. -/
def wgt (x : F .f32) (b : Bool) : F .f32 := FloatOps.subf (FloatOps.ofBits .f32 0x3F800000#32) (FloatOps.absf (dist x b))
/-- The corner's grid coordinate as a 32-bit integer. -/
def gpi (x : F .f32) (b : Bool) : BitVec 32 := FloatOps.fptosi 32 (gp x b)

/-- Cell number before the range test: gp z + gp x · 128 + gp y · 16384 (wrapping 32-bit arithmetic). -/
def rawHash (x y z : F .f32) (k : Fin 8) : BitVec 32 :=
  IntOp.addi (IntOp.addi (gpi z (bit k 2)) (IntOp.muli (gpi x (bit k 0)) 128#32)) (IntOp.muli (gpi y (bit k 1)) 16384#32)

/-- 0 ≤ h < 2²¹ as a one-bit word. -/
def valid (h : BitVec 32) : BitVec 1 := IntOp.andi (IntOp.cmpi .sge h 0#32) (IntOp.cmpi .slt h 2097152#32)

/-- The clipped cell number. -/
def cell (x y z : F .f32) (k : Fin 8) : BitVec 32 := IntOp.minsi 2097151#32 (IntOp.maxsi 0#32 (rawHash x y z k))

/-- The shape weight of the corner, zero when the cell number is out of range. -/
def shp (x y z : F .f32) (k : Fin 8) : F .f32 :=
  Scalar.select (valid (rawHash x y z k))
    (FloatOps.mulf (FloatOps.mulf (wgt x (bit k 0)) (wgt y (bit k 1))) (wgt z (bit k 2)))
    (FloatOps.ofBits .f32 0x00000000#32)

/-- Mass sent to the corner. -/
def sm (x y z ms : F .f32) (k : Fin 8) : F .f32 := FloatOps.mulf (shp x y z k) ms
/-- One momentum component sent to the corner. -/
def mom (x y z ms v : F .f32) (k : Fin 8) : F .f32 := FloatOps.mulf (sm x y z ms k) v

/-! ## One block of 32768 particles, channels on rows (0–2 position, 3–5 velocity, 6 mass), corners on rows of the results -/

abbrev SIn : Shape := ⟨2, ![7, 32768]⟩
abbrev SOutB : Shape := ⟨2, ![8, 32768]⟩

def hashBlk (x0 : SIn.Idx → F .f32) : SOutB.Idx → BitVec 32 := fun y =>
  cell (x0 (ix2 0 (y 1))) (x0 (ix2 1 (y 1))) (x0 (ix2 2 (y 1))) (y 0)
def smBlk (x0 : SIn.Idx → F .f32) : SOutB.Idx → F .f32 := fun y =>
  sm (x0 (ix2 0 (y 1))) (x0 (ix2 1 (y 1))) (x0 (ix2 2 (y 1))) (x0 (ix2 6 (y 1))) (y 0)
/-- Momentum component `a` (0, 1, 2): velocity row 3 + a. -/
def momBlk (a : Fin 3) (x0 : SIn.Idx → F .f32) : SOutB.Idx → F .f32 := fun y =>
  mom (x0 (ix2 0 (y 1))) (x0 (ix2 1 (y 1))) (x0 (ix2 2 (y 1))) (x0 (ix2 6 (y 1))) (x0 (ix2 ⟨3 + a.val, by omega⟩ (y 1))) (y 0)

/-! ## The whole result, at the ideal instance -/

abbrev SPos : Shape := ⟨2, ![1000000, 3]⟩
abbrev SMass : Shape := ⟨1, ![1000000]⟩
abbrev SRes : Shape := ⟨2, ![2097152, 4]⟩

/-- Clipped cell number of particle `p`'s corner `k`. -/
def cellAt (pos : SPos.Idx → Ideal .f32) (p : Fin 1000000) (k : Fin 8) : BitVec 32 :=
  cell (pos (ix2 p 0)) (pos (ix2 p 1)) (pos (ix2 p 2)) k

/-- What particle `p`'s corner `k` adds to column `q` of its cell's row: the mass share (q = 0) or a momentum share. -/
def updAt (pos vel : SPos.Idx → Ideal .f32) (mass : SMass.Idx → Ideal .f32) (p : Fin 1000000) (k : Fin 8) (q : Fin 4) : Ideal .f32 :=
  match q with
  | ⟨0, _⟩ => sm (pos (ix2 p 0)) (pos (ix2 p 1)) (pos (ix2 p 2)) (mass (ix1 p)) k
  | ⟨n + 1, h⟩ => mom (pos (ix2 p 0)) (pos (ix2 p 1)) (pos (ix2 p 2)) (mass (ix1 p)) (vel (ix2 p ⟨n, by omega⟩)) k

/-- The result: row `c`, column `q` is zero plus the sum over all particles and corners landing on cell `c`. -/
def Out (pos vel : SPos.Idx → Ideal .f32) (mass : SMass.Idx → Ideal .f32) : SRes.Idx → Ideal .f32 := fun i =>
  (Ideal.ofBits .f32 0x00000000#32 : EReal) +
    ∑ p : Fin 1000000, ∑ k : Fin 8,
      if (cellAt pos p k).toInt = ((i 0).val : Int) then (updAt pos vel mass p k (i 1) : EReal) else 0

end Cert.Spec

end
-- ==== Proof.K.Blocks.lean ====
/-
  What the kernel body leaves in its five output blocks, as functions of the input block.  Row k of each output block is
  corner k's quantity for the 32768 particles of the block, computed lane by lane from the seven channel rows: the clipped
  cell number, the mass share, and the three momentum shares.  Each output is stored as one whole-block piece whose value
  concatenates the eight corner rows; read back at (k, q) it is the specification's scalar function of the channels at lane q.
-/
import proofs.«111574_j40132174414020_1_alg».proof.Proof.K.Run
import proofs.«111574_j40132174414020_1_alg».proof.Proof.Spec
import Idealize.ShloMosaic.Lib.ValueIdx
import Idealize.ShloMosaic.Lib.Pipeline.Value
import Idealize.ShloMosaic.Lib.WholeRead

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx

variable {F : FTy → Type} [FloatOps F]

namespace Blocks

/-- The zero offsets of a whole-block access, spelt as the constant function. -/
theorem hz : (![0, 0] : Fin 2 → Nat) = fun _ => 0 := funext fun a => by fin_cases a <;> rfl

/-- A row vector recast to its own shape is itself. -/
theorem shapeCast_row {α : Type} (v : S1x32768.Idx → α) (h : S1x32768.ShapeCasts S1x32768) :
    shapeCast S1x32768 v h = v := by
  funext j; exact shapeCast_apply v h j j rfl

/-- Channel row `r` of the input block, as a row vector. -/
def row (x0 : Vec F S7x32768 .f32) (r : Fin 7) : Vec F S1x32768 .f32 := fun j => x0 (ix2 r (j 1))

/-- The load of row `r` from the whole input buffer held at `x0` is that row. -/
theorem load_row (arg1 : Memref sig .tc .vmem S7x32768 .f32) (harg1 : arg1.IsWhole) (x0 : Vec F S7x32768 .f32)
    (r : Nat) (hr : r < 7) (inb : ∀ a, (![r, 0] : Fin 2 → Nat) a + S1x32768.size a ≤ S7x32768.size a) :
    View.readAt (Elt F) arg1.view (Rect.unit (s := S7x32768) ![r, 0] S1x32768.size inb).toLoadRect (harg1.unread x0) = row x0 ⟨r, hr⟩ := by
  funext j
  refine (harg1.readAt_unread x0 _ j).trans ?_
  show x0 _ = x0 _
  congr 1
  funext a
  match a with
  | ⟨0, _⟩ => exact Fin.ext (by show r + 1 * (j 0).val = r; have := idx2_lt0 j; omega)
  | ⟨1, _⟩ => exact Fin.ext (by show 0 + 1 * (j 1).val = (j 1).val; omega)

/-- Eight row vectors stacked: row `k` of the stack is the `k`-th vector. -/
theorem concat8_apply {α : Type} (v0 v1 v2 v3 v4 v5 v6 v7 : S1x32768.Idx → α)
    (h : Shape.Concatenates ([(⟨S1x32768, v0⟩ : (s : Shape) × (s.Idx → α)), ⟨S1x32768, v1⟩, ⟨S1x32768, v2⟩, ⟨S1x32768, v3⟩, ⟨S1x32768, v4⟩, ⟨S1x32768, v5⟩, ⟨S1x32768, v6⟩, ⟨S1x32768, v7⟩].map (·.1)) S8x32768 0)
    (k : Fin 8) (q : Fin 32768) :
    concatenate S8x32768 0 [⟨S1x32768, v0⟩, ⟨S1x32768, v1⟩, ⟨S1x32768, v2⟩, ⟨S1x32768, v3⟩, ⟨S1x32768, v4⟩, ⟨S1x32768, v5⟩, ⟨S1x32768, v6⟩, ⟨S1x32768, v7⟩] h (ix2 k q)
      = (![v0, v1, v2, v3, v4, v5, v6, v7] k) (ix2 0 q) := by
  have hi : ∀ (k : Fin 8) (b : Fin S1x32768.rank), b.cast (rfl : S1x32768.rank = S8x32768.rank) ≠ 0 →
      ((ix2 0 q : S1x32768.Idx) b).val = ((ix2 k q : S8x32768.Idx) (b.cast rfl)).val := by
    intro k b hb
    match b with
    | ⟨0, _⟩ => exact absurd rfl hb
    | ⟨1, _⟩ => rfl
  fin_cases k
  · exact concatenate_apply_piece 0 _ h _ 0 (by show (0 : Nat) < 8; omega) S1x32768 v0 rfl rfl 0 rfl (ix2 0 q) (hi 0) rfl
  · exact concatenate_apply_piece 0 _ h _ 1 (by show (1 : Nat) < 8; omega) S1x32768 v1 rfl rfl 1 rfl (ix2 0 q) (hi 1) rfl
  · exact concatenate_apply_piece 0 _ h _ 2 (by show (2 : Nat) < 8; omega) S1x32768 v2 rfl rfl 2 rfl (ix2 0 q) (hi 2) rfl
  · exact concatenate_apply_piece 0 _ h _ 3 (by show (3 : Nat) < 8; omega) S1x32768 v3 rfl rfl 3 rfl (ix2 0 q) (hi 3) rfl
  · exact concatenate_apply_piece 0 _ h _ 4 (by show (4 : Nat) < 8; omega) S1x32768 v4 rfl rfl 4 rfl (ix2 0 q) (hi 4) rfl
  · exact concatenate_apply_piece 0 _ h _ 5 (by show (5 : Nat) < 8; omega) S1x32768 v5 rfl rfl 5 rfl (ix2 0 q) (hi 5) rfl
  · exact concatenate_apply_piece 0 _ h _ 6 (by show (6 : Nat) < 8; omega) S1x32768 v6 rfl rfl 6 rfl (ix2 0 q) (hi 6) rfl
  · exact concatenate_apply_piece 0 _ h _ 7 (by show (7 : Nat) < 8; omega) S1x32768 v7 rfl rfl 7 rfl (ix2 0 q) (hi 7) rfl

/-! The loaded rows pass through a recast to their own shape; position rows are then scaled to cell units. -/
theorem pay7_eq (v : Vec F S1x32768 .f32) : k0_pay7 v = v := shapeCast_row v _
theorem pay8_eq (v : Vec F S1x32768 .f32) : k0_pay8 v = v := shapeCast_row v _
theorem pay9_eq (v : Vec F S1x32768 .f32) : k0_pay9 v = v := shapeCast_row v _
theorem pay10_eq (v : Vec F S1x32768 .f32) : k0_pay10 v = v := shapeCast_row v _
theorem pay11_eq (v : Vec F S1x32768 .f32) : k0_pay11 v = fun j => Cert.Spec.rel (v j) := by
  unfold k0_pay11; rw [shapeCast_row]; rfl
theorem pay12_eq (v : Vec F S1x32768 .f32) : k0_pay12 v = fun j => Cert.Spec.rel (v j) := by
  unfold k0_pay12; rw [shapeCast_row]; rfl
theorem pay13_eq (v : Vec F S1x32768 .f32) : k0_pay13 v = fun j => Cert.Spec.rel (v j) := by
  unfold k0_pay13; rw [shapeCast_row]; rfl

/-! Per axis, before any corner offset: the floor, then the offset-zero corner's grid coordinate, distance and integer coordinate. -/
theorem pay14_eq (v : Vec F S1x32768 .f32) : k0_pay14 v = fun j => FloatOps.floor (Cert.Spec.rel (v j)) := by
  unfold k0_pay14; rw [pay11_eq]; rfl
theorem pay15_eq (v : Vec F S1x32768 .f32) : k0_pay15 v = fun j => FloatOps.floor (Cert.Spec.rel (v j)) := by
  unfold k0_pay15; rw [pay12_eq]; rfl
theorem pay16_eq (v : Vec F S1x32768 .f32) : k0_pay16 v = fun j => FloatOps.floor (Cert.Spec.rel (v j)) := by
  unfold k0_pay16; rw [pay13_eq]; rfl
theorem pay17_eq (v : Vec F S1x32768 .f32) : k0_pay17 v = fun j => Cert.Spec.gp (v j) false := by
  unfold k0_pay17; rw [pay14_eq]; rfl
theorem pay18_eq (v : Vec F S1x32768 .f32) : k0_pay18 v = fun j => Cert.Spec.gp (v j) false := by
  unfold k0_pay18; rw [pay15_eq]; rfl
theorem pay19_eq (v : Vec F S1x32768 .f32) : k0_pay19 v = fun j => Cert.Spec.gp (v j) false := by
  unfold k0_pay19; rw [pay16_eq]; rfl
theorem pay20_eq (v : Vec F S1x32768 .f32) : k0_pay20 v = fun j => Cert.Spec.dist (v j) false := by
  unfold k0_pay20; rw [pay11_eq, pay17_eq]; rfl
theorem pay21_eq (v : Vec F S1x32768 .f32) : k0_pay21 v = fun j => Cert.Spec.dist (v j) false := by
  unfold k0_pay21; rw [pay12_eq, pay18_eq]; rfl
theorem pay22_eq (v : Vec F S1x32768 .f32) : k0_pay22 v = fun j => Cert.Spec.dist (v j) false := by
  unfold k0_pay22; rw [pay13_eq, pay19_eq]; rfl
theorem pay23_eq (v : Vec F S1x32768 .f32) : k0_pay23 v = fun j => Cert.Spec.gpi (v j) false := by
  unfold k0_pay23; rw [pay18_eq]; rfl
theorem pay24_eq (v0 v4 : Vec F S1x32768 .f32) : k0_pay24 v0 v4 = fun j =>
    IntOp.addi (Cert.Spec.gpi (v4 j) false) (IntOp.muli (Cert.Spec.gpi (v0 j) false) 128#32) := by
  unfold k0_pay24; rw [pay17_eq, pay19_eq]; rfl

/-! ## The eight corner rows of each output, over arbitrary channel rows
Each is the same chain of field operations on both sides, lane by lane. -/

/-! The cell-number rows: corner by corner, the stacked row at lane `q` is the specification's clipped cell number. -/
theorem cellRow_0 (l0 l1 l2 l3 l4 l5 l6 : Vec F S1x32768 .f32) (q : Fin 32768) :
    (k0_pay26 (fun j => Spec.gpi (l1 j) false) fun j => IntOp.addi (Spec.gpi (l2 j) false) (IntOp.muli (Spec.gpi (l0 j) false) 128#32)) (ix2 0 q)
      = Cert.Spec.cell (l0 (ix2 0 q)) (l1 (ix2 0 q)) (l2 (ix2 0 q)) 0 := rfl
theorem cellRow_1 (l0 l1 l2 l3 l4 l5 l6 : Vec F S1x32768 .f32) (q : Fin 32768) :
    (k0_pay40 (k0_pay37 (fun j => FloatOps.floor (Spec.rel (l0 j))) fun j => FloatOps.floor (Spec.rel (l2 j))) (k0_pay38 fun j => FloatOps.floor (Spec.rel (l1 j)))) (ix2 0 q)
      = Cert.Spec.cell (l0 (ix2 0 q)) (l1 (ix2 0 q)) (l2 (ix2 0 q)) 1 := rfl
theorem cellRow_2 (l0 l1 l2 l3 l4 l5 l6 : Vec F S1x32768 .f32) (q : Fin 32768) :
    (k0_pay52 (k0_pay50 (fun j => FloatOps.floor (Spec.rel (l0 j))) (fun j => FloatOps.floor (Spec.rel (l1 j))) fun j => FloatOps.floor (Spec.rel (l2 j)))) (ix2 0 q)
      = Cert.Spec.cell (l0 (ix2 0 q)) (l1 (ix2 0 q)) (l2 (ix2 0 q)) 2 := rfl
theorem cellRow_3 (l0 l1 l2 l3 l4 l5 l6 : Vec F S1x32768 .f32) (q : Fin 32768) :
    (k0_pay64 (k0_pay61 (fun j => FloatOps.floor (Spec.rel (l0 j))) (fun j => FloatOps.floor (Spec.rel (l1 j))) fun j => FloatOps.floor (Spec.rel (l2 j)))) (ix2 0 q)
      = Cert.Spec.cell (l0 (ix2 0 q)) (l1 (ix2 0 q)) (l2 (ix2 0 q)) 3 := rfl
theorem cellRow_4 (l0 l1 l2 l3 l4 l5 l6 : Vec F S1x32768 .f32) (q : Fin 32768) :
    (k0_pay76 (k0_pay73 (fun j => FloatOps.floor (Spec.rel (l0 j))) (fun j => FloatOps.floor (Spec.rel (l1 j))) fun j => FloatOps.floor (Spec.rel (l2 j)))) (ix2 0 q)
      = Cert.Spec.cell (l0 (ix2 0 q)) (l1 (ix2 0 q)) (l2 (ix2 0 q)) 4 := rfl
theorem cellRow_5 (l0 l1 l2 l3 l4 l5 l6 : Vec F S1x32768 .f32) (q : Fin 32768) :
    (k0_pay89 (k0_pay84 (fun j => FloatOps.floor (Spec.rel (l0 j))) (fun j => FloatOps.floor (Spec.rel (l1 j))) fun j => FloatOps.floor (Spec.rel (l2 j)))) (ix2 0 q)
      = Cert.Spec.cell (l0 (ix2 0 q)) (l1 (ix2 0 q)) (l2 (ix2 0 q)) 5 := rfl
theorem cellRow_6 (l0 l1 l2 l3 l4 l5 l6 : Vec F S1x32768 .f32) (q : Fin 32768) :
    (k0_pay99 (k0_pay97 (fun j => FloatOps.floor (Spec.rel (l0 j))) (fun j => FloatOps.floor (Spec.rel (l1 j))) fun j => FloatOps.floor (Spec.rel (l2 j)))) (ix2 0 q)
      = Cert.Spec.cell (l0 (ix2 0 q)) (l1 (ix2 0 q)) (l2 (ix2 0 q)) 6 := rfl
theorem cellRow_7 (l0 l1 l2 l3 l4 l5 l6 : Vec F S1x32768 .f32) (q : Fin 32768) :
    (minsi (broadcast S1x32768 2097151#32) (maxsi (broadcast S1x32768 0#32) (k0_pay107 (fun j => FloatOps.floor (Spec.rel (l0 j))) (fun j => FloatOps.floor (Spec.rel (l1 j))) fun j => FloatOps.floor (Spec.rel (l2 j))))) (ix2 0 q)
      = Cert.Spec.cell (l0 (ix2 0 q)) (l1 (ix2 0 q)) (l2 (ix2 0 q)) 7 := rfl

/-! The mass-share rows. -/
theorem massRow_0 (l0 l1 l2 l3 l4 l5 l6 : Vec F S1x32768 .f32) (q : Fin 32768) :
    (k0_pay27 l6 (fun j => Spec.dist (l0 j) false) (fun j => Spec.dist (l1 j) false) (fun j => Spec.dist (l2 j) false) (fun j => Spec.gpi (l1 j) false) fun j => IntOp.addi (Spec.gpi (l2 j) false) (IntOp.muli (Spec.gpi (l0 j) false) 128#32)) (ix2 0 q)
      = Cert.Spec.sm (l0 (ix2 0 q)) (l1 (ix2 0 q)) (l2 (ix2 0 q)) (l6 (ix2 0 q)) 0 := rfl
theorem massRow_1 (l0 l1 l2 l3 l4 l5 l6 : Vec F S1x32768 .f32) (q : Fin 32768) :
    (k0_pay41 l6 (k0_pay34 (fun j => Spec.rel (l0 j)) fun j => FloatOps.floor (Spec.rel (l0 j))) (k0_pay35 (fun j => Spec.rel (l1 j)) fun j => FloatOps.floor (Spec.rel (l1 j))) (k0_pay36 (fun j => Spec.rel (l2 j)) fun j => FloatOps.floor (Spec.rel (l2 j))) (k0_pay37 (fun j => FloatOps.floor (Spec.rel (l0 j))) fun j => FloatOps.floor (Spec.rel (l2 j))) (k0_pay38 fun j => FloatOps.floor (Spec.rel (l1 j)))) (ix2 0 q)
      = Cert.Spec.sm (l0 (ix2 0 q)) (l1 (ix2 0 q)) (l2 (ix2 0 q)) (l6 (ix2 0 q)) 1 := rfl
theorem massRow_2 (l0 l1 l2 l3 l4 l5 l6 : Vec F S1x32768 .f32) (q : Fin 32768) :
    (k0_pay53 l6 (k0_pay48 (fun j => Spec.rel (l1 j)) fun j => FloatOps.floor (Spec.rel (l1 j))) (k0_pay49 (fun j => Spec.rel (l2 j)) fun j => FloatOps.floor (Spec.rel (l2 j))) (k0_pay50 (fun j => FloatOps.floor (Spec.rel (l0 j))) (fun j => FloatOps.floor (Spec.rel (l1 j))) fun j => FloatOps.floor (Spec.rel (l2 j))) (k0_pay51 (fun j => Spec.rel (l0 j)) fun j => FloatOps.floor (Spec.rel (l0 j))) (FloatOps.ofBits FTy.f32 1065353216#32)) (ix2 0 q)
      = Cert.Spec.sm (l0 (ix2 0 q)) (l1 (ix2 0 q)) (l2 (ix2 0 q)) (l6 (ix2 0 q)) 2 := rfl
theorem massRow_3 (l0 l1 l2 l3 l4 l5 l6 : Vec F S1x32768 .f32) (q : Fin 32768) :
    (k0_pay65 l6 (k0_pay60 (fun j => Spec.rel (l2 j)) fun j => FloatOps.floor (Spec.rel (l2 j))) (k0_pay61 (fun j => FloatOps.floor (Spec.rel (l0 j))) (fun j => FloatOps.floor (Spec.rel (l1 j))) fun j => FloatOps.floor (Spec.rel (l2 j))) (k0_pay62 (fun j => Spec.rel (l0 j)) fun j => FloatOps.floor (Spec.rel (l0 j))) (k0_pay63 (fun j => Spec.rel (l1 j)) fun j => FloatOps.floor (Spec.rel (l1 j)))) (ix2 0 q)
      = Cert.Spec.sm (l0 (ix2 0 q)) (l1 (ix2 0 q)) (l2 (ix2 0 q)) (l6 (ix2 0 q)) 3 := rfl
theorem massRow_4 (l0 l1 l2 l3 l4 l5 l6 : Vec F S1x32768 .f32) (q : Fin 32768) :
    (k0_pay77 l6 (k0_pay72 (fun j => Spec.rel (l2 j)) fun j => FloatOps.floor (Spec.rel (l2 j))) (k0_pay73 (fun j => FloatOps.floor (Spec.rel (l0 j))) (fun j => FloatOps.floor (Spec.rel (l1 j))) fun j => FloatOps.floor (Spec.rel (l2 j))) (k0_pay74 (fun j => Spec.rel (l0 j)) fun j => FloatOps.floor (Spec.rel (l0 j))) (k0_pay75 (fun j => Spec.rel (l1 j)) fun j => FloatOps.floor (Spec.rel (l1 j)))) (ix2 0 q)
      = Cert.Spec.sm (l0 (ix2 0 q)) (l1 (ix2 0 q)) (l2 (ix2 0 q)) (l6 (ix2 0 q)) 4 := rfl
theorem massRow_5 (l0 l1 l2 l3 l4 l5 l6 : Vec F S1x32768 .f32) (q : Fin 32768) :
    (k0_pay90 l6 (k0_pay84 (fun j => FloatOps.floor (Spec.rel (l0 j))) (fun j => FloatOps.floor (Spec.rel (l1 j))) fun j => FloatOps.floor (Spec.rel (l2 j))) (k0_pay85 (fun j => Spec.rel (l0 j)) fun j => FloatOps.floor (Spec.rel (l0 j))) (k0_pay86 (fun j => Spec.rel (l1 j)) fun j => FloatOps.floor (Spec.rel (l1 j))) (k0_pay87 (fun j => Spec.rel (l2 j)) fun j => FloatOps.floor (Spec.rel (l2 j))) k0_pay88) (ix2 0 q)
      = Cert.Spec.sm (l0 (ix2 0 q)) (l1 (ix2 0 q)) (l2 (ix2 0 q)) (l6 (ix2 0 q)) 5 := rfl
theorem massRow_6 (l0 l1 l2 l3 l4 l5 l6 : Vec F S1x32768 .f32) (q : Fin 32768) :
    (k0_pay100 l6 (k0_pay97 (fun j => FloatOps.floor (Spec.rel (l0 j))) (fun j => FloatOps.floor (Spec.rel (l1 j))) fun j => FloatOps.floor (Spec.rel (l2 j))) (k0_pay98 (fun j => Spec.rel (l0 j)) (fun j => Spec.rel (l1 j)) (fun j => Spec.rel (l2 j)) (fun j => FloatOps.floor (Spec.rel (l0 j))) (fun j => FloatOps.floor (Spec.rel (l1 j))) fun j => FloatOps.floor (Spec.rel (l2 j)))) (ix2 0 q)
      = Cert.Spec.sm (l0 (ix2 0 q)) (l1 (ix2 0 q)) (l2 (ix2 0 q)) (l6 (ix2 0 q)) 6 := rfl
theorem massRow_7 (l0 l1 l2 l3 l4 l5 l6 : Vec F S1x32768 .f32) (q : Fin 32768) :
    (k0_pay1 l6 (k0_pay107 (fun j => FloatOps.floor (Spec.rel (l0 j))) (fun j => FloatOps.floor (Spec.rel (l1 j))) fun j => FloatOps.floor (Spec.rel (l2 j))) (k0_pay108 (fun j => Spec.rel (l0 j)) (fun j => Spec.rel (l1 j)) (fun j => Spec.rel (l2 j)) (fun j => FloatOps.floor (Spec.rel (l0 j))) (fun j => FloatOps.floor (Spec.rel (l1 j))) fun j => FloatOps.floor (Spec.rel (l2 j))) (k0_pay109 (fun j => FloatOps.floor (Spec.rel (l0 j))) (fun j => FloatOps.floor (Spec.rel (l1 j))) fun j => FloatOps.floor (Spec.rel (l2 j)))) (ix2 0 q)
      = Cert.Spec.sm (l0 (ix2 0 q)) (l1 (ix2 0 q)) (l2 (ix2 0 q)) (l6 (ix2 0 q)) 7 := rfl

/-! The momentum-share rows, first velocity component. -/
theorem momRow0_0 (l0 l1 l2 l3 l4 l5 l6 : Vec F S1x32768 .f32) (q : Fin 32768) :
    (k0_pay28 l3 l6 (fun j => Spec.dist (l0 j) false) (fun j => Spec.dist (l1 j) false) (fun j => Spec.dist (l2 j) false) (fun j => Spec.gpi (l1 j) false) fun j => IntOp.addi (Spec.gpi (l2 j) false) (IntOp.muli (Spec.gpi (l0 j) false) 128#32)) (ix2 0 q)
      = Cert.Spec.mom (l0 (ix2 0 q)) (l1 (ix2 0 q)) (l2 (ix2 0 q)) (l6 (ix2 0 q)) (l3 (ix2 0 q)) 0 := rfl
theorem momRow0_1 (l0 l1 l2 l3 l4 l5 l6 : Vec F S1x32768 .f32) (q : Fin 32768) :
    (k0_pay42 l3 l6 (k0_pay34 (fun j => Spec.rel (l0 j)) fun j => FloatOps.floor (Spec.rel (l0 j))) (k0_pay35 (fun j => Spec.rel (l1 j)) fun j => FloatOps.floor (Spec.rel (l1 j))) (k0_pay36 (fun j => Spec.rel (l2 j)) fun j => FloatOps.floor (Spec.rel (l2 j))) (k0_pay37 (fun j => FloatOps.floor (Spec.rel (l0 j))) fun j => FloatOps.floor (Spec.rel (l2 j))) (k0_pay38 fun j => FloatOps.floor (Spec.rel (l1 j)))) (ix2 0 q)
      = Cert.Spec.mom (l0 (ix2 0 q)) (l1 (ix2 0 q)) (l2 (ix2 0 q)) (l6 (ix2 0 q)) (l3 (ix2 0 q)) 1 := rfl
theorem momRow0_2 (l0 l1 l2 l3 l4 l5 l6 : Vec F S1x32768 .f32) (q : Fin 32768) :
    (k0_pay54 l3 l6 (k0_pay48 (fun j => Spec.rel (l1 j)) fun j => FloatOps.floor (Spec.rel (l1 j))) (k0_pay49 (fun j => Spec.rel (l2 j)) fun j => FloatOps.floor (Spec.rel (l2 j))) (k0_pay50 (fun j => FloatOps.floor (Spec.rel (l0 j))) (fun j => FloatOps.floor (Spec.rel (l1 j))) fun j => FloatOps.floor (Spec.rel (l2 j))) (k0_pay51 (fun j => Spec.rel (l0 j)) fun j => FloatOps.floor (Spec.rel (l0 j))) (FloatOps.ofBits FTy.f32 1065353216#32)) (ix2 0 q)
      = Cert.Spec.mom (l0 (ix2 0 q)) (l1 (ix2 0 q)) (l2 (ix2 0 q)) (l6 (ix2 0 q)) (l3 (ix2 0 q)) 2 := rfl
theorem momRow0_3 (l0 l1 l2 l3 l4 l5 l6 : Vec F S1x32768 .f32) (q : Fin 32768) :
    (k0_pay66 l3 l6 (k0_pay60 (fun j => Spec.rel (l2 j)) fun j => FloatOps.floor (Spec.rel (l2 j))) (k0_pay61 (fun j => FloatOps.floor (Spec.rel (l0 j))) (fun j => FloatOps.floor (Spec.rel (l1 j))) fun j => FloatOps.floor (Spec.rel (l2 j))) (k0_pay62 (fun j => Spec.rel (l0 j)) fun j => FloatOps.floor (Spec.rel (l0 j))) (k0_pay63 (fun j => Spec.rel (l1 j)) fun j => FloatOps.floor (Spec.rel (l1 j)))) (ix2 0 q)
      = Cert.Spec.mom (l0 (ix2 0 q)) (l1 (ix2 0 q)) (l2 (ix2 0 q)) (l6 (ix2 0 q)) (l3 (ix2 0 q)) 3 := rfl
theorem momRow0_4 (l0 l1 l2 l3 l4 l5 l6 : Vec F S1x32768 .f32) (q : Fin 32768) :
    (k0_pay78 l3 l6 (k0_pay72 (fun j => Spec.rel (l2 j)) fun j => FloatOps.floor (Spec.rel (l2 j))) (k0_pay73 (fun j => FloatOps.floor (Spec.rel (l0 j))) (fun j => FloatOps.floor (Spec.rel (l1 j))) fun j => FloatOps.floor (Spec.rel (l2 j))) (k0_pay74 (fun j => Spec.rel (l0 j)) fun j => FloatOps.floor (Spec.rel (l0 j))) (k0_pay75 (fun j => Spec.rel (l1 j)) fun j => FloatOps.floor (Spec.rel (l1 j)))) (ix2 0 q)
      = Cert.Spec.mom (l0 (ix2 0 q)) (l1 (ix2 0 q)) (l2 (ix2 0 q)) (l6 (ix2 0 q)) (l3 (ix2 0 q)) 4 := rfl
theorem momRow0_5 (l0 l1 l2 l3 l4 l5 l6 : Vec F S1x32768 .f32) (q : Fin 32768) :
    (k0_pay91 l3 l6 (k0_pay84 (fun j => FloatOps.floor (Spec.rel (l0 j))) (fun j => FloatOps.floor (Spec.rel (l1 j))) fun j => FloatOps.floor (Spec.rel (l2 j))) (k0_pay85 (fun j => Spec.rel (l0 j)) fun j => FloatOps.floor (Spec.rel (l0 j))) (k0_pay86 (fun j => Spec.rel (l1 j)) fun j => FloatOps.floor (Spec.rel (l1 j))) (k0_pay87 (fun j => Spec.rel (l2 j)) fun j => FloatOps.floor (Spec.rel (l2 j))) k0_pay88) (ix2 0 q)
      = Cert.Spec.mom (l0 (ix2 0 q)) (l1 (ix2 0 q)) (l2 (ix2 0 q)) (l6 (ix2 0 q)) (l3 (ix2 0 q)) 5 := rfl
theorem momRow0_6 (l0 l1 l2 l3 l4 l5 l6 : Vec F S1x32768 .f32) (q : Fin 32768) :
    (k0_pay101 l3 l6 (k0_pay97 (fun j => FloatOps.floor (Spec.rel (l0 j))) (fun j => FloatOps.floor (Spec.rel (l1 j))) fun j => FloatOps.floor (Spec.rel (l2 j))) (k0_pay98 (fun j => Spec.rel (l0 j)) (fun j => Spec.rel (l1 j)) (fun j => Spec.rel (l2 j)) (fun j => FloatOps.floor (Spec.rel (l0 j))) (fun j => FloatOps.floor (Spec.rel (l1 j))) fun j => FloatOps.floor (Spec.rel (l2 j)))) (ix2 0 q)
      = Cert.Spec.mom (l0 (ix2 0 q)) (l1 (ix2 0 q)) (l2 (ix2 0 q)) (l6 (ix2 0 q)) (l3 (ix2 0 q)) 6 := rfl
theorem momRow0_7 (l0 l1 l2 l3 l4 l5 l6 : Vec F S1x32768 .f32) (q : Fin 32768) :
    (mulf (k0_pay1 l6 (k0_pay107 (fun j => FloatOps.floor (Spec.rel (l0 j))) (fun j => FloatOps.floor (Spec.rel (l1 j))) fun j => FloatOps.floor (Spec.rel (l2 j))) (k0_pay108 (fun j => Spec.rel (l0 j)) (fun j => Spec.rel (l1 j)) (fun j => Spec.rel (l2 j)) (fun j => FloatOps.floor (Spec.rel (l0 j))) (fun j => FloatOps.floor (Spec.rel (l1 j))) fun j => FloatOps.floor (Spec.rel (l2 j))) (k0_pay109 (fun j => FloatOps.floor (Spec.rel (l0 j))) (fun j => FloatOps.floor (Spec.rel (l1 j))) fun j => FloatOps.floor (Spec.rel (l2 j)))) l3) (ix2 0 q)
      = Cert.Spec.mom (l0 (ix2 0 q)) (l1 (ix2 0 q)) (l2 (ix2 0 q)) (l6 (ix2 0 q)) (l3 (ix2 0 q)) 7 := rfl

/-! The momentum-share rows, second velocity component. -/
theorem momRow1_0 (l0 l1 l2 l3 l4 l5 l6 : Vec F S1x32768 .f32) (q : Fin 32768) :
    (k0_pay29 l4 l6 (fun j => Spec.dist (l0 j) false) (fun j => Spec.dist (l1 j) false) (fun j => Spec.dist (l2 j) false) (fun j => Spec.gpi (l1 j) false) fun j => IntOp.addi (Spec.gpi (l2 j) false) (IntOp.muli (Spec.gpi (l0 j) false) 128#32)) (ix2 0 q)
      = Cert.Spec.mom (l0 (ix2 0 q)) (l1 (ix2 0 q)) (l2 (ix2 0 q)) (l6 (ix2 0 q)) (l4 (ix2 0 q)) 0 := rfl
theorem momRow1_1 (l0 l1 l2 l3 l4 l5 l6 : Vec F S1x32768 .f32) (q : Fin 32768) :
    (k0_pay43 l4 l6 (k0_pay34 (fun j => Spec.rel (l0 j)) fun j => FloatOps.floor (Spec.rel (l0 j))) (k0_pay35 (fun j => Spec.rel (l1 j)) fun j => FloatOps.floor (Spec.rel (l1 j))) (k0_pay36 (fun j => Spec.rel (l2 j)) fun j => FloatOps.floor (Spec.rel (l2 j))) (k0_pay37 (fun j => FloatOps.floor (Spec.rel (l0 j))) fun j => FloatOps.floor (Spec.rel (l2 j))) (k0_pay38 fun j => FloatOps.floor (Spec.rel (l1 j)))) (ix2 0 q)
      = Cert.Spec.mom (l0 (ix2 0 q)) (l1 (ix2 0 q)) (l2 (ix2 0 q)) (l6 (ix2 0 q)) (l4 (ix2 0 q)) 1 := rfl
theorem momRow1_2 (l0 l1 l2 l3 l4 l5 l6 : Vec F S1x32768 .f32) (q : Fin 32768) :
    (k0_pay55 l4 l6 (k0_pay48 (fun j => Spec.rel (l1 j)) fun j => FloatOps.floor (Spec.rel (l1 j))) (k0_pay49 (fun j => Spec.rel (l2 j)) fun j => FloatOps.floor (Spec.rel (l2 j))) (k0_pay50 (fun j => FloatOps.floor (Spec.rel (l0 j))) (fun j => FloatOps.floor (Spec.rel (l1 j))) fun j => FloatOps.floor (Spec.rel (l2 j))) (k0_pay51 (fun j => Spec.rel (l0 j)) fun j => FloatOps.floor (Spec.rel (l0 j))) (FloatOps.ofBits FTy.f32 1065353216#32)) (ix2 0 q)
      = Cert.Spec.mom (l0 (ix2 0 q)) (l1 (ix2 0 q)) (l2 (ix2 0 q)) (l6 (ix2 0 q)) (l4 (ix2 0 q)) 2 := rfl
theorem momRow1_3 (l0 l1 l2 l3 l4 l5 l6 : Vec F S1x32768 .f32) (q : Fin 32768) :
    (k0_pay67 l4 l6 (k0_pay60 (fun j => Spec.rel (l2 j)) fun j => FloatOps.floor (Spec.rel (l2 j))) (k0_pay61 (fun j => FloatOps.floor (Spec.rel (l0 j))) (fun j => FloatOps.floor (Spec.rel (l1 j))) fun j => FloatOps.floor (Spec.rel (l2 j))) (k0_pay62 (fun j => Spec.rel (l0 j)) fun j => FloatOps.floor (Spec.rel (l0 j))) (k0_pay63 (fun j => Spec.rel (l1 j)) fun j => FloatOps.floor (Spec.rel (l1 j)))) (ix2 0 q)
      = Cert.Spec.mom (l0 (ix2 0 q)) (l1 (ix2 0 q)) (l2 (ix2 0 q)) (l6 (ix2 0 q)) (l4 (ix2 0 q)) 3 := rfl
theorem momRow1_4 (l0 l1 l2 l3 l4 l5 l6 : Vec F S1x32768 .f32) (q : Fin 32768) :
    (k0_pay79 l4 l6 (k0_pay72 (fun j => Spec.rel (l2 j)) fun j => FloatOps.floor (Spec.rel (l2 j))) (k0_pay73 (fun j => FloatOps.floor (Spec.rel (l0 j))) (fun j => FloatOps.floor (Spec.rel (l1 j))) fun j => FloatOps.floor (Spec.rel (l2 j))) (k0_pay74 (fun j => Spec.rel (l0 j)) fun j => FloatOps.floor (Spec.rel (l0 j))) (k0_pay75 (fun j => Spec.rel (l1 j)) fun j => FloatOps.floor (Spec.rel (l1 j)))) (ix2 0 q)
      = Cert.Spec.mom (l0 (ix2 0 q)) (l1 (ix2 0 q)) (l2 (ix2 0 q)) (l6 (ix2 0 q)) (l4 (ix2 0 q)) 4 := rfl
theorem momRow1_5 (l0 l1 l2 l3 l4 l5 l6 : Vec F S1x32768 .f32) (q : Fin 32768) :
    (k0_pay92 l4 l6 (k0_pay84 (fun j => FloatOps.floor (Spec.rel (l0 j))) (fun j => FloatOps.floor (Spec.rel (l1 j))) fun j => FloatOps.floor (Spec.rel (l2 j))) (k0_pay85 (fun j => Spec.rel (l0 j)) fun j => FloatOps.floor (Spec.rel (l0 j))) (k0_pay86 (fun j => Spec.rel (l1 j)) fun j => FloatOps.floor (Spec.rel (l1 j))) (k0_pay87 (fun j => Spec.rel (l2 j)) fun j => FloatOps.floor (Spec.rel (l2 j))) k0_pay88) (ix2 0 q)
      = Cert.Spec.mom (l0 (ix2 0 q)) (l1 (ix2 0 q)) (l2 (ix2 0 q)) (l6 (ix2 0 q)) (l4 (ix2 0 q)) 5 := rfl
theorem momRow1_6 (l0 l1 l2 l3 l4 l5 l6 : Vec F S1x32768 .f32) (q : Fin 32768) :
    (k0_pay102 l4 l6 (k0_pay97 (fun j => FloatOps.floor (Spec.rel (l0 j))) (fun j => FloatOps.floor (Spec.rel (l1 j))) fun j => FloatOps.floor (Spec.rel (l2 j))) (k0_pay98 (fun j => Spec.rel (l0 j)) (fun j => Spec.rel (l1 j)) (fun j => Spec.rel (l2 j)) (fun j => FloatOps.floor (Spec.rel (l0 j))) (fun j => FloatOps.floor (Spec.rel (l1 j))) fun j => FloatOps.floor (Spec.rel (l2 j)))) (ix2 0 q)
      = Cert.Spec.mom (l0 (ix2 0 q)) (l1 (ix2 0 q)) (l2 (ix2 0 q)) (l6 (ix2 0 q)) (l4 (ix2 0 q)) 6 := rfl
theorem momRow1_7 (l0 l1 l2 l3 l4 l5 l6 : Vec F S1x32768 .f32) (q : Fin 32768) :
    (mulf (k0_pay1 l6 (k0_pay107 (fun j => FloatOps.floor (Spec.rel (l0 j))) (fun j => FloatOps.floor (Spec.rel (l1 j))) fun j => FloatOps.floor (Spec.rel (l2 j))) (k0_pay108 (fun j => Spec.rel (l0 j)) (fun j => Spec.rel (l1 j)) (fun j => Spec.rel (l2 j)) (fun j => FloatOps.floor (Spec.rel (l0 j))) (fun j => FloatOps.floor (Spec.rel (l1 j))) fun j => FloatOps.floor (Spec.rel (l2 j))) (k0_pay109 (fun j => FloatOps.floor (Spec.rel (l0 j))) (fun j => FloatOps.floor (Spec.rel (l1 j))) fun j => FloatOps.floor (Spec.rel (l2 j)))) l4) (ix2 0 q)
      = Cert.Spec.mom (l0 (ix2 0 q)) (l1 (ix2 0 q)) (l2 (ix2 0 q)) (l6 (ix2 0 q)) (l4 (ix2 0 q)) 7 := rfl

/-! The momentum-share rows, third velocity component. -/
theorem momRow2_0 (l0 l1 l2 l3 l4 l5 l6 : Vec F S1x32768 .f32) (q : Fin 32768) :
    (k0_pay30 l5 l6 (fun j => Spec.dist (l0 j) false) (fun j => Spec.dist (l1 j) false) (fun j => Spec.dist (l2 j) false) (fun j => Spec.gpi (l1 j) false) fun j => IntOp.addi (Spec.gpi (l2 j) false) (IntOp.muli (Spec.gpi (l0 j) false) 128#32)) (ix2 0 q)
      = Cert.Spec.mom (l0 (ix2 0 q)) (l1 (ix2 0 q)) (l2 (ix2 0 q)) (l6 (ix2 0 q)) (l5 (ix2 0 q)) 0 := rfl
theorem momRow2_1 (l0 l1 l2 l3 l4 l5 l6 : Vec F S1x32768 .f32) (q : Fin 32768) :
    (k0_pay44 l5 l6 (k0_pay34 (fun j => Spec.rel (l0 j)) fun j => FloatOps.floor (Spec.rel (l0 j))) (k0_pay35 (fun j => Spec.rel (l1 j)) fun j => FloatOps.floor (Spec.rel (l1 j))) (k0_pay36 (fun j => Spec.rel (l2 j)) fun j => FloatOps.floor (Spec.rel (l2 j))) (k0_pay37 (fun j => FloatOps.floor (Spec.rel (l0 j))) fun j => FloatOps.floor (Spec.rel (l2 j))) (k0_pay38 fun j => FloatOps.floor (Spec.rel (l1 j)))) (ix2 0 q)
      = Cert.Spec.mom (l0 (ix2 0 q)) (l1 (ix2 0 q)) (l2 (ix2 0 q)) (l6 (ix2 0 q)) (l5 (ix2 0 q)) 1 := rfl
theorem momRow2_2 (l0 l1 l2 l3 l4 l5 l6 : Vec F S1x32768 .f32) (q : Fin 32768) :
    (k0_pay56 l5 l6 (k0_pay48 (fun j => Spec.rel (l1 j)) fun j => FloatOps.floor (Spec.rel (l1 j))) (k0_pay49 (fun j => Spec.rel (l2 j)) fun j => FloatOps.floor (Spec.rel (l2 j))) (k0_pay50 (fun j => FloatOps.floor (Spec.rel (l0 j))) (fun j => FloatOps.floor (Spec.rel (l1 j))) fun j => FloatOps.floor (Spec.rel (l2 j))) (k0_pay51 (fun j => Spec.rel (l0 j)) fun j => FloatOps.floor (Spec.rel (l0 j))) (FloatOps.ofBits FTy.f32 1065353216#32)) (ix2 0 q)
      = Cert.Spec.mom (l0 (ix2 0 q)) (l1 (ix2 0 q)) (l2 (ix2 0 q)) (l6 (ix2 0 q)) (l5 (ix2 0 q)) 2 := rfl
theorem momRow2_3 (l0 l1 l2 l3 l4 l5 l6 : Vec F S1x32768 .f32) (q : Fin 32768) :
    (k0_pay68 l5 l6 (k0_pay60 (fun j => Spec.rel (l2 j)) fun j => FloatOps.floor (Spec.rel (l2 j))) (k0_pay61 (fun j => FloatOps.floor (Spec.rel (l0 j))) (fun j => FloatOps.floor (Spec.rel (l1 j))) fun j => FloatOps.floor (Spec.rel (l2 j))) (k0_pay62 (fun j => Spec.rel (l0 j)) fun j => FloatOps.floor (Spec.rel (l0 j))) (k0_pay63 (fun j => Spec.rel (l1 j)) fun j => FloatOps.floor (Spec.rel (l1 j)))) (ix2 0 q)
      = Cert.Spec.mom (l0 (ix2 0 q)) (l1 (ix2 0 q)) (l2 (ix2 0 q)) (l6 (ix2 0 q)) (l5 (ix2 0 q)) 3 := rfl
theorem momRow2_4 (l0 l1 l2 l3 l4 l5 l6 : Vec F S1x32768 .f32) (q : Fin 32768) :
    (k0_pay80 l5 l6 (k0_pay72 (fun j => Spec.rel (l2 j)) fun j => FloatOps.floor (Spec.rel (l2 j))) (k0_pay73 (fun j => FloatOps.floor (Spec.rel (l0 j))) (fun j => FloatOps.floor (Spec.rel (l1 j))) fun j => FloatOps.floor (Spec.rel (l2 j))) (k0_pay74 (fun j => Spec.rel (l0 j)) fun j => FloatOps.floor (Spec.rel (l0 j))) (k0_pay75 (fun j => Spec.rel (l1 j)) fun j => FloatOps.floor (Spec.rel (l1 j)))) (ix2 0 q)
      = Cert.Spec.mom (l0 (ix2 0 q)) (l1 (ix2 0 q)) (l2 (ix2 0 q)) (l6 (ix2 0 q)) (l5 (ix2 0 q)) 4 := rfl
theorem momRow2_5 (l0 l1 l2 l3 l4 l5 l6 : Vec F S1x32768 .f32) (q : Fin 32768) :
    (k0_pay93 l5 l6 (k0_pay84 (fun j => FloatOps.floor (Spec.rel (l0 j))) (fun j => FloatOps.floor (Spec.rel (l1 j))) fun j => FloatOps.floor (Spec.rel (l2 j))) (k0_pay85 (fun j => Spec.rel (l0 j)) fun j => FloatOps.floor (Spec.rel (l0 j))) (k0_pay86 (fun j => Spec.rel (l1 j)) fun j => FloatOps.floor (Spec.rel (l1 j))) (k0_pay87 (fun j => Spec.rel (l2 j)) fun j => FloatOps.floor (Spec.rel (l2 j))) k0_pay88) (ix2 0 q)
      = Cert.Spec.mom (l0 (ix2 0 q)) (l1 (ix2 0 q)) (l2 (ix2 0 q)) (l6 (ix2 0 q)) (l5 (ix2 0 q)) 5 := rfl
theorem momRow2_6 (l0 l1 l2 l3 l4 l5 l6 : Vec F S1x32768 .f32) (q : Fin 32768) :
    (k0_pay103 l5 l6 (k0_pay97 (fun j => FloatOps.floor (Spec.rel (l0 j))) (fun j => FloatOps.floor (Spec.rel (l1 j))) fun j => FloatOps.floor (Spec.rel (l2 j))) (k0_pay98 (fun j => Spec.rel (l0 j)) (fun j => Spec.rel (l1 j)) (fun j => Spec.rel (l2 j)) (fun j => FloatOps.floor (Spec.rel (l0 j))) (fun j => FloatOps.floor (Spec.rel (l1 j))) fun j => FloatOps.floor (Spec.rel (l2 j)))) (ix2 0 q)
      = Cert.Spec.mom (l0 (ix2 0 q)) (l1 (ix2 0 q)) (l2 (ix2 0 q)) (l6 (ix2 0 q)) (l5 (ix2 0 q)) 6 := rfl
theorem momRow2_7 (l0 l1 l2 l3 l4 l5 l6 : Vec F S1x32768 .f32) (q : Fin 32768) :
    (mulf (k0_pay1 l6 (k0_pay107 (fun j => FloatOps.floor (Spec.rel (l0 j))) (fun j => FloatOps.floor (Spec.rel (l1 j))) fun j => FloatOps.floor (Spec.rel (l2 j))) (k0_pay108 (fun j => Spec.rel (l0 j)) (fun j => Spec.rel (l1 j)) (fun j => Spec.rel (l2 j)) (fun j => FloatOps.floor (Spec.rel (l0 j))) (fun j => FloatOps.floor (Spec.rel (l1 j))) fun j => FloatOps.floor (Spec.rel (l2 j))) (k0_pay109 (fun j => FloatOps.floor (Spec.rel (l0 j))) (fun j => FloatOps.floor (Spec.rel (l1 j))) fun j => FloatOps.floor (Spec.rel (l2 j)))) l5) (ix2 0 q)
      = Cert.Spec.mom (l0 (ix2 0 q)) (l1 (ix2 0 q)) (l2 (ix2 0 q)) (l6 (ix2 0 q)) (l5 (ix2 0 q)) 7 := rfl

end Blocks

open Blocks

/-- The stored piece of each output tiles its block, so it covers it. -/
theorem cover_p1 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) (y : S8x32768.Idx) : ∃ pc ∈ (kernelRun c i arg1 harg1 arg2 harg2 arg3 harg3 arg4 harg4 arg5 harg5 arg6 harg6 x0).1.p1, y ∈ pc.1.set := by
  unfold kernelRun
  dsimp only
  refine ⟨_, List.mem_singleton_self _, ?_⟩
  exact View.mem_set_unit_zero (S := S8x32768) hz (fun a => by rw [hz]; exact Nat.le_of_eq (Nat.zero_add _)) y
theorem cover_p2 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) (y : S8x32768.Idx) : ∃ pc ∈ (kernelRun c i arg1 harg1 arg2 harg2 arg3 harg3 arg4 harg4 arg5 harg5 arg6 harg6 x0).1.p2, y ∈ pc.1.set := by
  unfold kernelRun
  dsimp only
  refine ⟨_, List.mem_singleton_self _, ?_⟩
  exact View.mem_set_unit_zero (S := S8x32768) hz (fun a => by rw [hz]; exact Nat.le_of_eq (Nat.zero_add _)) y
theorem cover_p3 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) (y : S8x32768.Idx) : ∃ pc ∈ (kernelRun c i arg1 harg1 arg2 harg2 arg3 harg3 arg4 harg4 arg5 harg5 arg6 harg6 x0).1.p3, y ∈ pc.1.set := by
  unfold kernelRun
  dsimp only
  refine ⟨_, List.mem_singleton_self _, ?_⟩
  exact View.mem_set_unit_zero (S := S8x32768) hz (fun a => by rw [hz]; exact Nat.le_of_eq (Nat.zero_add _)) y
theorem cover_p4 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) (y : S8x32768.Idx) : ∃ pc ∈ (kernelRun c i arg1 harg1 arg2 harg2 arg3 harg3 arg4 harg4 arg5 harg5 arg6 harg6 x0).1.p4, y ∈ pc.1.set := by
  unfold kernelRun
  dsimp only
  refine ⟨_, List.mem_singleton_self _, ?_⟩
  exact View.mem_set_unit_zero (S := S8x32768) hz (fun a => by rw [hz]; exact Nat.le_of_eq (Nat.zero_add _)) y
theorem cover_p5 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) (y : S8x32768.Idx) : ∃ pc ∈ (kernelRun c i arg1 harg1 arg2 harg2 arg3 harg3 arg4 harg4 arg5 harg5 arg6 harg6 x0).1.p5, y ∈ pc.1.set := by
  unfold kernelRun
  dsimp only
  refine ⟨_, List.mem_singleton_self _, ?_⟩
  exact View.mem_set_unit_zero (S := S8x32768) hz (fun a => by rw [hz]; exact Nat.le_of_eq (Nat.zero_add _)) y

/-- The cell-number block: entry (k, q) is the clipped cell number of corner k for the particle at lane q. -/
theorem canon_p1 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) : View.canon (kernelRun c i arg1 harg1 arg2 harg2 arg3 harg3 arg4 harg4 arg5 harg5 arg6 harg6 x0).1.p1 = Cert.Spec.hashBlk x0 := by
  unfold kernelRun
  dsimp only
  rw [View.canon_unit_zero hz]
  funext y
  obtain ⟨k, q, rfl⟩ : ∃ (k : Fin 8) (q : Fin 32768), y = ix2 k q := ⟨y 0, y 1, eq_ix2 y⟩
  sl_unfold_run_names
  simp only [load_row arg1 harg1 x0 0 (by omega) _, load_row arg1 harg1 x0 1 (by omega) _, load_row arg1 harg1 x0 2 (by omega) _,
    load_row arg1 harg1 x0 3 (by omega) _, load_row arg1 harg1 x0 4 (by omega) _, load_row arg1 harg1 x0 5 (by omega) _,
    load_row arg1 harg1 x0 6 (by omega) _,
    pay7_eq, pay8_eq, pay9_eq, pay10_eq, pay11_eq, pay12_eq, pay13_eq, pay14_eq, pay15_eq, pay16_eq, pay17_eq, pay18_eq,
    pay19_eq, pay20_eq, pay21_eq, pay22_eq, pay23_eq, pay24_eq]
  unfold k0_pay2
  refine (concat8_apply _ _ _ _ _ _ _ _ _ k q).trans ?_
  fin_cases k
  · exact cellRow_0 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact cellRow_1 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact cellRow_2 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact cellRow_3 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact cellRow_4 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact cellRow_5 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact cellRow_6 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact cellRow_7 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
/-- The mass-share block. -/
theorem canon_p2 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) : View.canon (kernelRun c i arg1 harg1 arg2 harg2 arg3 harg3 arg4 harg4 arg5 harg5 arg6 harg6 x0).1.p2 = Cert.Spec.smBlk x0 := by
  unfold kernelRun
  dsimp only
  rw [View.canon_unit_zero hz]
  funext y
  obtain ⟨k, q, rfl⟩ : ∃ (k : Fin 8) (q : Fin 32768), y = ix2 k q := ⟨y 0, y 1, eq_ix2 y⟩
  sl_unfold_run_names
  simp only [load_row arg1 harg1 x0 0 (by omega) _, load_row arg1 harg1 x0 1 (by omega) _, load_row arg1 harg1 x0 2 (by omega) _,
    load_row arg1 harg1 x0 3 (by omega) _, load_row arg1 harg1 x0 4 (by omega) _, load_row arg1 harg1 x0 5 (by omega) _,
    load_row arg1 harg1 x0 6 (by omega) _,
    pay7_eq, pay8_eq, pay9_eq, pay10_eq, pay11_eq, pay12_eq, pay13_eq, pay14_eq, pay15_eq, pay16_eq, pay17_eq, pay18_eq,
    pay19_eq, pay20_eq, pay21_eq, pay22_eq, pay23_eq, pay24_eq]
  unfold k0_pay3
  refine (concat8_apply _ _ _ _ _ _ _ _ _ k q).trans ?_
  fin_cases k
  · exact massRow_0 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact massRow_1 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact massRow_2 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact massRow_3 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact massRow_4 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact massRow_5 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact massRow_6 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact massRow_7 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
/-- The momentum-share blocks, one per velocity component. -/
theorem canon_p3 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) : View.canon (kernelRun c i arg1 harg1 arg2 harg2 arg3 harg3 arg4 harg4 arg5 harg5 arg6 harg6 x0).1.p3 = Cert.Spec.momBlk 0 x0 := by
  unfold kernelRun
  dsimp only
  rw [View.canon_unit_zero hz]
  funext y
  obtain ⟨k, q, rfl⟩ : ∃ (k : Fin 8) (q : Fin 32768), y = ix2 k q := ⟨y 0, y 1, eq_ix2 y⟩
  sl_unfold_run_names
  simp only [load_row arg1 harg1 x0 0 (by omega) _, load_row arg1 harg1 x0 1 (by omega) _, load_row arg1 harg1 x0 2 (by omega) _,
    load_row arg1 harg1 x0 3 (by omega) _, load_row arg1 harg1 x0 4 (by omega) _, load_row arg1 harg1 x0 5 (by omega) _,
    load_row arg1 harg1 x0 6 (by omega) _,
    pay7_eq, pay8_eq, pay9_eq, pay10_eq, pay11_eq, pay12_eq, pay13_eq, pay14_eq, pay15_eq, pay16_eq, pay17_eq, pay18_eq,
    pay19_eq, pay20_eq, pay21_eq, pay22_eq, pay23_eq, pay24_eq]
  unfold k0_pay4
  refine (concat8_apply _ _ _ _ _ _ _ _ _ k q).trans ?_
  fin_cases k
  · exact momRow0_0 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow0_1 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow0_2 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow0_3 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow0_4 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow0_5 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow0_6 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow0_7 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
theorem canon_p4 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) : View.canon (kernelRun c i arg1 harg1 arg2 harg2 arg3 harg3 arg4 harg4 arg5 harg5 arg6 harg6 x0).1.p4 = Cert.Spec.momBlk 1 x0 := by
  unfold kernelRun
  dsimp only
  rw [View.canon_unit_zero hz]
  funext y
  obtain ⟨k, q, rfl⟩ : ∃ (k : Fin 8) (q : Fin 32768), y = ix2 k q := ⟨y 0, y 1, eq_ix2 y⟩
  sl_unfold_run_names
  simp only [load_row arg1 harg1 x0 0 (by omega) _, load_row arg1 harg1 x0 1 (by omega) _, load_row arg1 harg1 x0 2 (by omega) _,
    load_row arg1 harg1 x0 3 (by omega) _, load_row arg1 harg1 x0 4 (by omega) _, load_row arg1 harg1 x0 5 (by omega) _,
    load_row arg1 harg1 x0 6 (by omega) _,
    pay7_eq, pay8_eq, pay9_eq, pay10_eq, pay11_eq, pay12_eq, pay13_eq, pay14_eq, pay15_eq, pay16_eq, pay17_eq, pay18_eq,
    pay19_eq, pay20_eq, pay21_eq, pay22_eq, pay23_eq, pay24_eq]
  unfold k0_pay5
  refine (concat8_apply _ _ _ _ _ _ _ _ _ k q).trans ?_
  fin_cases k
  · exact momRow1_0 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow1_1 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow1_2 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow1_3 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow1_4 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow1_5 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow1_6 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow1_7 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
theorem canon_p5 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) : View.canon (kernelRun c i arg1 harg1 arg2 harg2 arg3 harg3 arg4 harg4 arg5 harg5 arg6 harg6 x0).1.p5 = Cert.Spec.momBlk 2 x0 := by
  unfold kernelRun
  dsimp only
  rw [View.canon_unit_zero hz]
  funext y
  obtain ⟨k, q, rfl⟩ : ∃ (k : Fin 8) (q : Fin 32768), y = ix2 k q := ⟨y 0, y 1, eq_ix2 y⟩
  sl_unfold_run_names
  simp only [load_row arg1 harg1 x0 0 (by omega) _, load_row arg1 harg1 x0 1 (by omega) _, load_row arg1 harg1 x0 2 (by omega) _,
    load_row arg1 harg1 x0 3 (by omega) _, load_row arg1 harg1 x0 4 (by omega) _, load_row arg1 harg1 x0 5 (by omega) _,
    load_row arg1 harg1 x0 6 (by omega) _,
    pay7_eq, pay8_eq, pay9_eq, pay10_eq, pay11_eq, pay12_eq, pay13_eq, pay14_eq, pay15_eq, pay16_eq, pay17_eq, pay18_eq,
    pay19_eq, pay20_eq, pay21_eq, pay22_eq, pay23_eq, pay24_eq]
  unfold k0_pay6
  refine (concat8_apply _ _ _ _ _ _ _ _ _ k q).trans ?_
  fin_cases k
  · exact momRow2_0 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow2_1 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow2_2 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow2_3 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow2_4 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow2_5 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow2_6 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow2_7 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q

end Cert.Kernel.Hand

end
-- ==== Proof.K.Frame.lean ====
/-
  The kernel program's frame, at any instance.  The proof data of the one pipeline: the arrays as the region finds them;
  after the body at grid point t the input buffer holds the point's block of the channel array, and the five output buffers
  hold the specification's block functions of that block (cell numbers, mass shares, momentum shares).  The body obligation
  is the body's run at the point's buffers; the launch theorem for a region with host lines on both sides then gives the run
  of @main, with every result array named by the proof data, and the frame claim follows.
-/
import proofs.«111574_j40132174414020_1_alg».proof.Proof.K.Main
import proofs.«111574_j40132174414020_1_alg».proof.Proof.K.Blocks

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core `c`: arrays as the region finds them; after the body at point `t` the input's buffer at its
    block and each output's at its block function of the input block; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Cert.Spec.hashBlk (iblk m c 0 t)
    | ⟨2, _⟩ => Cert.Spec.smBlk (iblk m c 0 t)
    | ⟨3, _⟩ => Cert.Spec.momBlk 0 (iblk m c 0 t)
    | ⟨4, _⟩ => Cert.Spec.momBlk 1 (iblk m c 0 t)
    | ⟨5, _⟩ => Cert.Spec.momBlk 2 (iblk m c 0 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = Cert.Spec.hashBlk (iblk m c 0 t) := by dsimp only [dats]
theorem after0_2 (c : Dev nD) (t : Fin cfg0.N) : (dats m 0 c).after 2 t = Cert.Spec.smBlk (iblk m c 0 t) := by dsimp only [dats]
theorem after0_3 (c : Dev nD) (t : Fin cfg0.N) : (dats m 0 c).after 3 t = Cert.Spec.momBlk 0 (iblk m c 0 t) := by dsimp only [dats]
theorem after0_4 (c : Dev nD) (t : Fin cfg0.N) : (dats m 0 c).after 4 t = Cert.Spec.momBlk 1 (iblk m c 0 t) := by dsimp only [dats]
theorem after0_5 (c : Dev nD) (t : Fin cfg0.N) : (dats m 0 c).after 5 t = Cert.Spec.momBlk 2 (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at any point: the input's buffer holds its block, so the run applies; each output buffer, overwritten by its
    pieces, reads back as its block function; the invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ (iblk m c 0 t)).2 Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  iintro ⟨H0, ⟨%e1, H1⟩, ⟨%e2, H2⟩, ⟨%e3, H3⟩, ⟨%e4, H4⟩, ⟨%e5, H5⟩⟩
  isplitl [HΦ]; · iexact HΦ
  isplitl [Ho]; · iexact Ho
  isplitl [H0]; · iexact H0
  isplitl [H1]
  · unfold owns; iexists _; isplitr
    swap; · iexact H1
    ipureintro; exact (View.read_writes_eq_canon _ _ _ (cover_p1 _ _ _ _ _ _ _ _ _ _ _ _ _ _ _)).trans (canon_p1 _ _ _ _ _ _ _ _ _ _ _ _ _ _ _)
  isplitl [H2]
  · unfold owns; iexists _; isplitr
    swap; · iexact H2
    ipureintro; exact (View.read_writes_eq_canon _ _ _ (cover_p2 _ _ _ _ _ _ _ _ _ _ _ _ _ _ _)).trans (canon_p2 _ _ _ _ _ _ _ _ _ _ _ _ _ _ _)
  isplitl [H3]
  · unfold owns; iexists _; isplitr
    swap; · iexact H3
    ipureintro; exact (View.read_writes_eq_canon _ _ _ (cover_p3 _ _ _ _ _ _ _ _ _ _ _ _ _ _ _)).trans (canon_p3 _ _ _ _ _ _ _ _ _ _ _ _ _ _ _)
  isplitl [H4]
  · unfold owns; iexists _; isplitr
    swap; · iexact H4
    ipureintro; exact (View.read_writes_eq_canon _ _ _ (cover_p4 _ _ _ _ _ _ _ _ _ _ _ _ _ _ _)).trans (canon_p4 _ _ _ _ _ _ _ _ _ _ _ _ _ _ _)
  · unfold owns; iexists _; isplitr
    swap; · iexact H5
    ipureintro; exact (View.read_writes_eq_canon _ _ _ (cover_p5 _ _ _ _ _ _ _ _ _ _ _ _ _ _ _)).trans (canon_p5 _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what the proof data computes and every other unscoped buffer as the host tail leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KI.Main.lean ====
/-
  @main around its one kernel region, at any instance.  Before the region the host pads the three argument arrays with
  15808 zero rows, transposes the two [1015808, 3] arrays, and stacks the seven channel rows into one [7, 1015808] array;
  after it the host flattens the five result arrays, adds their entries into zero-filled grids by two accumulating
  scatters, and joins the two grids.  Stated here: the buffer contents when the region is entered (`V0`, `V`), @main as
  prefix, region and tail for the library's launch theorem, that the tail touches no array of the pipeline, that no host
  line writes an argument array, each window's block at a grid point, and the frame claim read off a frame run.
-/
import proofs.«111574_j40132174414020_1_alg».proof.Proof.Gen.KernelIdeal.Launch
import proofs.«111574_j40132174414020_1_alg».proof.Proof.Gen.KernelIdeal.Skeleton
import proofs.«111574_j40132174414020_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host stretches before the region, in order. -/
abbrev prefixOps : List (List (HloOp τ sig (Elt F))) :=
  [hostOps0, hostOps0_1, hostOps0_2, hostOps0_3, hostOps0_4, hostOps0_5, hostOps0_6]

/-- Core `c`'s buffer contents when the region is entered: after the host operations before it. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the prefix, the region, and the tail: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (prefixOps (F := F)) [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0` either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1` either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg2` either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the library's frame post read at the three
    argument arrays (none is staged by a window, so each is in the post's second clause) is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

end Cert.KernelIdeal.Hand

end
-- ==== Proof.KI.Run.lean ====
/-
  The kernel body run once on whole staging buffers, at any instance.  The body loads the seven channel rows of its input
  block, computes per corner, and stores five whole blocks (cell numbers, mass shares, three momentum shares), each a
  concatenation of eight corner rows.  Stated here: from the input buffer at contents `x0` and the five output buffers at
  anything, the body runs to its continuation with the input buffer unchanged and each output buffer overwritten by a list
  of stored pieces; the lists are the witness the symbolic run finds.
-/
import proofs.«111574_j40132174414020_1_alg».proof.Proof.Gen.KernelIdeal.Launch
import proofs.«111574_j40132174414020_1_alg».proof.Proof.Gen.KernelIdeal.Skeleton
import proofs.«111574_j40132174414020_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the body stores into each of its five output buffers. -/
structure Pieces (F : FTy → Type) [FloatOps F] where
  p1 : List (View.Piece (Elt F) S8x32768 .i32)
  p2 : List (View.Piece (Elt F) S8x32768 .f32)
  p3 : List (View.Piece (Elt F) S8x32768 .f32)
  p4 : List (View.Piece (Elt F) S8x32768 .f32)
  p5 : List (View.Piece (Elt F) S8x32768 .f32)

set_option maxHeartbeats 4000000 in
/-- The body's triple with the stored pieces as witness. -/
noncomputable def kernelRun (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) :
    { L : Pieces F //
      ∀ (E : Set ℕ) (K : PUnit → sProp 𝕄),
        iprop(owns (c : Thread nD τ) arg1 fullShare x0
            ∗ (∃ d, owns (c : Thread nD τ) arg2 fullShare d)
            ∗ (∃ d, owns (c : Thread nD τ) arg3 fullShare d)
            ∗ (∃ d, owns (c : Thread nD τ) arg4 fullShare d)
            ∗ (∃ d, owns (c : Thread nD τ) arg5 fullShare d)
            ∗ (∃ d, owns (c : Thread nD τ) arg6 fullShare d)
            ∗ (iprop(owns (c : Thread nD τ) arg1 fullShare x0
                ∗ (∃ f, arg2.view.loc (c : Thread nD τ) ↦[arg2.view.set]{fullShare} arg2.view.writes (Elt F) f L.p1)
                ∗ (∃ f, arg3.view.loc (c : Thread nD τ) ↦[arg3.view.set]{fullShare} arg3.view.writes (Elt F) f L.p2)
                ∗ (∃ f, arg4.view.loc (c : Thread nD τ) ↦[arg4.view.set]{fullShare} arg4.view.writes (Elt F) f L.p3)
                ∗ (∃ f, arg5.view.loc (c : Thread nD τ) ↦[arg5.view.set]{fullShare} arg5.view.writes (Elt F) f L.p4)
                ∗ (∃ f, arg6.view.loc (c : Thread nD τ) ↦[arg6.view.set]{fullShare} arg6.view.writes (Elt F) f L.p5)) -∗ K ⟨⟩))
          ⊢ wp frame (wpE (defs₀ (F := F)) Variants.none c none) E
              (cc0__mpm_kernel i arg1 harg1 arg2 harg2 arg3 harg3 arg4 harg4 arg5 harg5 arg6 harg6) K } := by
  refine ⟨⟨?_, ?_, ?_, ?_, ?_⟩, fun E K => ?run⟩
  case run =>
    simp only [cc0__mpm_kernel_eq_skeleton]; unfold cc0__mpm_kernel_skel
    unfold owns
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, Hk⟩
    obtain rfl := harg1.eq_unread hf0
    sl_exec
    sl_step
    iapply Hk
    isplitl [H0]
    · iexists _; isplitr; · ipureintro; exact harg1.read_unread _
      iexact H0
    isplitl [H1]; · iexists _; iexact H1
    isplitl [H2]; · iexists _; iexact H2
    isplitl [H3]; · iexists _; iexact H3
    isplitl [H4]; · iexists _; iexact H4
    iexists _; iexact H5

end Cert.KernelIdeal.Hand

end
-- ==== Proof.KI.Blocks.lean ====
/-
  What the kernel body leaves in its five output blocks, as functions of the input block.  Row k of each output block is
  corner k's quantity for the 32768 particles of the block, computed lane by lane from the seven channel rows: the clipped
  cell number, the mass share, and the three momentum shares.  Each output is stored as one whole-block piece whose value
  concatenates the eight corner rows; read back at (k, q) it is the specification's scalar function of the channels at lane q.
-/
import proofs.«111574_j40132174414020_1_alg».proof.Proof.KI.Run
import proofs.«111574_j40132174414020_1_alg».proof.Proof.Spec
import Idealize.ShloMosaic.Lib.ValueIdx
import Idealize.ShloMosaic.Lib.Pipeline.Value
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]

namespace Blocks

/-- The zero offsets of a whole-block access, spelt as the constant function. -/
theorem hz : (![0, 0] : Fin 2 → Nat) = fun _ => 0 := funext fun a => by fin_cases a <;> rfl

/-- A row vector recast to its own shape is itself. -/
theorem shapeCast_row {α : Type} (v : S1x32768.Idx → α) (h : S1x32768.ShapeCasts S1x32768) :
    shapeCast S1x32768 v h = v := by
  funext j; exact shapeCast_apply v h j j rfl

/-- Channel row `r` of the input block, as a row vector. -/
def row (x0 : Vec F S7x32768 .f32) (r : Fin 7) : Vec F S1x32768 .f32 := fun j => x0 (ix2 r (j 1))

/-- The load of row `r` from the whole input buffer held at `x0` is that row. -/
theorem load_row (arg1 : Memref sig .tc .vmem S7x32768 .f32) (harg1 : arg1.IsWhole) (x0 : Vec F S7x32768 .f32)
    (r : Nat) (hr : r < 7) (inb : ∀ a, (![r, 0] : Fin 2 → Nat) a + S1x32768.size a ≤ S7x32768.size a) :
    View.readAt (Elt F) arg1.view (Rect.unit (s := S7x32768) ![r, 0] S1x32768.size inb).toLoadRect (harg1.unread x0) = row x0 ⟨r, hr⟩ := by
  funext j
  refine (harg1.readAt_unread x0 _ j).trans ?_
  show x0 _ = x0 _
  congr 1
  funext a
  match a with
  | ⟨0, _⟩ => exact Fin.ext (by show r + 1 * (j 0).val = r; have := idx2_lt0 j; omega)
  | ⟨1, _⟩ => exact Fin.ext (by show 0 + 1 * (j 1).val = (j 1).val; omega)

/-- Eight row vectors stacked: row `k` of the stack is the `k`-th vector. -/
theorem concat8_apply {α : Type} (v0 v1 v2 v3 v4 v5 v6 v7 : S1x32768.Idx → α)
    (h : Shape.Concatenates ([(⟨S1x32768, v0⟩ : (s : Shape) × (s.Idx → α)), ⟨S1x32768, v1⟩, ⟨S1x32768, v2⟩, ⟨S1x32768, v3⟩, ⟨S1x32768, v4⟩, ⟨S1x32768, v5⟩, ⟨S1x32768, v6⟩, ⟨S1x32768, v7⟩].map (·.1)) S8x32768 0)
    (k : Fin 8) (q : Fin 32768) :
    concatenate S8x32768 0 [⟨S1x32768, v0⟩, ⟨S1x32768, v1⟩, ⟨S1x32768, v2⟩, ⟨S1x32768, v3⟩, ⟨S1x32768, v4⟩, ⟨S1x32768, v5⟩, ⟨S1x32768, v6⟩, ⟨S1x32768, v7⟩] h (ix2 k q)
      = (![v0, v1, v2, v3, v4, v5, v6, v7] k) (ix2 0 q) := by
  have hi : ∀ (k : Fin 8) (b : Fin S1x32768.rank), b.cast (rfl : S1x32768.rank = S8x32768.rank) ≠ 0 →
      ((ix2 0 q : S1x32768.Idx) b).val = ((ix2 k q : S8x32768.Idx) (b.cast rfl)).val := by
    intro k b hb
    match b with
    | ⟨0, _⟩ => exact absurd rfl hb
    | ⟨1, _⟩ => rfl
  fin_cases k
  · exact concatenate_apply_piece 0 _ h _ 0 (by show (0 : Nat) < 8; omega) S1x32768 v0 rfl rfl 0 rfl (ix2 0 q) (hi 0) rfl
  · exact concatenate_apply_piece 0 _ h _ 1 (by show (1 : Nat) < 8; omega) S1x32768 v1 rfl rfl 1 rfl (ix2 0 q) (hi 1) rfl
  · exact concatenate_apply_piece 0 _ h _ 2 (by show (2 : Nat) < 8; omega) S1x32768 v2 rfl rfl 2 rfl (ix2 0 q) (hi 2) rfl
  · exact concatenate_apply_piece 0 _ h _ 3 (by show (3 : Nat) < 8; omega) S1x32768 v3 rfl rfl 3 rfl (ix2 0 q) (hi 3) rfl
  · exact concatenate_apply_piece 0 _ h _ 4 (by show (4 : Nat) < 8; omega) S1x32768 v4 rfl rfl 4 rfl (ix2 0 q) (hi 4) rfl
  · exact concatenate_apply_piece 0 _ h _ 5 (by show (5 : Nat) < 8; omega) S1x32768 v5 rfl rfl 5 rfl (ix2 0 q) (hi 5) rfl
  · exact concatenate_apply_piece 0 _ h _ 6 (by show (6 : Nat) < 8; omega) S1x32768 v6 rfl rfl 6 rfl (ix2 0 q) (hi 6) rfl
  · exact concatenate_apply_piece 0 _ h _ 7 (by show (7 : Nat) < 8; omega) S1x32768 v7 rfl rfl 7 rfl (ix2 0 q) (hi 7) rfl

/-! The loaded rows pass through a recast to their own shape; position rows are then scaled to cell units. -/
theorem pay7_eq (v : Vec F S1x32768 .f32) : k0_pay7 v = v := shapeCast_row v _
theorem pay8_eq (v : Vec F S1x32768 .f32) : k0_pay8 v = v := shapeCast_row v _
theorem pay9_eq (v : Vec F S1x32768 .f32) : k0_pay9 v = v := shapeCast_row v _
theorem pay10_eq (v : Vec F S1x32768 .f32) : k0_pay10 v = v := shapeCast_row v _
theorem pay11_eq (v : Vec F S1x32768 .f32) : k0_pay11 v = fun j => Cert.Spec.rel (v j) := by
  unfold k0_pay11; rw [shapeCast_row]; rfl
theorem pay12_eq (v : Vec F S1x32768 .f32) : k0_pay12 v = fun j => Cert.Spec.rel (v j) := by
  unfold k0_pay12; rw [shapeCast_row]; rfl
theorem pay13_eq (v : Vec F S1x32768 .f32) : k0_pay13 v = fun j => Cert.Spec.rel (v j) := by
  unfold k0_pay13; rw [shapeCast_row]; rfl

/-! Per axis, before any corner offset: the floor, then the offset-zero corner's grid coordinate, distance and integer coordinate. -/
theorem pay14_eq (v : Vec F S1x32768 .f32) : k0_pay14 v = fun j => FloatOps.floor (Cert.Spec.rel (v j)) := by
  unfold k0_pay14; rw [pay11_eq]; rfl
theorem pay15_eq (v : Vec F S1x32768 .f32) : k0_pay15 v = fun j => FloatOps.floor (Cert.Spec.rel (v j)) := by
  unfold k0_pay15; rw [pay12_eq]; rfl
theorem pay16_eq (v : Vec F S1x32768 .f32) : k0_pay16 v = fun j => FloatOps.floor (Cert.Spec.rel (v j)) := by
  unfold k0_pay16; rw [pay13_eq]; rfl
theorem pay17_eq (v : Vec F S1x32768 .f32) : k0_pay17 v = fun j => Cert.Spec.gp (v j) false := by
  unfold k0_pay17; rw [pay14_eq]; rfl
theorem pay18_eq (v : Vec F S1x32768 .f32) : k0_pay18 v = fun j => Cert.Spec.gp (v j) false := by
  unfold k0_pay18; rw [pay15_eq]; rfl
theorem pay19_eq (v : Vec F S1x32768 .f32) : k0_pay19 v = fun j => Cert.Spec.gp (v j) false := by
  unfold k0_pay19; rw [pay16_eq]; rfl
theorem pay20_eq (v : Vec F S1x32768 .f32) : k0_pay20 v = fun j => Cert.Spec.dist (v j) false := by
  unfold k0_pay20; rw [pay11_eq, pay17_eq]; rfl
theorem pay21_eq (v : Vec F S1x32768 .f32) : k0_pay21 v = fun j => Cert.Spec.dist (v j) false := by
  unfold k0_pay21; rw [pay12_eq, pay18_eq]; rfl
theorem pay22_eq (v : Vec F S1x32768 .f32) : k0_pay22 v = fun j => Cert.Spec.dist (v j) false := by
  unfold k0_pay22; rw [pay13_eq, pay19_eq]; rfl
theorem pay23_eq (v : Vec F S1x32768 .f32) : k0_pay23 v = fun j => Cert.Spec.gpi (v j) false := by
  unfold k0_pay23; rw [pay18_eq]; rfl
theorem pay24_eq (v0 v4 : Vec F S1x32768 .f32) : k0_pay24 v0 v4 = fun j =>
    IntOp.addi (Cert.Spec.gpi (v4 j) false) (IntOp.muli (Cert.Spec.gpi (v0 j) false) 128#32) := by
  unfold k0_pay24; rw [pay17_eq, pay19_eq]; rfl

/-! ## The eight corner rows of each output, over arbitrary channel rows
Each is the same chain of field operations on both sides, lane by lane. -/

/-! The cell-number rows: corner by corner, the stacked row at lane `q` is the specification's clipped cell number. -/
theorem cellRow_0 (l0 l1 l2 l3 l4 l5 l6 : Vec F S1x32768 .f32) (q : Fin 32768) :
    (k0_pay26 (fun j => Spec.gpi (l1 j) false) fun j => IntOp.addi (Spec.gpi (l2 j) false) (IntOp.muli (Spec.gpi (l0 j) false) 128#32)) (ix2 0 q)
      = Cert.Spec.cell (l0 (ix2 0 q)) (l1 (ix2 0 q)) (l2 (ix2 0 q)) 0 := rfl
theorem cellRow_1 (l0 l1 l2 l3 l4 l5 l6 : Vec F S1x32768 .f32) (q : Fin 32768) :
    (k0_pay40 (k0_pay37 (fun j => FloatOps.floor (Spec.rel (l0 j))) fun j => FloatOps.floor (Spec.rel (l2 j))) (k0_pay38 fun j => FloatOps.floor (Spec.rel (l1 j)))) (ix2 0 q)
      = Cert.Spec.cell (l0 (ix2 0 q)) (l1 (ix2 0 q)) (l2 (ix2 0 q)) 1 := rfl
theorem cellRow_2 (l0 l1 l2 l3 l4 l5 l6 : Vec F S1x32768 .f32) (q : Fin 32768) :
    (k0_pay52 (k0_pay50 (fun j => FloatOps.floor (Spec.rel (l0 j))) (fun j => FloatOps.floor (Spec.rel (l1 j))) fun j => FloatOps.floor (Spec.rel (l2 j)))) (ix2 0 q)
      = Cert.Spec.cell (l0 (ix2 0 q)) (l1 (ix2 0 q)) (l2 (ix2 0 q)) 2 := rfl
theorem cellRow_3 (l0 l1 l2 l3 l4 l5 l6 : Vec F S1x32768 .f32) (q : Fin 32768) :
    (k0_pay64 (k0_pay61 (fun j => FloatOps.floor (Spec.rel (l0 j))) (fun j => FloatOps.floor (Spec.rel (l1 j))) fun j => FloatOps.floor (Spec.rel (l2 j)))) (ix2 0 q)
      = Cert.Spec.cell (l0 (ix2 0 q)) (l1 (ix2 0 q)) (l2 (ix2 0 q)) 3 := rfl
theorem cellRow_4 (l0 l1 l2 l3 l4 l5 l6 : Vec F S1x32768 .f32) (q : Fin 32768) :
    (k0_pay76 (k0_pay73 (fun j => FloatOps.floor (Spec.rel (l0 j))) (fun j => FloatOps.floor (Spec.rel (l1 j))) fun j => FloatOps.floor (Spec.rel (l2 j)))) (ix2 0 q)
      = Cert.Spec.cell (l0 (ix2 0 q)) (l1 (ix2 0 q)) (l2 (ix2 0 q)) 4 := rfl
theorem cellRow_5 (l0 l1 l2 l3 l4 l5 l6 : Vec F S1x32768 .f32) (q : Fin 32768) :
    (k0_pay89 (k0_pay84 (fun j => FloatOps.floor (Spec.rel (l0 j))) (fun j => FloatOps.floor (Spec.rel (l1 j))) fun j => FloatOps.floor (Spec.rel (l2 j)))) (ix2 0 q)
      = Cert.Spec.cell (l0 (ix2 0 q)) (l1 (ix2 0 q)) (l2 (ix2 0 q)) 5 := rfl
theorem cellRow_6 (l0 l1 l2 l3 l4 l5 l6 : Vec F S1x32768 .f32) (q : Fin 32768) :
    (k0_pay99 (k0_pay97 (fun j => FloatOps.floor (Spec.rel (l0 j))) (fun j => FloatOps.floor (Spec.rel (l1 j))) fun j => FloatOps.floor (Spec.rel (l2 j)))) (ix2 0 q)
      = Cert.Spec.cell (l0 (ix2 0 q)) (l1 (ix2 0 q)) (l2 (ix2 0 q)) 6 := rfl
theorem cellRow_7 (l0 l1 l2 l3 l4 l5 l6 : Vec F S1x32768 .f32) (q : Fin 32768) :
    (minsi (broadcast S1x32768 2097151#32) (maxsi (broadcast S1x32768 0#32) (k0_pay107 (fun j => FloatOps.floor (Spec.rel (l0 j))) (fun j => FloatOps.floor (Spec.rel (l1 j))) fun j => FloatOps.floor (Spec.rel (l2 j))))) (ix2 0 q)
      = Cert.Spec.cell (l0 (ix2 0 q)) (l1 (ix2 0 q)) (l2 (ix2 0 q)) 7 := rfl

/-! The mass-share rows. -/
theorem massRow_0 (l0 l1 l2 l3 l4 l5 l6 : Vec F S1x32768 .f32) (q : Fin 32768) :
    (k0_pay27 l6 (fun j => Spec.dist (l0 j) false) (fun j => Spec.dist (l1 j) false) (fun j => Spec.dist (l2 j) false) (fun j => Spec.gpi (l1 j) false) fun j => IntOp.addi (Spec.gpi (l2 j) false) (IntOp.muli (Spec.gpi (l0 j) false) 128#32)) (ix2 0 q)
      = Cert.Spec.sm (l0 (ix2 0 q)) (l1 (ix2 0 q)) (l2 (ix2 0 q)) (l6 (ix2 0 q)) 0 := rfl
theorem massRow_1 (l0 l1 l2 l3 l4 l5 l6 : Vec F S1x32768 .f32) (q : Fin 32768) :
    (k0_pay41 l6 (k0_pay34 (fun j => Spec.rel (l0 j)) fun j => FloatOps.floor (Spec.rel (l0 j))) (k0_pay35 (fun j => Spec.rel (l1 j)) fun j => FloatOps.floor (Spec.rel (l1 j))) (k0_pay36 (fun j => Spec.rel (l2 j)) fun j => FloatOps.floor (Spec.rel (l2 j))) (k0_pay37 (fun j => FloatOps.floor (Spec.rel (l0 j))) fun j => FloatOps.floor (Spec.rel (l2 j))) (k0_pay38 fun j => FloatOps.floor (Spec.rel (l1 j)))) (ix2 0 q)
      = Cert.Spec.sm (l0 (ix2 0 q)) (l1 (ix2 0 q)) (l2 (ix2 0 q)) (l6 (ix2 0 q)) 1 := rfl
theorem massRow_2 (l0 l1 l2 l3 l4 l5 l6 : Vec F S1x32768 .f32) (q : Fin 32768) :
    (k0_pay53 l6 (k0_pay48 (fun j => Spec.rel (l1 j)) fun j => FloatOps.floor (Spec.rel (l1 j))) (k0_pay49 (fun j => Spec.rel (l2 j)) fun j => FloatOps.floor (Spec.rel (l2 j))) (k0_pay50 (fun j => FloatOps.floor (Spec.rel (l0 j))) (fun j => FloatOps.floor (Spec.rel (l1 j))) fun j => FloatOps.floor (Spec.rel (l2 j))) (k0_pay51 (fun j => Spec.rel (l0 j)) fun j => FloatOps.floor (Spec.rel (l0 j))) (FloatOps.ofBits FTy.f32 1065353216#32)) (ix2 0 q)
      = Cert.Spec.sm (l0 (ix2 0 q)) (l1 (ix2 0 q)) (l2 (ix2 0 q)) (l6 (ix2 0 q)) 2 := rfl
theorem massRow_3 (l0 l1 l2 l3 l4 l5 l6 : Vec F S1x32768 .f32) (q : Fin 32768) :
    (k0_pay65 l6 (k0_pay60 (fun j => Spec.rel (l2 j)) fun j => FloatOps.floor (Spec.rel (l2 j))) (k0_pay61 (fun j => FloatOps.floor (Spec.rel (l0 j))) (fun j => FloatOps.floor (Spec.rel (l1 j))) fun j => FloatOps.floor (Spec.rel (l2 j))) (k0_pay62 (fun j => Spec.rel (l0 j)) fun j => FloatOps.floor (Spec.rel (l0 j))) (k0_pay63 (fun j => Spec.rel (l1 j)) fun j => FloatOps.floor (Spec.rel (l1 j)))) (ix2 0 q)
      = Cert.Spec.sm (l0 (ix2 0 q)) (l1 (ix2 0 q)) (l2 (ix2 0 q)) (l6 (ix2 0 q)) 3 := rfl
theorem massRow_4 (l0 l1 l2 l3 l4 l5 l6 : Vec F S1x32768 .f32) (q : Fin 32768) :
    (k0_pay77 l6 (k0_pay72 (fun j => Spec.rel (l2 j)) fun j => FloatOps.floor (Spec.rel (l2 j))) (k0_pay73 (fun j => FloatOps.floor (Spec.rel (l0 j))) (fun j => FloatOps.floor (Spec.rel (l1 j))) fun j => FloatOps.floor (Spec.rel (l2 j))) (k0_pay74 (fun j => Spec.rel (l0 j)) fun j => FloatOps.floor (Spec.rel (l0 j))) (k0_pay75 (fun j => Spec.rel (l1 j)) fun j => FloatOps.floor (Spec.rel (l1 j)))) (ix2 0 q)
      = Cert.Spec.sm (l0 (ix2 0 q)) (l1 (ix2 0 q)) (l2 (ix2 0 q)) (l6 (ix2 0 q)) 4 := rfl
theorem massRow_5 (l0 l1 l2 l3 l4 l5 l6 : Vec F S1x32768 .f32) (q : Fin 32768) :
    (k0_pay90 l6 (k0_pay84 (fun j => FloatOps.floor (Spec.rel (l0 j))) (fun j => FloatOps.floor (Spec.rel (l1 j))) fun j => FloatOps.floor (Spec.rel (l2 j))) (k0_pay85 (fun j => Spec.rel (l0 j)) fun j => FloatOps.floor (Spec.rel (l0 j))) (k0_pay86 (fun j => Spec.rel (l1 j)) fun j => FloatOps.floor (Spec.rel (l1 j))) (k0_pay87 (fun j => Spec.rel (l2 j)) fun j => FloatOps.floor (Spec.rel (l2 j))) k0_pay88) (ix2 0 q)
      = Cert.Spec.sm (l0 (ix2 0 q)) (l1 (ix2 0 q)) (l2 (ix2 0 q)) (l6 (ix2 0 q)) 5 := rfl
theorem massRow_6 (l0 l1 l2 l3 l4 l5 l6 : Vec F S1x32768 .f32) (q : Fin 32768) :
    (k0_pay100 l6 (k0_pay97 (fun j => FloatOps.floor (Spec.rel (l0 j))) (fun j => FloatOps.floor (Spec.rel (l1 j))) fun j => FloatOps.floor (Spec.rel (l2 j))) (k0_pay98 (fun j => Spec.rel (l0 j)) (fun j => Spec.rel (l1 j)) (fun j => Spec.rel (l2 j)) (fun j => FloatOps.floor (Spec.rel (l0 j))) (fun j => FloatOps.floor (Spec.rel (l1 j))) fun j => FloatOps.floor (Spec.rel (l2 j)))) (ix2 0 q)
      = Cert.Spec.sm (l0 (ix2 0 q)) (l1 (ix2 0 q)) (l2 (ix2 0 q)) (l6 (ix2 0 q)) 6 := rfl
theorem massRow_7 (l0 l1 l2 l3 l4 l5 l6 : Vec F S1x32768 .f32) (q : Fin 32768) :
    (k0_pay1 l6 (k0_pay107 (fun j => FloatOps.floor (Spec.rel (l0 j))) (fun j => FloatOps.floor (Spec.rel (l1 j))) fun j => FloatOps.floor (Spec.rel (l2 j))) (k0_pay108 (fun j => Spec.rel (l0 j)) (fun j => Spec.rel (l1 j)) (fun j => Spec.rel (l2 j)) (fun j => FloatOps.floor (Spec.rel (l0 j))) (fun j => FloatOps.floor (Spec.rel (l1 j))) fun j => FloatOps.floor (Spec.rel (l2 j))) (k0_pay109 (fun j => FloatOps.floor (Spec.rel (l0 j))) (fun j => FloatOps.floor (Spec.rel (l1 j))) fun j => FloatOps.floor (Spec.rel (l2 j)))) (ix2 0 q)
      = Cert.Spec.sm (l0 (ix2 0 q)) (l1 (ix2 0 q)) (l2 (ix2 0 q)) (l6 (ix2 0 q)) 7 := rfl

/-! The momentum-share rows, first velocity component. -/
theorem momRow0_0 (l0 l1 l2 l3 l4 l5 l6 : Vec F S1x32768 .f32) (q : Fin 32768) :
    (k0_pay28 l3 l6 (fun j => Spec.dist (l0 j) false) (fun j => Spec.dist (l1 j) false) (fun j => Spec.dist (l2 j) false) (fun j => Spec.gpi (l1 j) false) fun j => IntOp.addi (Spec.gpi (l2 j) false) (IntOp.muli (Spec.gpi (l0 j) false) 128#32)) (ix2 0 q)
      = Cert.Spec.mom (l0 (ix2 0 q)) (l1 (ix2 0 q)) (l2 (ix2 0 q)) (l6 (ix2 0 q)) (l3 (ix2 0 q)) 0 := rfl
theorem momRow0_1 (l0 l1 l2 l3 l4 l5 l6 : Vec F S1x32768 .f32) (q : Fin 32768) :
    (k0_pay42 l3 l6 (k0_pay34 (fun j => Spec.rel (l0 j)) fun j => FloatOps.floor (Spec.rel (l0 j))) (k0_pay35 (fun j => Spec.rel (l1 j)) fun j => FloatOps.floor (Spec.rel (l1 j))) (k0_pay36 (fun j => Spec.rel (l2 j)) fun j => FloatOps.floor (Spec.rel (l2 j))) (k0_pay37 (fun j => FloatOps.floor (Spec.rel (l0 j))) fun j => FloatOps.floor (Spec.rel (l2 j))) (k0_pay38 fun j => FloatOps.floor (Spec.rel (l1 j)))) (ix2 0 q)
      = Cert.Spec.mom (l0 (ix2 0 q)) (l1 (ix2 0 q)) (l2 (ix2 0 q)) (l6 (ix2 0 q)) (l3 (ix2 0 q)) 1 := rfl
theorem momRow0_2 (l0 l1 l2 l3 l4 l5 l6 : Vec F S1x32768 .f32) (q : Fin 32768) :
    (k0_pay54 l3 l6 (k0_pay48 (fun j => Spec.rel (l1 j)) fun j => FloatOps.floor (Spec.rel (l1 j))) (k0_pay49 (fun j => Spec.rel (l2 j)) fun j => FloatOps.floor (Spec.rel (l2 j))) (k0_pay50 (fun j => FloatOps.floor (Spec.rel (l0 j))) (fun j => FloatOps.floor (Spec.rel (l1 j))) fun j => FloatOps.floor (Spec.rel (l2 j))) (k0_pay51 (fun j => Spec.rel (l0 j)) fun j => FloatOps.floor (Spec.rel (l0 j))) (FloatOps.ofBits FTy.f32 1065353216#32)) (ix2 0 q)
      = Cert.Spec.mom (l0 (ix2 0 q)) (l1 (ix2 0 q)) (l2 (ix2 0 q)) (l6 (ix2 0 q)) (l3 (ix2 0 q)) 2 := rfl
theorem momRow0_3 (l0 l1 l2 l3 l4 l5 l6 : Vec F S1x32768 .f32) (q : Fin 32768) :
    (k0_pay66 l3 l6 (k0_pay60 (fun j => Spec.rel (l2 j)) fun j => FloatOps.floor (Spec.rel (l2 j))) (k0_pay61 (fun j => FloatOps.floor (Spec.rel (l0 j))) (fun j => FloatOps.floor (Spec.rel (l1 j))) fun j => FloatOps.floor (Spec.rel (l2 j))) (k0_pay62 (fun j => Spec.rel (l0 j)) fun j => FloatOps.floor (Spec.rel (l0 j))) (k0_pay63 (fun j => Spec.rel (l1 j)) fun j => FloatOps.floor (Spec.rel (l1 j)))) (ix2 0 q)
      = Cert.Spec.mom (l0 (ix2 0 q)) (l1 (ix2 0 q)) (l2 (ix2 0 q)) (l6 (ix2 0 q)) (l3 (ix2 0 q)) 3 := rfl
theorem momRow0_4 (l0 l1 l2 l3 l4 l5 l6 : Vec F S1x32768 .f32) (q : Fin 32768) :
    (k0_pay78 l3 l6 (k0_pay72 (fun j => Spec.rel (l2 j)) fun j => FloatOps.floor (Spec.rel (l2 j))) (k0_pay73 (fun j => FloatOps.floor (Spec.rel (l0 j))) (fun j => FloatOps.floor (Spec.rel (l1 j))) fun j => FloatOps.floor (Spec.rel (l2 j))) (k0_pay74 (fun j => Spec.rel (l0 j)) fun j => FloatOps.floor (Spec.rel (l0 j))) (k0_pay75 (fun j => Spec.rel (l1 j)) fun j => FloatOps.floor (Spec.rel (l1 j)))) (ix2 0 q)
      = Cert.Spec.mom (l0 (ix2 0 q)) (l1 (ix2 0 q)) (l2 (ix2 0 q)) (l6 (ix2 0 q)) (l3 (ix2 0 q)) 4 := rfl
theorem momRow0_5 (l0 l1 l2 l3 l4 l5 l6 : Vec F S1x32768 .f32) (q : Fin 32768) :
    (k0_pay91 l3 l6 (k0_pay84 (fun j => FloatOps.floor (Spec.rel (l0 j))) (fun j => FloatOps.floor (Spec.rel (l1 j))) fun j => FloatOps.floor (Spec.rel (l2 j))) (k0_pay85 (fun j => Spec.rel (l0 j)) fun j => FloatOps.floor (Spec.rel (l0 j))) (k0_pay86 (fun j => Spec.rel (l1 j)) fun j => FloatOps.floor (Spec.rel (l1 j))) (k0_pay87 (fun j => Spec.rel (l2 j)) fun j => FloatOps.floor (Spec.rel (l2 j))) k0_pay88) (ix2 0 q)
      = Cert.Spec.mom (l0 (ix2 0 q)) (l1 (ix2 0 q)) (l2 (ix2 0 q)) (l6 (ix2 0 q)) (l3 (ix2 0 q)) 5 := rfl
theorem momRow0_6 (l0 l1 l2 l3 l4 l5 l6 : Vec F S1x32768 .f32) (q : Fin 32768) :
    (k0_pay101 l3 l6 (k0_pay97 (fun j => FloatOps.floor (Spec.rel (l0 j))) (fun j => FloatOps.floor (Spec.rel (l1 j))) fun j => FloatOps.floor (Spec.rel (l2 j))) (k0_pay98 (fun j => Spec.rel (l0 j)) (fun j => Spec.rel (l1 j)) (fun j => Spec.rel (l2 j)) (fun j => FloatOps.floor (Spec.rel (l0 j))) (fun j => FloatOps.floor (Spec.rel (l1 j))) fun j => FloatOps.floor (Spec.rel (l2 j)))) (ix2 0 q)
      = Cert.Spec.mom (l0 (ix2 0 q)) (l1 (ix2 0 q)) (l2 (ix2 0 q)) (l6 (ix2 0 q)) (l3 (ix2 0 q)) 6 := rfl
theorem momRow0_7 (l0 l1 l2 l3 l4 l5 l6 : Vec F S1x32768 .f32) (q : Fin 32768) :
    (mulf (k0_pay1 l6 (k0_pay107 (fun j => FloatOps.floor (Spec.rel (l0 j))) (fun j => FloatOps.floor (Spec.rel (l1 j))) fun j => FloatOps.floor (Spec.rel (l2 j))) (k0_pay108 (fun j => Spec.rel (l0 j)) (fun j => Spec.rel (l1 j)) (fun j => Spec.rel (l2 j)) (fun j => FloatOps.floor (Spec.rel (l0 j))) (fun j => FloatOps.floor (Spec.rel (l1 j))) fun j => FloatOps.floor (Spec.rel (l2 j))) (k0_pay109 (fun j => FloatOps.floor (Spec.rel (l0 j))) (fun j => FloatOps.floor (Spec.rel (l1 j))) fun j => FloatOps.floor (Spec.rel (l2 j)))) l3) (ix2 0 q)
      = Cert.Spec.mom (l0 (ix2 0 q)) (l1 (ix2 0 q)) (l2 (ix2 0 q)) (l6 (ix2 0 q)) (l3 (ix2 0 q)) 7 := rfl

/-! The momentum-share rows, second velocity component. -/
theorem momRow1_0 (l0 l1 l2 l3 l4 l5 l6 : Vec F S1x32768 .f32) (q : Fin 32768) :
    (k0_pay29 l4 l6 (fun j => Spec.dist (l0 j) false) (fun j => Spec.dist (l1 j) false) (fun j => Spec.dist (l2 j) false) (fun j => Spec.gpi (l1 j) false) fun j => IntOp.addi (Spec.gpi (l2 j) false) (IntOp.muli (Spec.gpi (l0 j) false) 128#32)) (ix2 0 q)
      = Cert.Spec.mom (l0 (ix2 0 q)) (l1 (ix2 0 q)) (l2 (ix2 0 q)) (l6 (ix2 0 q)) (l4 (ix2 0 q)) 0 := rfl
theorem momRow1_1 (l0 l1 l2 l3 l4 l5 l6 : Vec F S1x32768 .f32) (q : Fin 32768) :
    (k0_pay43 l4 l6 (k0_pay34 (fun j => Spec.rel (l0 j)) fun j => FloatOps.floor (Spec.rel (l0 j))) (k0_pay35 (fun j => Spec.rel (l1 j)) fun j => FloatOps.floor (Spec.rel (l1 j))) (k0_pay36 (fun j => Spec.rel (l2 j)) fun j => FloatOps.floor (Spec.rel (l2 j))) (k0_pay37 (fun j => FloatOps.floor (Spec.rel (l0 j))) fun j => FloatOps.floor (Spec.rel (l2 j))) (k0_pay38 fun j => FloatOps.floor (Spec.rel (l1 j)))) (ix2 0 q)
      = Cert.Spec.mom (l0 (ix2 0 q)) (l1 (ix2 0 q)) (l2 (ix2 0 q)) (l6 (ix2 0 q)) (l4 (ix2 0 q)) 1 := rfl
theorem momRow1_2 (l0 l1 l2 l3 l4 l5 l6 : Vec F S1x32768 .f32) (q : Fin 32768) :
    (k0_pay55 l4 l6 (k0_pay48 (fun j => Spec.rel (l1 j)) fun j => FloatOps.floor (Spec.rel (l1 j))) (k0_pay49 (fun j => Spec.rel (l2 j)) fun j => FloatOps.floor (Spec.rel (l2 j))) (k0_pay50 (fun j => FloatOps.floor (Spec.rel (l0 j))) (fun j => FloatOps.floor (Spec.rel (l1 j))) fun j => FloatOps.floor (Spec.rel (l2 j))) (k0_pay51 (fun j => Spec.rel (l0 j)) fun j => FloatOps.floor (Spec.rel (l0 j))) (FloatOps.ofBits FTy.f32 1065353216#32)) (ix2 0 q)
      = Cert.Spec.mom (l0 (ix2 0 q)) (l1 (ix2 0 q)) (l2 (ix2 0 q)) (l6 (ix2 0 q)) (l4 (ix2 0 q)) 2 := rfl
theorem momRow1_3 (l0 l1 l2 l3 l4 l5 l6 : Vec F S1x32768 .f32) (q : Fin 32768) :
    (k0_pay67 l4 l6 (k0_pay60 (fun j => Spec.rel (l2 j)) fun j => FloatOps.floor (Spec.rel (l2 j))) (k0_pay61 (fun j => FloatOps.floor (Spec.rel (l0 j))) (fun j => FloatOps.floor (Spec.rel (l1 j))) fun j => FloatOps.floor (Spec.rel (l2 j))) (k0_pay62 (fun j => Spec.rel (l0 j)) fun j => FloatOps.floor (Spec.rel (l0 j))) (k0_pay63 (fun j => Spec.rel (l1 j)) fun j => FloatOps.floor (Spec.rel (l1 j)))) (ix2 0 q)
      = Cert.Spec.mom (l0 (ix2 0 q)) (l1 (ix2 0 q)) (l2 (ix2 0 q)) (l6 (ix2 0 q)) (l4 (ix2 0 q)) 3 := rfl
theorem momRow1_4 (l0 l1 l2 l3 l4 l5 l6 : Vec F S1x32768 .f32) (q : Fin 32768) :
    (k0_pay79 l4 l6 (k0_pay72 (fun j => Spec.rel (l2 j)) fun j => FloatOps.floor (Spec.rel (l2 j))) (k0_pay73 (fun j => FloatOps.floor (Spec.rel (l0 j))) (fun j => FloatOps.floor (Spec.rel (l1 j))) fun j => FloatOps.floor (Spec.rel (l2 j))) (k0_pay74 (fun j => Spec.rel (l0 j)) fun j => FloatOps.floor (Spec.rel (l0 j))) (k0_pay75 (fun j => Spec.rel (l1 j)) fun j => FloatOps.floor (Spec.rel (l1 j)))) (ix2 0 q)
      = Cert.Spec.mom (l0 (ix2 0 q)) (l1 (ix2 0 q)) (l2 (ix2 0 q)) (l6 (ix2 0 q)) (l4 (ix2 0 q)) 4 := rfl
theorem momRow1_5 (l0 l1 l2 l3 l4 l5 l6 : Vec F S1x32768 .f32) (q : Fin 32768) :
    (k0_pay92 l4 l6 (k0_pay84 (fun j => FloatOps.floor (Spec.rel (l0 j))) (fun j => FloatOps.floor (Spec.rel (l1 j))) fun j => FloatOps.floor (Spec.rel (l2 j))) (k0_pay85 (fun j => Spec.rel (l0 j)) fun j => FloatOps.floor (Spec.rel (l0 j))) (k0_pay86 (fun j => Spec.rel (l1 j)) fun j => FloatOps.floor (Spec.rel (l1 j))) (k0_pay87 (fun j => Spec.rel (l2 j)) fun j => FloatOps.floor (Spec.rel (l2 j))) k0_pay88) (ix2 0 q)
      = Cert.Spec.mom (l0 (ix2 0 q)) (l1 (ix2 0 q)) (l2 (ix2 0 q)) (l6 (ix2 0 q)) (l4 (ix2 0 q)) 5 := rfl
theorem momRow1_6 (l0 l1 l2 l3 l4 l5 l6 : Vec F S1x32768 .f32) (q : Fin 32768) :
    (k0_pay102 l4 l6 (k0_pay97 (fun j => FloatOps.floor (Spec.rel (l0 j))) (fun j => FloatOps.floor (Spec.rel (l1 j))) fun j => FloatOps.floor (Spec.rel (l2 j))) (k0_pay98 (fun j => Spec.rel (l0 j)) (fun j => Spec.rel (l1 j)) (fun j => Spec.rel (l2 j)) (fun j => FloatOps.floor (Spec.rel (l0 j))) (fun j => FloatOps.floor (Spec.rel (l1 j))) fun j => FloatOps.floor (Spec.rel (l2 j)))) (ix2 0 q)
      = Cert.Spec.mom (l0 (ix2 0 q)) (l1 (ix2 0 q)) (l2 (ix2 0 q)) (l6 (ix2 0 q)) (l4 (ix2 0 q)) 6 := rfl
theorem momRow1_7 (l0 l1 l2 l3 l4 l5 l6 : Vec F S1x32768 .f32) (q : Fin 32768) :
    (mulf (k0_pay1 l6 (k0_pay107 (fun j => FloatOps.floor (Spec.rel (l0 j))) (fun j => FloatOps.floor (Spec.rel (l1 j))) fun j => FloatOps.floor (Spec.rel (l2 j))) (k0_pay108 (fun j => Spec.rel (l0 j)) (fun j => Spec.rel (l1 j)) (fun j => Spec.rel (l2 j)) (fun j => FloatOps.floor (Spec.rel (l0 j))) (fun j => FloatOps.floor (Spec.rel (l1 j))) fun j => FloatOps.floor (Spec.rel (l2 j))) (k0_pay109 (fun j => FloatOps.floor (Spec.rel (l0 j))) (fun j => FloatOps.floor (Spec.rel (l1 j))) fun j => FloatOps.floor (Spec.rel (l2 j)))) l4) (ix2 0 q)
      = Cert.Spec.mom (l0 (ix2 0 q)) (l1 (ix2 0 q)) (l2 (ix2 0 q)) (l6 (ix2 0 q)) (l4 (ix2 0 q)) 7 := rfl

/-! The momentum-share rows, third velocity component. -/
theorem momRow2_0 (l0 l1 l2 l3 l4 l5 l6 : Vec F S1x32768 .f32) (q : Fin 32768) :
    (k0_pay30 l5 l6 (fun j => Spec.dist (l0 j) false) (fun j => Spec.dist (l1 j) false) (fun j => Spec.dist (l2 j) false) (fun j => Spec.gpi (l1 j) false) fun j => IntOp.addi (Spec.gpi (l2 j) false) (IntOp.muli (Spec.gpi (l0 j) false) 128#32)) (ix2 0 q)
      = Cert.Spec.mom (l0 (ix2 0 q)) (l1 (ix2 0 q)) (l2 (ix2 0 q)) (l6 (ix2 0 q)) (l5 (ix2 0 q)) 0 := rfl
theorem momRow2_1 (l0 l1 l2 l3 l4 l5 l6 : Vec F S1x32768 .f32) (q : Fin 32768) :
    (k0_pay44 l5 l6 (k0_pay34 (fun j => Spec.rel (l0 j)) fun j => FloatOps.floor (Spec.rel (l0 j))) (k0_pay35 (fun j => Spec.rel (l1 j)) fun j => FloatOps.floor (Spec.rel (l1 j))) (k0_pay36 (fun j => Spec.rel (l2 j)) fun j => FloatOps.floor (Spec.rel (l2 j))) (k0_pay37 (fun j => FloatOps.floor (Spec.rel (l0 j))) fun j => FloatOps.floor (Spec.rel (l2 j))) (k0_pay38 fun j => FloatOps.floor (Spec.rel (l1 j)))) (ix2 0 q)
      = Cert.Spec.mom (l0 (ix2 0 q)) (l1 (ix2 0 q)) (l2 (ix2 0 q)) (l6 (ix2 0 q)) (l5 (ix2 0 q)) 1 := rfl
theorem momRow2_2 (l0 l1 l2 l3 l4 l5 l6 : Vec F S1x32768 .f32) (q : Fin 32768) :
    (k0_pay56 l5 l6 (k0_pay48 (fun j => Spec.rel (l1 j)) fun j => FloatOps.floor (Spec.rel (l1 j))) (k0_pay49 (fun j => Spec.rel (l2 j)) fun j => FloatOps.floor (Spec.rel (l2 j))) (k0_pay50 (fun j => FloatOps.floor (Spec.rel (l0 j))) (fun j => FloatOps.floor (Spec.rel (l1 j))) fun j => FloatOps.floor (Spec.rel (l2 j))) (k0_pay51 (fun j => Spec.rel (l0 j)) fun j => FloatOps.floor (Spec.rel (l0 j))) (FloatOps.ofBits FTy.f32 1065353216#32)) (ix2 0 q)
      = Cert.Spec.mom (l0 (ix2 0 q)) (l1 (ix2 0 q)) (l2 (ix2 0 q)) (l6 (ix2 0 q)) (l5 (ix2 0 q)) 2 := rfl
theorem momRow2_3 (l0 l1 l2 l3 l4 l5 l6 : Vec F S1x32768 .f32) (q : Fin 32768) :
    (k0_pay68 l5 l6 (k0_pay60 (fun j => Spec.rel (l2 j)) fun j => FloatOps.floor (Spec.rel (l2 j))) (k0_pay61 (fun j => FloatOps.floor (Spec.rel (l0 j))) (fun j => FloatOps.floor (Spec.rel (l1 j))) fun j => FloatOps.floor (Spec.rel (l2 j))) (k0_pay62 (fun j => Spec.rel (l0 j)) fun j => FloatOps.floor (Spec.rel (l0 j))) (k0_pay63 (fun j => Spec.rel (l1 j)) fun j => FloatOps.floor (Spec.rel (l1 j)))) (ix2 0 q)
      = Cert.Spec.mom (l0 (ix2 0 q)) (l1 (ix2 0 q)) (l2 (ix2 0 q)) (l6 (ix2 0 q)) (l5 (ix2 0 q)) 3 := rfl
theorem momRow2_4 (l0 l1 l2 l3 l4 l5 l6 : Vec F S1x32768 .f32) (q : Fin 32768) :
    (k0_pay80 l5 l6 (k0_pay72 (fun j => Spec.rel (l2 j)) fun j => FloatOps.floor (Spec.rel (l2 j))) (k0_pay73 (fun j => FloatOps.floor (Spec.rel (l0 j))) (fun j => FloatOps.floor (Spec.rel (l1 j))) fun j => FloatOps.floor (Spec.rel (l2 j))) (k0_pay74 (fun j => Spec.rel (l0 j)) fun j => FloatOps.floor (Spec.rel (l0 j))) (k0_pay75 (fun j => Spec.rel (l1 j)) fun j => FloatOps.floor (Spec.rel (l1 j)))) (ix2 0 q)
      = Cert.Spec.mom (l0 (ix2 0 q)) (l1 (ix2 0 q)) (l2 (ix2 0 q)) (l6 (ix2 0 q)) (l5 (ix2 0 q)) 4 := rfl
theorem momRow2_5 (l0 l1 l2 l3 l4 l5 l6 : Vec F S1x32768 .f32) (q : Fin 32768) :
    (k0_pay93 l5 l6 (k0_pay84 (fun j => FloatOps.floor (Spec.rel (l0 j))) (fun j => FloatOps.floor (Spec.rel (l1 j))) fun j => FloatOps.floor (Spec.rel (l2 j))) (k0_pay85 (fun j => Spec.rel (l0 j)) fun j => FloatOps.floor (Spec.rel (l0 j))) (k0_pay86 (fun j => Spec.rel (l1 j)) fun j => FloatOps.floor (Spec.rel (l1 j))) (k0_pay87 (fun j => Spec.rel (l2 j)) fun j => FloatOps.floor (Spec.rel (l2 j))) k0_pay88) (ix2 0 q)
      = Cert.Spec.mom (l0 (ix2 0 q)) (l1 (ix2 0 q)) (l2 (ix2 0 q)) (l6 (ix2 0 q)) (l5 (ix2 0 q)) 5 := rfl
theorem momRow2_6 (l0 l1 l2 l3 l4 l5 l6 : Vec F S1x32768 .f32) (q : Fin 32768) :
    (k0_pay103 l5 l6 (k0_pay97 (fun j => FloatOps.floor (Spec.rel (l0 j))) (fun j => FloatOps.floor (Spec.rel (l1 j))) fun j => FloatOps.floor (Spec.rel (l2 j))) (k0_pay98 (fun j => Spec.rel (l0 j)) (fun j => Spec.rel (l1 j)) (fun j => Spec.rel (l2 j)) (fun j => FloatOps.floor (Spec.rel (l0 j))) (fun j => FloatOps.floor (Spec.rel (l1 j))) fun j => FloatOps.floor (Spec.rel (l2 j)))) (ix2 0 q)
      = Cert.Spec.mom (l0 (ix2 0 q)) (l1 (ix2 0 q)) (l2 (ix2 0 q)) (l6 (ix2 0 q)) (l5 (ix2 0 q)) 6 := rfl
theorem momRow2_7 (l0 l1 l2 l3 l4 l5 l6 : Vec F S1x32768 .f32) (q : Fin 32768) :
    (mulf (k0_pay1 l6 (k0_pay107 (fun j => FloatOps.floor (Spec.rel (l0 j))) (fun j => FloatOps.floor (Spec.rel (l1 j))) fun j => FloatOps.floor (Spec.rel (l2 j))) (k0_pay108 (fun j => Spec.rel (l0 j)) (fun j => Spec.rel (l1 j)) (fun j => Spec.rel (l2 j)) (fun j => FloatOps.floor (Spec.rel (l0 j))) (fun j => FloatOps.floor (Spec.rel (l1 j))) fun j => FloatOps.floor (Spec.rel (l2 j))) (k0_pay109 (fun j => FloatOps.floor (Spec.rel (l0 j))) (fun j => FloatOps.floor (Spec.rel (l1 j))) fun j => FloatOps.floor (Spec.rel (l2 j)))) l5) (ix2 0 q)
      = Cert.Spec.mom (l0 (ix2 0 q)) (l1 (ix2 0 q)) (l2 (ix2 0 q)) (l6 (ix2 0 q)) (l5 (ix2 0 q)) 7 := rfl

end Blocks

open Blocks

/-- The stored piece of each output tiles its block, so it covers it. -/
theorem cover_p1 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) (y : S8x32768.Idx) : ∃ pc ∈ (kernelRun c i arg1 harg1 arg2 harg2 arg3 harg3 arg4 harg4 arg5 harg5 arg6 harg6 x0).1.p1, y ∈ pc.1.set := by
  unfold kernelRun
  dsimp only
  refine ⟨_, List.mem_singleton_self _, ?_⟩
  exact View.mem_set_unit_zero (S := S8x32768) hz (fun a => by rw [hz]; exact Nat.le_of_eq (Nat.zero_add _)) y
theorem cover_p2 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) (y : S8x32768.Idx) : ∃ pc ∈ (kernelRun c i arg1 harg1 arg2 harg2 arg3 harg3 arg4 harg4 arg5 harg5 arg6 harg6 x0).1.p2, y ∈ pc.1.set := by
  unfold kernelRun
  dsimp only
  refine ⟨_, List.mem_singleton_self _, ?_⟩
  exact View.mem_set_unit_zero (S := S8x32768) hz (fun a => by rw [hz]; exact Nat.le_of_eq (Nat.zero_add _)) y
theorem cover_p3 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) (y : S8x32768.Idx) : ∃ pc ∈ (kernelRun c i arg1 harg1 arg2 harg2 arg3 harg3 arg4 harg4 arg5 harg5 arg6 harg6 x0).1.p3, y ∈ pc.1.set := by
  unfold kernelRun
  dsimp only
  refine ⟨_, List.mem_singleton_self _, ?_⟩
  exact View.mem_set_unit_zero (S := S8x32768) hz (fun a => by rw [hz]; exact Nat.le_of_eq (Nat.zero_add _)) y
theorem cover_p4 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) (y : S8x32768.Idx) : ∃ pc ∈ (kernelRun c i arg1 harg1 arg2 harg2 arg3 harg3 arg4 harg4 arg5 harg5 arg6 harg6 x0).1.p4, y ∈ pc.1.set := by
  unfold kernelRun
  dsimp only
  refine ⟨_, List.mem_singleton_self _, ?_⟩
  exact View.mem_set_unit_zero (S := S8x32768) hz (fun a => by rw [hz]; exact Nat.le_of_eq (Nat.zero_add _)) y
theorem cover_p5 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) (y : S8x32768.Idx) : ∃ pc ∈ (kernelRun c i arg1 harg1 arg2 harg2 arg3 harg3 arg4 harg4 arg5 harg5 arg6 harg6 x0).1.p5, y ∈ pc.1.set := by
  unfold kernelRun
  dsimp only
  refine ⟨_, List.mem_singleton_self _, ?_⟩
  exact View.mem_set_unit_zero (S := S8x32768) hz (fun a => by rw [hz]; exact Nat.le_of_eq (Nat.zero_add _)) y

/-- The cell-number block: entry (k, q) is the clipped cell number of corner k for the particle at lane q. -/
theorem canon_p1 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) : View.canon (kernelRun c i arg1 harg1 arg2 harg2 arg3 harg3 arg4 harg4 arg5 harg5 arg6 harg6 x0).1.p1 = Cert.Spec.hashBlk x0 := by
  unfold kernelRun
  dsimp only
  rw [View.canon_unit_zero hz]
  funext y
  obtain ⟨k, q, rfl⟩ : ∃ (k : Fin 8) (q : Fin 32768), y = ix2 k q := ⟨y 0, y 1, eq_ix2 y⟩
  sl_unfold_run_names
  simp only [load_row arg1 harg1 x0 0 (by omega) _, load_row arg1 harg1 x0 1 (by omega) _, load_row arg1 harg1 x0 2 (by omega) _,
    load_row arg1 harg1 x0 3 (by omega) _, load_row arg1 harg1 x0 4 (by omega) _, load_row arg1 harg1 x0 5 (by omega) _,
    load_row arg1 harg1 x0 6 (by omega) _,
    pay7_eq, pay8_eq, pay9_eq, pay10_eq, pay11_eq, pay12_eq, pay13_eq, pay14_eq, pay15_eq, pay16_eq, pay17_eq, pay18_eq,
    pay19_eq, pay20_eq, pay21_eq, pay22_eq, pay23_eq, pay24_eq]
  unfold k0_pay2
  refine (concat8_apply _ _ _ _ _ _ _ _ _ k q).trans ?_
  fin_cases k
  · exact cellRow_0 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact cellRow_1 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact cellRow_2 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact cellRow_3 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact cellRow_4 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact cellRow_5 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact cellRow_6 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact cellRow_7 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
/-- The mass-share block. -/
theorem canon_p2 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) : View.canon (kernelRun c i arg1 harg1 arg2 harg2 arg3 harg3 arg4 harg4 arg5 harg5 arg6 harg6 x0).1.p2 = Cert.Spec.smBlk x0 := by
  unfold kernelRun
  dsimp only
  rw [View.canon_unit_zero hz]
  funext y
  obtain ⟨k, q, rfl⟩ : ∃ (k : Fin 8) (q : Fin 32768), y = ix2 k q := ⟨y 0, y 1, eq_ix2 y⟩
  sl_unfold_run_names
  simp only [load_row arg1 harg1 x0 0 (by omega) _, load_row arg1 harg1 x0 1 (by omega) _, load_row arg1 harg1 x0 2 (by omega) _,
    load_row arg1 harg1 x0 3 (by omega) _, load_row arg1 harg1 x0 4 (by omega) _, load_row arg1 harg1 x0 5 (by omega) _,
    load_row arg1 harg1 x0 6 (by omega) _,
    pay7_eq, pay8_eq, pay9_eq, pay10_eq, pay11_eq, pay12_eq, pay13_eq, pay14_eq, pay15_eq, pay16_eq, pay17_eq, pay18_eq,
    pay19_eq, pay20_eq, pay21_eq, pay22_eq, pay23_eq, pay24_eq]
  unfold k0_pay3
  refine (concat8_apply _ _ _ _ _ _ _ _ _ k q).trans ?_
  fin_cases k
  · exact massRow_0 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact massRow_1 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact massRow_2 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact massRow_3 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact massRow_4 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact massRow_5 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact massRow_6 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact massRow_7 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
/-- The momentum-share blocks, one per velocity component. -/
theorem canon_p3 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) : View.canon (kernelRun c i arg1 harg1 arg2 harg2 arg3 harg3 arg4 harg4 arg5 harg5 arg6 harg6 x0).1.p3 = Cert.Spec.momBlk 0 x0 := by
  unfold kernelRun
  dsimp only
  rw [View.canon_unit_zero hz]
  funext y
  obtain ⟨k, q, rfl⟩ : ∃ (k : Fin 8) (q : Fin 32768), y = ix2 k q := ⟨y 0, y 1, eq_ix2 y⟩
  sl_unfold_run_names
  simp only [load_row arg1 harg1 x0 0 (by omega) _, load_row arg1 harg1 x0 1 (by omega) _, load_row arg1 harg1 x0 2 (by omega) _,
    load_row arg1 harg1 x0 3 (by omega) _, load_row arg1 harg1 x0 4 (by omega) _, load_row arg1 harg1 x0 5 (by omega) _,
    load_row arg1 harg1 x0 6 (by omega) _,
    pay7_eq, pay8_eq, pay9_eq, pay10_eq, pay11_eq, pay12_eq, pay13_eq, pay14_eq, pay15_eq, pay16_eq, pay17_eq, pay18_eq,
    pay19_eq, pay20_eq, pay21_eq, pay22_eq, pay23_eq, pay24_eq]
  unfold k0_pay4
  refine (concat8_apply _ _ _ _ _ _ _ _ _ k q).trans ?_
  fin_cases k
  · exact momRow0_0 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow0_1 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow0_2 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow0_3 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow0_4 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow0_5 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow0_6 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow0_7 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
theorem canon_p4 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) : View.canon (kernelRun c i arg1 harg1 arg2 harg2 arg3 harg3 arg4 harg4 arg5 harg5 arg6 harg6 x0).1.p4 = Cert.Spec.momBlk 1 x0 := by
  unfold kernelRun
  dsimp only
  rw [View.canon_unit_zero hz]
  funext y
  obtain ⟨k, q, rfl⟩ : ∃ (k : Fin 8) (q : Fin 32768), y = ix2 k q := ⟨y 0, y 1, eq_ix2 y⟩
  sl_unfold_run_names
  simp only [load_row arg1 harg1 x0 0 (by omega) _, load_row arg1 harg1 x0 1 (by omega) _, load_row arg1 harg1 x0 2 (by omega) _,
    load_row arg1 harg1 x0 3 (by omega) _, load_row arg1 harg1 x0 4 (by omega) _, load_row arg1 harg1 x0 5 (by omega) _,
    load_row arg1 harg1 x0 6 (by omega) _,
    pay7_eq, pay8_eq, pay9_eq, pay10_eq, pay11_eq, pay12_eq, pay13_eq, pay14_eq, pay15_eq, pay16_eq, pay17_eq, pay18_eq,
    pay19_eq, pay20_eq, pay21_eq, pay22_eq, pay23_eq, pay24_eq]
  unfold k0_pay5
  refine (concat8_apply _ _ _ _ _ _ _ _ _ k q).trans ?_
  fin_cases k
  · exact momRow1_0 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow1_1 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow1_2 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow1_3 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow1_4 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow1_5 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow1_6 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow1_7 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
theorem canon_p5 (c : Dev nD) (i : grid0.Coords)
    (arg1 : Memref sig .tc .vmem S7x32768 .f32) (harg1 : arg1.IsWhole)
    (arg2 : Memref sig .tc .vmem S8x32768 .i32) (harg2 : arg2.IsWhole)
    (arg3 : Memref sig .tc .vmem S8x32768 .f32) (harg3 : arg3.IsWhole)
    (arg4 : Memref sig .tc .vmem S8x32768 .f32) (harg4 : arg4.IsWhole)
    (arg5 : Memref sig .tc .vmem S8x32768 .f32) (harg5 : arg5.IsWhole)
    (arg6 : Memref sig .tc .vmem S8x32768 .f32) (harg6 : arg6.IsWhole)
    (x0 : Vec F S7x32768 .f32) : View.canon (kernelRun c i arg1 harg1 arg2 harg2 arg3 harg3 arg4 harg4 arg5 harg5 arg6 harg6 x0).1.p5 = Cert.Spec.momBlk 2 x0 := by
  unfold kernelRun
  dsimp only
  rw [View.canon_unit_zero hz]
  funext y
  obtain ⟨k, q, rfl⟩ : ∃ (k : Fin 8) (q : Fin 32768), y = ix2 k q := ⟨y 0, y 1, eq_ix2 y⟩
  sl_unfold_run_names
  simp only [load_row arg1 harg1 x0 0 (by omega) _, load_row arg1 harg1 x0 1 (by omega) _, load_row arg1 harg1 x0 2 (by omega) _,
    load_row arg1 harg1 x0 3 (by omega) _, load_row arg1 harg1 x0 4 (by omega) _, load_row arg1 harg1 x0 5 (by omega) _,
    load_row arg1 harg1 x0 6 (by omega) _,
    pay7_eq, pay8_eq, pay9_eq, pay10_eq, pay11_eq, pay12_eq, pay13_eq, pay14_eq, pay15_eq, pay16_eq, pay17_eq, pay18_eq,
    pay19_eq, pay20_eq, pay21_eq, pay22_eq, pay23_eq, pay24_eq]
  unfold k0_pay6
  refine (concat8_apply _ _ _ _ _ _ _ _ _ k q).trans ?_
  fin_cases k
  · exact momRow2_0 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow2_1 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow2_2 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow2_3 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow2_4 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow2_5 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow2_6 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q
  · exact momRow2_7 (row x0 ⟨0, by omega⟩) (row x0 ⟨1, by omega⟩) (row x0 ⟨2, by omega⟩) (row x0 ⟨3, by omega⟩) (row x0 ⟨4, by omega⟩) (row x0 ⟨5, by omega⟩) (row x0 ⟨6, by omega⟩) q

end Cert.KernelIdeal.Hand

end
-- ==== Proof.KI.Frame.lean ====
/-
  The kernel program's frame, at any instance.  The proof data of the one pipeline: the arrays as the region finds them;
  after the body at grid point t the input buffer holds the point's block of the channel array, and the five output buffers
  hold the specification's block functions of that block (cell numbers, mass shares, momentum shares).  The body obligation
  is the body's run at the point's buffers; the launch theorem for a region with host lines on both sides then gives the run
  of @main, with every result array named by the proof data, and the frame claim follows.
-/
import proofs.«111574_j40132174414020_1_alg».proof.Proof.KI.Main
import proofs.«111574_j40132174414020_1_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core `c`: arrays as the region finds them; after the body at point `t` the input's buffer at its
    block and each output's at its block function of the input block; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Cert.Spec.hashBlk (iblk m c 0 t)
    | ⟨2, _⟩ => Cert.Spec.smBlk (iblk m c 0 t)
    | ⟨3, _⟩ => Cert.Spec.momBlk 0 (iblk m c 0 t)
    | ⟨4, _⟩ => Cert.Spec.momBlk 1 (iblk m c 0 t)
    | ⟨5, _⟩ => Cert.Spec.momBlk 2 (iblk m c 0 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = Cert.Spec.hashBlk (iblk m c 0 t) := by dsimp only [dats]
theorem after0_2 (c : Dev nD) (t : Fin cfg0.N) : (dats m 0 c).after 2 t = Cert.Spec.smBlk (iblk m c 0 t) := by dsimp only [dats]
theorem after0_3 (c : Dev nD) (t : Fin cfg0.N) : (dats m 0 c).after 3 t = Cert.Spec.momBlk 0 (iblk m c 0 t) := by dsimp only [dats]
theorem after0_4 (c : Dev nD) (t : Fin cfg0.N) : (dats m 0 c).after 4 t = Cert.Spec.momBlk 1 (iblk m c 0 t) := by dsimp only [dats]
theorem after0_5 (c : Dev nD) (t : Fin cfg0.N) : (dats m 0 c).after 5 t = Cert.Spec.momBlk 2 (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at any point: the input's buffer holds its block, so the run applies; each output buffer, overwritten by its
    pieces, reads back as its block function; the invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ (iblk m c 0 t)).2 Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  iintro ⟨H0, ⟨%e1, H1⟩, ⟨%e2, H2⟩, ⟨%e3, H3⟩, ⟨%e4, H4⟩, ⟨%e5, H5⟩⟩
  isplitl [HΦ]; · iexact HΦ
  isplitl [Ho]; · iexact Ho
  isplitl [H0]; · iexact H0
  isplitl [H1]
  · unfold owns; iexists _; isplitr
    swap; · iexact H1
    ipureintro; exact (View.read_writes_eq_canon _ _ _ (cover_p1 _ _ _ _ _ _ _ _ _ _ _ _ _ _ _)).trans (canon_p1 _ _ _ _ _ _ _ _ _ _ _ _ _ _ _)
  isplitl [H2]
  · unfold owns; iexists _; isplitr
    swap; · iexact H2
    ipureintro; exact (View.read_writes_eq_canon _ _ _ (cover_p2 _ _ _ _ _ _ _ _ _ _ _ _ _ _ _)).trans (canon_p2 _ _ _ _ _ _ _ _ _ _ _ _ _ _ _)
  isplitl [H3]
  · unfold owns; iexists _; isplitr
    swap; · iexact H3
    ipureintro; exact (View.read_writes_eq_canon _ _ _ (cover_p3 _ _ _ _ _ _ _ _ _ _ _ _ _ _ _)).trans (canon_p3 _ _ _ _ _ _ _ _ _ _ _ _ _ _ _)
  isplitl [H4]
  · unfold owns; iexists _; isplitr
    swap; · iexact H4
    ipureintro; exact (View.read_writes_eq_canon _ _ _ (cover_p4 _ _ _ _ _ _ _ _ _ _ _ _ _ _ _)).trans (canon_p4 _ _ _ _ _ _ _ _ _ _ _ _ _ _ _)
  · unfold owns; iexists _; isplitr
    swap; · iexact H5
    ipureintro; exact (View.read_writes_eq_canon _ _ _ (cover_p5 _ _ _ _ _ _ _ _ _ _ _ _ _ _ _)).trans (canon_p5 _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what the proof data computes and every other unscoped buffer as the host tail leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KI.ValueDefs.lean ====
/-
  The kernel program's value, stage by stage, as pure functions.  `entry`: the channel array the region reads, [7, 1015808]:
  rows 0–2 the transposed positions, rows 3–5 the transposed velocities, row 6 the masses, every column from 1000000 on the
  pad value.  `hashArr`, `smArr`, `momArr`: the five arrays the region writes, entry (k, p) corner k's quantity for the
  particle in column p.  `tailTerm`: the host lines after the region — the five arrays flattened row-major, the mass shares
  and the stacked momentum shares added into zero-filled grids at the flattened cell numbers, the two grids joined.
-/
import proofs.«111574_j40132174414020_1_alg».proof.KernelIdeal
import proofs.«111574_j40132174414020_1_alg».proof.Proof.Spec
import Idealize.ShloMosaic.Lib.ValueIdx

noncomputable section

namespace Cert.KernelIdeal.KVal

open Cert.KernelIdeal Idealize.ShloMosaic Idealize.ShloMosaic.ValueIdx

variable {F : FTy → Type} [FloatOps F] [Cert.KernelIdeal.Facts]
open Facts₀ Facts

/-- The value the host pads with: the integer zero converted to a float. -/
def padv : F .f32 := FloatOps.sitofp .f32 (0#32 : BitVec 32)

/-- The channel array as the region finds it. -/
def entry (pos vel : FVec F S1000000x3 .f32) (mass : FVec F S1000000 .f32) : FVec F S7x1015808 .f32 := fun y =>
  if h : (y 1).val < 1000000 then
    (if h0 : (y 0).val < 3 then pos (ix2 ⟨(y 1).val, h⟩ ⟨(y 0).val, h0⟩)
     else if h1 : (y 0).val < 6 then vel (ix2 ⟨(y 1).val, h⟩ ⟨(y 0).val - 3, by omega⟩)
     else mass (ix1 ⟨(y 1).val, h⟩))
  else padv

/-- The cell-number array the region writes. -/
def hashArr (X : FVec F S7x1015808 .f32) : IVec S8x1015808 32 := fun y =>
  Cert.Spec.cell (X (ix2 0 (y 1))) (X (ix2 1 (y 1))) (X (ix2 2 (y 1))) (y 0)
/-- The mass-share array. -/
def smArr (X : FVec F S7x1015808 .f32) : FVec F S8x1015808 .f32 := fun y =>
  Cert.Spec.sm (X (ix2 0 (y 1))) (X (ix2 1 (y 1))) (X (ix2 2 (y 1))) (X (ix2 6 (y 1))) (y 0)
/-- The momentum-share array of velocity component `a`. -/
def momArr (a : Fin 3) (X : FVec F S7x1015808 .f32) : FVec F S8x1015808 .f32 := fun y =>
  Cert.Spec.mom (X (ix2 0 (y 1))) (X (ix2 1 (y 1))) (X (ix2 2 (y 1))) (X (ix2 6 (y 1))) (X (ix2 ⟨3 + a.val, by omega⟩ (y 1))) (y 0)

/-- The flattened cell numbers as a column of scatter indices. -/
def tIdx (h : IVec S8x1015808 32) : IVec S8126464x1 32 :=
  broadcastInDim S8126464x1 ![0] bcast_S8126464_S8126464x1_0 (shapeCast S8126464 h shapeCasts_S8x1015808_S8126464)

/-- The node masses: mass shares added into a zero grid at their cell numbers. -/
def tMass (h : IVec S8x1015808 32) (s : FVec F S8x1015808 .f32) : FVec F S2097152 .f32 :=
  Host.scatterAdd scatter_S2097152_S8126464x1_S8126464_n_0_0_1
    (broadcastInDim S2097152 ![] bcast_S_S2097152 (constant S_ .f32 0x00000000#32))
    (tIdx h)
    (shapeCast S8126464 s shapeCasts_S8x1015808_S8126464)

/-- The three flattened momentum-share arrays as the columns of one [8126464, 3] array. -/
def tMomU (mx my mz : FVec F S8x1015808 .f32) : FVec F S8126464x3 .f32 :=
  concatenate S8126464x3 1
    [⟨S8126464x1, broadcastInDim S8126464x1 ![0] bcast_S8126464_S8126464x1_0 (shapeCast S8126464 mx shapeCasts_S8x1015808_S8126464)⟩,
     ⟨S8126464x1, broadcastInDim S8126464x1 ![0] bcast_S8126464_S8126464x1_0 (shapeCast S8126464 my shapeCasts_S8x1015808_S8126464)⟩,
     ⟨S8126464x1, broadcastInDim S8126464x1 ![0] bcast_S8126464_S8126464x1_0 (shapeCast S8126464 mz shapeCasts_S8x1015808_S8126464)⟩]
    concatenates_S8126464x1_S8126464x1_S8126464x1_S8126464x3_d1

/-- The node momenta. -/
def tMom (h : IVec S8x1015808 32) (mx my mz : FVec F S8x1015808 .f32) : FVec F S2097152x3 .f32 :=
  Host.scatterAdd scatter_S2097152x3_S8126464x1_S8126464x3_1_0_0_1
    (broadcastInDim S2097152x3 ![] bcast_S_S2097152x3 (constant S_ .f32 0x00000000#32))
    (tIdx h)
    (tMomU mx my mz)

/-- The program's result from the five arrays the region wrote. -/
def tailTerm (h : IVec S8x1015808 32) (s mx my mz : FVec F S8x1015808 .f32) : FVec F S2097152x4 .f32 :=
  concatenate S2097152x4 1
    [⟨S2097152x1, broadcastInDim S2097152x1 ![0] bcast_S2097152_S2097152x1_0 (tMass h s)⟩,
     ⟨S2097152x3, tMom h mx my mz⟩]
    concatenates_S2097152x1_S2097152x3_S2097152x4_d1

end Cert.KernelIdeal.KVal

end
-- ==== Proof.KI.Entry.lean ====
/-
  The channel array as the region finds it.  The host pads the positions, velocities and masses with 15808 zero rows,
  transposes the two [1015808, 3] arrays to [3, 1015808], lays the masses out as one row, and stacks the seven rows.
  Read at (r, p): for p < 1000000 the position, velocity or mass of particle p by the row; for p ≥ 1000000 the pad value.
-/
import proofs.«111574_j40132174414020_1_alg».proof.Proof.KI.Main
import proofs.«111574_j40132174414020_1_alg».proof.Proof.KI.ValueDefs
import Idealize.ShloMosaic.Lib.ValueIdx
import Idealize.ShloMosaic.Lib.ValueLayout
import Idealize.ShloMosaic.Lib.KernelVsHost
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

section Three
open Idealize.ShloMosaic.StableHlo
variable {τ' : Topo} {sig' : RefSig} {Val : EltTy → Type} {x a b y : Ref sig' .tc}

/-- An operation of three literal operands writes its function's value of the three operands' contents, each read at
    its own reference. -/
theorem nary3_result
    (f : ((k : Fin 3) → ((![x, a, b] : Fin 3 → Ref sig' .tc) k).ty.Contents Val) → y.ty.Contents Val) (hxs hy)
    (G : Valuation τ' sig' Val) :
    (StableHlo.nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

end Three

/-! ## The host's layout operations read at explicit coordinates -/

section Read
variable {α : Type}

/-- The [1000000, 3] array padded with 15808 rows, at (p, q): the operand's row p when p is below 1000000, the pad value after. -/
theorem pad2_apply (x : S1000000x3.Idx → α) (v : S_.Idx → α)
    (h : S1000000x3.Pads (![0, 0] : Fin 2 → Nat) ![15808, 0] ![0, 0] S1015808x3) (hu : 0 < S_.numel)
    (p : Fin 1015808) (q : Fin 3) :
    pad S1015808x3 ![0, 0] ![15808, 0] ![0, 0] x v h hu (ix2 p q)
      = if hp : p.val < 1000000 then x (ix2 ⟨p.val, hp⟩ q) else v ix0 := by
  by_cases hp : p.val < 1000000
  · rw [dif_pos hp]
    exact pad_apply_of_inside _ _ _ x v h hu _ (ix2 ⟨p.val, hp⟩ q) (fun a => match a with
      | ⟨0, _⟩ => by show p.val = 0 + p.val * (0 + 1); omega
      | ⟨1, _⟩ => by show q.val = 0 + q.val * (0 + 1); omega)
  · rw [dif_neg hp, eq_ix0 ix0]
    refine (pad_apply_of_not_inside _ _ _ x v h hu _ (0 : Fin 2) ?_).trans (congrArg v (eq_ix0 _))
    intro hin
    have h2 : (p.val - 0) / (0 + 1) < 1000000 := hin.2.2
    omega

/-- The [1000000] array padded with 15808 entries, at p. -/
theorem pad1_apply (x : S1000000.Idx → α) (v : S_.Idx → α)
    (h : S1000000.Pads (![0] : Fin 1 → Nat) ![15808] ![0] S1015808) (hu : 0 < S_.numel)
    (p : Fin 1015808) :
    pad S1015808 ![0] ![15808] ![0] x v h hu (ix1 p)
      = if hp : p.val < 1000000 then x (ix1 ⟨p.val, hp⟩) else v ix0 := by
  by_cases hp : p.val < 1000000
  · rw [dif_pos hp]
    exact pad_apply_of_inside _ _ _ x v h hu _ (ix1 ⟨p.val, hp⟩) (fun a => match a with
      | ⟨0, _⟩ => by show p.val = 0 + p.val * (0 + 1); omega)
  · rw [dif_neg hp]
    refine (pad_apply_of_not_inside _ _ _ x v h hu _ (0 : Fin 1) ?_).trans (congrArg v (eq_ix0 _))
    intro hin
    have h2 : (p.val - 0) / (0 + 1) < 1000000 := hin.2.2
    omega

/-- The [1015808] array laid out as one row, at (0, p). -/
theorem row_apply (x : S1015808.Idx → α)
    (h : S1015808.BroadcastsInDim S1x1015808 (![1] : Fin 1 → Fin S1x1015808.rank)) (u : Fin 1) (p : Fin 1015808) :
    broadcastInDim S1x1015808 ![1] h x (ix2 u p) = x (ix1 p) :=
  broadcastInDim_apply _ h x _ (ix1 p) (fun a => match a with | ⟨0, _⟩ => rfl)

/-- Three row blocks of 3, 3 and 1 rows stacked, read at (r, p). -/
theorem stack_apply (A B : S3x1015808.Idx → α) (C : S1x1015808.Idx → α)
    (h : Shape.Concatenates [S3x1015808, S3x1015808, S1x1015808] S7x1015808 0) (r : Fin 7) (p : Fin 1015808) :
    concatenate S7x1015808 0 [⟨S3x1015808, A⟩, ⟨S3x1015808, B⟩, ⟨S1x1015808, C⟩] h (ix2 r p)
      = if h0 : r.val < 3 then A (ix2 ⟨r.val, h0⟩ p)
        else if h1 : r.val < 6 then B (ix2 ⟨r.val - 3, by omega⟩ p)
        else C (ix2 0 p) := by
  by_cases h0 : r.val < 3
  · rw [dif_pos h0]
    exact concatenate_apply_piece (t := S7x1015808) 0 [⟨S3x1015808, A⟩, ⟨S3x1015808, B⟩, ⟨S1x1015808, C⟩] h (ix2 r p) 0 (by show _ < 3; omega) S3x1015808 A rfl rfl 0 rfl (ix2 ⟨r.val, h0⟩ p)
      (fun b hb => match b, hb with | ⟨0, _⟩, hb => absurd rfl hb | ⟨1, _⟩, _ => rfl)
      (by show 0 + r.val = r.val; omega)
  · rw [dif_neg h0]
    by_cases h1 : r.val < 6
    · rw [dif_pos h1]
      exact concatenate_apply_piece (t := S7x1015808) 0 [⟨S3x1015808, A⟩, ⟨S3x1015808, B⟩, ⟨S1x1015808, C⟩] h (ix2 r p) 1 (by show _ < 3; omega) S3x1015808 B rfl rfl 3 rfl (ix2 ⟨r.val - 3, by omega⟩ p)
        (fun b hb => match b, hb with | ⟨0, _⟩, hb => absurd rfl hb | ⟨1, _⟩, _ => rfl)
        (by show 3 + (r.val - 3) = r.val; omega)
    · rw [dif_neg h1]
      exact concatenate_apply_piece (t := S7x1015808) 0 [⟨S3x1015808, A⟩, ⟨S3x1015808, B⟩, ⟨S1x1015808, C⟩] h (ix2 r p) 2 (by show _ < 3; omega) S1x1015808 C rfl rfl 6 rfl (ix2 0 p)
        (fun b hb => match b, hb with | ⟨0, _⟩, hb => absurd rfl hb | ⟨1, _⟩, _ => rfl)
        (by show 6 + 0 = r.val; have := r.isLt; omega)

end Read

/-! ## The array the host lines write, and its entries -/

/-- The region's input array as the host lines compose it: the three padded arguments, the two matrices transposed, the
    masses as one row, stacked along the rows. -/
theorem V_main_v6_term (m : (ℓ : Loc nD τ sig) → Buf (Elt F) ℓ) (c : Dev nD) :
    (V m c main_v6 : FVec F S7x1015808 .f32)
      = concatenate S7x1015808 0
          [⟨S3x1015808, transpose S3x1015808 [1, 0]
              (pad S1015808x3 ![0, 0] ![15808, 0] ![0, 0] (m ((c : Thread nD τ).loc main_arg0) : FVec F S1000000x3 .f32)
                (sitofp (F := F) .f32 (constantI S_ 32 0#32)) pads_S1000000x3_S1015808x3_0158080_000 h_S_)
              transposes_S1015808x3_S3x1015808_1_0⟩,
           ⟨S3x1015808, transpose S3x1015808 [1, 0]
              (pad S1015808x3 ![0, 0] ![15808, 0] ![0, 0] (m ((c : Thread nD τ).loc main_arg1) : FVec F S1000000x3 .f32)
                (sitofp (F := F) .f32 (constantI S_ 32 0#32)) pads_S1000000x3_S1015808x3_0158080_000 h_S_)
              transposes_S1015808x3_S3x1015808_1_0⟩,
           ⟨S1x1015808, broadcastInDim S1x1015808 ![1] bcast_S1015808_S1x1015808_1
              (pad S1015808 ![0] ![15808] ![0] (m ((c : Thread nD τ).loc main_arg2) : FVec F S1000000 .f32)
                (sitofp (F := F) .f32 (constantI S_ 32 0#32)) pads_S1000000_S1015808_0158080 h_S_)⟩]
          concatenates_S3x1015808_S3x1015808_S1x1015808_S7x1015808_d0 := by
  dsimp only [V, V0, prefixOps]
  simp only [hostOps0, hostOps0_1, hostOps0_2, hostOps0_3, hostOps0_4, hostOps0_5, hostOps0_6, List.flatten_cons,
    List.flatten_nil, List.append_nil, List.cons_append, List.nil_append]
  simp only [StableHlo.after_cons, StableHlo.after_nil]
  rw [nary3_result]
  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide)
    | (rw [StableHlo.nary_result_ne]; rotate_left; decide))
  rfl

/-- The channel array read at row r, column p. -/
theorem entry_apply (pos vel : FVec F S1000000x3 .f32) (mass : FVec F S1000000 .f32) (r : Fin 7) (p : Fin 1015808) :
    KVal.entry pos vel mass (ix2 r p)
      = if h : p.val < 1000000 then
          (if h0 : r.val < 3 then pos (ix2 ⟨p.val, h⟩ ⟨r.val, h0⟩)
           else if h1 : r.val < 6 then vel (ix2 ⟨p.val, h⟩ ⟨r.val - 3, by omega⟩)
           else mass (ix1 ⟨p.val, h⟩))
        else KVal.padv := rfl

/-- The region's input array is the stacked, padded, transposed arguments. -/
theorem V_main_v6 (m : (ℓ : Loc nD τ sig) → Buf (Elt F) ℓ) (c : Dev nD) :
    (V m c main_v6 : FVec F S7x1015808 .f32)
      = KVal.entry (m ((c : Thread nD τ).loc main_arg0)) (m ((c : Thread nD τ).loc main_arg1)) (m ((c : Thread nD τ).loc main_arg2)) := by
  rw [V_main_v6_term]
  funext y
  obtain ⟨r, p, rfl⟩ : ∃ (r : Fin 7) (p : Fin 1015808), y = ix2 r p := ⟨y 0, y 1, eq_ix2 y⟩
  rw [stack_apply, entry_apply]
  by_cases hp : p.val < 1000000
  · rw [dif_pos hp]
    by_cases h0 : r.val < 3
    · rw [dif_pos h0, dif_pos h0, transpose_ix2_apply, pad2_apply, dif_pos hp]
    · rw [dif_neg h0, dif_neg h0]
      by_cases h1 : r.val < 6
      · rw [dif_pos h1, dif_pos h1, transpose_ix2_apply, pad2_apply, dif_pos hp]
      · rw [dif_neg h1, dif_neg h1, row_apply, pad1_apply, dif_pos hp]
  · rw [dif_neg hp]
    by_cases h0 : r.val < 3
    · rw [dif_pos h0, transpose_ix2_apply, pad2_apply, dif_neg hp]; rfl
    · rw [dif_neg h0]
      by_cases h1 : r.val < 6
      · rw [dif_pos h1, transpose_ix2_apply, pad2_apply, dif_neg hp]; rfl
      · rw [dif_neg h1, row_apply, pad1_apply, dif_neg hp]; rfl

end Cert.KernelIdeal.Hand

end
-- ==== Proof.KI.Final.lean ====
/-
  The five arrays the region leaves.  Grid point t writes back block t of each output: columns 32768·t to 32768·(t+1) − 1,
  all eight rows; the 31 blocks tile the 1015808 columns.  Each block is the block function of the input block at the same
  columns, so each array is one whole-array function of the channel array: entry (k, p) is corner k's quantity for column p.
-/
import proofs.«111574_j40132174414020_1_alg».proof.Proof.KI.Frame
import proofs.«111574_j40132174414020_1_alg».proof.Proof.KI.ValueDefs
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-! ## The blocks' places -/

/-- Every window's block at grid point t is block (0, t) of its array: all rows, column block t. -/
theorem blk_index : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-- Column q of the input block at point t is column 32768·t + q of the channel array, row by row. -/
theorem col_eq (c : Dev nD) (t : Fin cfg0.N) (q : Fin 32768) (p : Fin 1015808) (hp : p.val = t.val * 32768 + q.val) (r : Fin 7) :
    (iblk m c 0 t : Vec F S7x32768 .f32) (ix2 r q) = (V m c main_v6 : Vec F S7x1015808 .f32) (ix2 r p) := by
  obtain ⟨e0, e1, -⟩ := blk_index t
  unfold iblk
  rw [View.read_apply]
  show V m c main_v6 _ = V m c main_v6 _
  congr 1
  funext a
  apply Fin.ext
  match a with
  | ⟨0, _⟩ => show win0_0.index t (0 : Fin 2) * 7 + 1 * r.val = r.val; rw [e0]; omega
  | ⟨1, _⟩ => show win0_0.index t (1 : Fin 2) * 32768 + 1 * q.val = p.val; rw [e1, hp]; omega

/-! ## One entry of a block against one entry of the array

An entry of a block function reads the input block's column at the entry's column, and the array function reads the
channel array's column at the entry's column; where the two columns agree row by row and the corner is the same, the
entries agree. -/

theorem hash_pt (X : FVec F S7x1015808 .f32) (x0 : FVec F S7x32768 .f32) (y : S8x32768.Idx) (i : S8x1015808.Idx)
    (h0 : (i 0).val = (y 0).val) (hx : ∀ r : Fin 7, x0 (ix2 r (y 1)) = X (ix2 r (i 1))) :
    Cert.Spec.hashBlk x0 y = KVal.hashArr X i := by
  have e0 : (i 0 : Fin 8) = y 0 := Fin.ext h0
  show Cert.Spec.cell (x0 (ix2 0 (y 1))) (x0 (ix2 1 (y 1))) (x0 (ix2 2 (y 1))) (y 0)
    = Cert.Spec.cell (X (ix2 0 (i 1))) (X (ix2 1 (i 1))) (X (ix2 2 (i 1))) (i 0)
  rw [hx 0, hx 1, hx 2, e0]

theorem sm_pt (X : FVec F S7x1015808 .f32) (x0 : FVec F S7x32768 .f32) (y : S8x32768.Idx) (i : S8x1015808.Idx)
    (h0 : (i 0).val = (y 0).val) (hx : ∀ r : Fin 7, x0 (ix2 r (y 1)) = X (ix2 r (i 1))) :
    Cert.Spec.smBlk x0 y = KVal.smArr X i := by
  have e0 : (i 0 : Fin 8) = y 0 := Fin.ext h0
  show Cert.Spec.sm (x0 (ix2 0 (y 1))) (x0 (ix2 1 (y 1))) (x0 (ix2 2 (y 1))) (x0 (ix2 6 (y 1))) (y 0)
    = Cert.Spec.sm (X (ix2 0 (i 1))) (X (ix2 1 (i 1))) (X (ix2 2 (i 1))) (X (ix2 6 (i 1))) (i 0)
  rw [hx 0, hx 1, hx 2, hx 6, e0]

theorem mom_pt (a : Fin 3) (X : FVec F S7x1015808 .f32) (x0 : FVec F S7x32768 .f32) (y : S8x32768.Idx) (i : S8x1015808.Idx)
    (h0 : (i 0).val = (y 0).val) (hx : ∀ r : Fin 7, x0 (ix2 r (y 1)) = X (ix2 r (i 1))) :
    Cert.Spec.momBlk a x0 y = KVal.momArr a X i := by
  have e0 : (i 0 : Fin 8) = y 0 := Fin.ext h0
  show Cert.Spec.mom (x0 (ix2 0 (y 1))) (x0 (ix2 1 (y 1))) (x0 (ix2 2 (y 1))) (x0 (ix2 6 (y 1)))
      (x0 (ix2 ⟨3 + a.val, by omega⟩ (y 1))) (y 0)
    = Cert.Spec.mom (X (ix2 0 (i 1))) (X (ix2 1 (i 1))) (X (ix2 2 (i 1))) (X (ix2 6 (i 1)))
      (X (ix2 ⟨3 + a.val, by omega⟩ (i 1))) (i 0)
  rw [hx 0, hx 1, hx 2, hx 6, hx ⟨3 + a.val, by omega⟩, e0]

/-! ## Output 1: the cell numbers -/

/-- What point t writes back is block t of the array function of the channel array. -/
theorem flushed1_eq (c : Dev nD) (t : Fin cfg0.N) :
    (dats m 0 c).flushed 1 t = ((cfg0.win 1).blk t).view.read (Elt F) (KVal.hashArr (V m c main_v6)) := by
  show (cfg0.win 1).cut (grid0.coords t) ((dats m 0 c).after 1 t) = _
  rw [after0_1]
  obtain ⟨-, -, e0, e1, -⟩ := blk_index t
  funext j
  rw [View.read_apply]
  refine hash_pt (V m c main_v6) (iblk m c 0 t) j (((cfg0.win 1).blk t).view.emb j) ?_ ?_
  · show win0_1.index t (0 : Fin 2) * 8 + 1 * (j 0).val = (j 0).val
    rw [e0]; omega
  · intro r
    refine col_eq m c t (j 1) _ ?_ r
    show win0_1.index t (1 : Fin 2) * 32768 + 1 * (j 1).val = t.val * 32768 + (j 1).val
    rw [e1]; omega

/-- An entry is in point t's block iff each coordinate is in the block's range on its axis. -/
theorem mem_blk1 (t : Fin cfg0.N) (i : S8x1015808.Idx) :
    i ∈ ((cfg0.win 1).blk t).view.set ↔ ∀ a : Fin 2, win0_1.index t a * S8x32768.size a ≤ (i a).val ∧ (i a).val < win0_1.index t a * S8x32768.size a + S8x32768.size a := by
  show i ∈ ((View.whole main_v7_0).slice (win0_1.rect t)).set ↔ _
  rw [View.set_slice_whole, Rect.mem_set_unit]
  exact Iff.rfl

/-- Column p lies in the block of point p / 32768, and 31 · 32768 = 1015808: every entry is written back. -/
theorem cover1 (i : S8x1015808.Idx) : ∃ t : Fin cfg0.N, (cfg0.win 1).flush t = true ∧ i ∈ ((cfg0.win 1).blk t).view.set := by
  have hi0 : (i 0).val < 8 := (i 0).isLt
  have hi1 : (i 1).val < 1015808 := (i 1).isLt
  have hN : cfg0.N = 31 := N_0
  have hlt : (i 1).val / 32768 < cfg0.N := by rw [hN]; omega
  obtain ⟨-, -, e0, e1, -⟩ := blk_index ⟨(i 1).val / 32768, hlt⟩
  refine ⟨⟨(i 1).val / 32768, hlt⟩, flush0_1 _, ?_⟩
  rw [mem_blk1]
  intro a
  match a with
  | ⟨0, _⟩ =>
    show win0_1.index ⟨(i 1).val / 32768, hlt⟩ (0 : Fin 2) * 8 ≤ (i 0).val
      ∧ (i 0).val < win0_1.index ⟨(i 1).val / 32768, hlt⟩ (0 : Fin 2) * 8 + 8
    rw [e0]; omega
  | ⟨1, _⟩ =>
    show win0_1.index ⟨(i 1).val / 32768, hlt⟩ (1 : Fin 2) * 32768 ≤ (i 1).val
      ∧ (i 1).val < win0_1.index ⟨(i 1).val / 32768, hlt⟩ (1 : Fin 2) * 32768 + 32768
    rw [e1]
    show (i 1).val / 32768 * 32768 ≤ (i 1).val ∧ (i 1).val < (i 1).val / 32768 * 32768 + 32768
    omega

/-- So the array ends holding the array function of the channel array. -/
theorem final_1 (c : Dev nD) : (dats m 0 c).arrAt 1 cfg0.N = KVal.hashArr (V m c main_v6) :=
  (dats m 0 c).arrAt_eq_of_cover 1 (KVal.hashArr (V m c main_v6)) (fun t _ => flushed1_eq m c t) cover1

/-! ## Output 2: the mass shares -/

/-- What point t writes back is block t of the array function of the channel array. -/
theorem flushed2_eq (c : Dev nD) (t : Fin cfg0.N) :
    (dats m 0 c).flushed 2 t = ((cfg0.win 2).blk t).view.read (Elt F) (KVal.smArr (V m c main_v6)) := by
  show (cfg0.win 2).cut (grid0.coords t) ((dats m 0 c).after 2 t) = _
  rw [after0_2]
  obtain ⟨-, -, -, -, e0, e1, -⟩ := blk_index t
  funext j
  rw [View.read_apply]
  refine sm_pt (V m c main_v6) (iblk m c 0 t) j (((cfg0.win 2).blk t).view.emb j) ?_ ?_
  · show win0_2.index t (0 : Fin 2) * 8 + 1 * (j 0).val = (j 0).val
    rw [e0]; omega
  · intro r
    refine col_eq m c t (j 1) _ ?_ r
    show win0_2.index t (1 : Fin 2) * 32768 + 1 * (j 1).val = t.val * 32768 + (j 1).val
    rw [e1]; omega

/-- An entry is in point t's block iff each coordinate is in the block's range on its axis. -/
theorem mem_blk2 (t : Fin cfg0.N) (i : S8x1015808.Idx) :
    i ∈ ((cfg0.win 2).blk t).view.set ↔ ∀ a : Fin 2, win0_2.index t a * S8x32768.size a ≤ (i a).val ∧ (i a).val < win0_2.index t a * S8x32768.size a + S8x32768.size a := by
  show i ∈ ((View.whole main_v7_1).slice (win0_2.rect t)).set ↔ _
  rw [View.set_slice_whole, Rect.mem_set_unit]
  exact Iff.rfl

/-- Column p lies in the block of point p / 32768, and 31 · 32768 = 1015808: every entry is written back. -/
theorem cover2 (i : S8x1015808.Idx) : ∃ t : Fin cfg0.N, (cfg0.win 2).flush t = true ∧ i ∈ ((cfg0.win 2).blk t).view.set := by
  have hi0 : (i 0).val < 8 := (i 0).isLt
  have hi1 : (i 1).val < 1015808 := (i 1).isLt
  have hN : cfg0.N = 31 := N_0
  have hlt : (i 1).val / 32768 < cfg0.N := by rw [hN]; omega
  obtain ⟨-, -, -, -, e0, e1, -⟩ := blk_index ⟨(i 1).val / 32768, hlt⟩
  refine ⟨⟨(i 1).val / 32768, hlt⟩, flush0_2 _, ?_⟩
  rw [mem_blk2]
  intro a
  match a with
  | ⟨0, _⟩ =>
    show win0_2.index ⟨(i 1).val / 32768, hlt⟩ (0 : Fin 2) * 8 ≤ (i 0).val
      ∧ (i 0).val < win0_2.index ⟨(i 1).val / 32768, hlt⟩ (0 : Fin 2) * 8 + 8
    rw [e0]; omega
  | ⟨1, _⟩ =>
    show win0_2.index ⟨(i 1).val / 32768, hlt⟩ (1 : Fin 2) * 32768 ≤ (i 1).val
      ∧ (i 1).val < win0_2.index ⟨(i 1).val / 32768, hlt⟩ (1 : Fin 2) * 32768 + 32768
    rw [e1]
    show (i 1).val / 32768 * 32768 ≤ (i 1).val ∧ (i 1).val < (i 1).val / 32768 * 32768 + 32768
    omega

/-- So the array ends holding the array function of the channel array. -/
theorem final_2 (c : Dev nD) : (dats m 0 c).arrAt 2 cfg0.N = KVal.smArr (V m c main_v6) :=
  (dats m 0 c).arrAt_eq_of_cover 2 (KVal.smArr (V m c main_v6)) (fun t _ => flushed2_eq m c t) cover2

/-! ## Output 3: the first momentum shares -/

/-- What point t writes back is block t of the array function of the channel array. -/
theorem flushed3_eq (c : Dev nD) (t : Fin cfg0.N) :
    (dats m 0 c).flushed 3 t = ((cfg0.win 3).blk t).view.read (Elt F) (KVal.momArr 0 (V m c main_v6)) := by
  show (cfg0.win 3).cut (grid0.coords t) ((dats m 0 c).after 3 t) = _
  rw [after0_3]
  obtain ⟨-, -, -, -, -, -, e0, e1, -⟩ := blk_index t
  funext j
  rw [View.read_apply]
  refine mom_pt 0 (V m c main_v6) (iblk m c 0 t) j (((cfg0.win 3).blk t).view.emb j) ?_ ?_
  · show win0_3.index t (0 : Fin 2) * 8 + 1 * (j 0).val = (j 0).val
    rw [e0]; omega
  · intro r
    refine col_eq m c t (j 1) _ ?_ r
    show win0_3.index t (1 : Fin 2) * 32768 + 1 * (j 1).val = t.val * 32768 + (j 1).val
    rw [e1]; omega

/-- An entry is in point t's block iff each coordinate is in the block's range on its axis. -/
theorem mem_blk3 (t : Fin cfg0.N) (i : S8x1015808.Idx) :
    i ∈ ((cfg0.win 3).blk t).view.set ↔ ∀ a : Fin 2, win0_3.index t a * S8x32768.size a ≤ (i a).val ∧ (i a).val < win0_3.index t a * S8x32768.size a + S8x32768.size a := by
  show i ∈ ((View.whole main_v7_2).slice (win0_3.rect t)).set ↔ _
  rw [View.set_slice_whole, Rect.mem_set_unit]
  exact Iff.rfl

/-- Column p lies in the block of point p / 32768, and 31 · 32768 = 1015808: every entry is written back. -/
theorem cover3 (i : S8x1015808.Idx) : ∃ t : Fin cfg0.N, (cfg0.win 3).flush t = true ∧ i ∈ ((cfg0.win 3).blk t).view.set := by
  have hi0 : (i 0).val < 8 := (i 0).isLt
  have hi1 : (i 1).val < 1015808 := (i 1).isLt
  have hN : cfg0.N = 31 := N_0
  have hlt : (i 1).val / 32768 < cfg0.N := by rw [hN]; omega
  obtain ⟨-, -, -, -, -, -, e0, e1, -⟩ := blk_index ⟨(i 1).val / 32768, hlt⟩
  refine ⟨⟨(i 1).val / 32768, hlt⟩, flush0_3 _, ?_⟩
  rw [mem_blk3]
  intro a
  match a with
  | ⟨0, _⟩ =>
    show win0_3.index ⟨(i 1).val / 32768, hlt⟩ (0 : Fin 2) * 8 ≤ (i 0).val
      ∧ (i 0).val < win0_3.index ⟨(i 1).val / 32768, hlt⟩ (0 : Fin 2) * 8 + 8
    rw [e0]; omega
  | ⟨1, _⟩ =>
    show win0_3.index ⟨(i 1).val / 32768, hlt⟩ (1 : Fin 2) * 32768 ≤ (i 1).val
      ∧ (i 1).val < win0_3.index ⟨(i 1).val / 32768, hlt⟩ (1 : Fin 2) * 32768 + 32768
    rw [e1]
    show (i 1).val / 32768 * 32768 ≤ (i 1).val ∧ (i 1).val < (i 1).val / 32768 * 32768 + 32768
    omega

/-- So the array ends holding the array function of the channel array. -/
theorem final_3 (c : Dev nD) : (dats m 0 c).arrAt 3 cfg0.N = KVal.momArr 0 (V m c main_v6) :=
  (dats m 0 c).arrAt_eq_of_cover 3 (KVal.momArr 0 (V m c main_v6)) (fun t _ => flushed3_eq m c t) cover3

/-! ## Output 4: the second momentum shares -/

/-- What point t writes back is block t of the array function of the channel array. -/
theorem flushed4_eq (c : Dev nD) (t : Fin cfg0.N) :
    (dats m 0 c).flushed 4 t = ((cfg0.win 4).blk t).view.read (Elt F) (KVal.momArr 1 (V m c main_v6)) := by
  show (cfg0.win 4).cut (grid0.coords t) ((dats m 0 c).after 4 t) = _
  rw [after0_4]
  obtain ⟨-, -, -, -, -, -, -, -, e0, e1, -⟩ := blk_index t
  funext j
  rw [View.read_apply]
  refine mom_pt 1 (V m c main_v6) (iblk m c 0 t) j (((cfg0.win 4).blk t).view.emb j) ?_ ?_
  · show win0_4.index t (0 : Fin 2) * 8 + 1 * (j 0).val = (j 0).val
    rw [e0]; omega
  · intro r
    refine col_eq m c t (j 1) _ ?_ r
    show win0_4.index t (1 : Fin 2) * 32768 + 1 * (j 1).val = t.val * 32768 + (j 1).val
    rw [e1]; omega

/-- An entry is in point t's block iff each coordinate is in the block's range on its axis. -/
theorem mem_blk4 (t : Fin cfg0.N) (i : S8x1015808.Idx) :
    i ∈ ((cfg0.win 4).blk t).view.set ↔ ∀ a : Fin 2, win0_4.index t a * S8x32768.size a ≤ (i a).val ∧ (i a).val < win0_4.index t a * S8x32768.size a + S8x32768.size a := by
  show i ∈ ((View.whole main_v7_3).slice (win0_4.rect t)).set ↔ _
  rw [View.set_slice_whole, Rect.mem_set_unit]
  exact Iff.rfl

/-- Column p lies in the block of point p / 32768, and 31 · 32768 = 1015808: every entry is written back. -/
theorem cover4 (i : S8x1015808.Idx) : ∃ t : Fin cfg0.N, (cfg0.win 4).flush t = true ∧ i ∈ ((cfg0.win 4).blk t).view.set := by
  have hi0 : (i 0).val < 8 := (i 0).isLt
  have hi1 : (i 1).val < 1015808 := (i 1).isLt
  have hN : cfg0.N = 31 := N_0
  have hlt : (i 1).val / 32768 < cfg0.N := by rw [hN]; omega
  obtain ⟨-, -, -, -, -, -, -, -, e0, e1, -⟩ := blk_index ⟨(i 1).val / 32768, hlt⟩
  refine ⟨⟨(i 1).val / 32768, hlt⟩, flush0_4 _, ?_⟩
  rw [mem_blk4]
  intro a
  match a with
  | ⟨0, _⟩ =>
    show win0_4.index ⟨(i 1).val / 32768, hlt⟩ (0 : Fin 2) * 8 ≤ (i 0).val
      ∧ (i 0).val < win0_4.index ⟨(i 1).val / 32768, hlt⟩ (0 : Fin 2) * 8 + 8
    rw [e0]; omega
  | ⟨1, _⟩ =>
    show win0_4.index ⟨(i 1).val / 32768, hlt⟩ (1 : Fin 2) * 32768 ≤ (i 1).val
      ∧ (i 1).val < win0_4.index ⟨(i 1).val / 32768, hlt⟩ (1 : Fin 2) * 32768 + 32768
    rw [e1]
    show (i 1).val / 32768 * 32768 ≤ (i 1).val ∧ (i 1).val < (i 1).val / 32768 * 32768 + 32768
    omega

/-- So the array ends holding the array function of the channel array. -/
theorem final_4 (c : Dev nD) : (dats m 0 c).arrAt 4 cfg0.N = KVal.momArr 1 (V m c main_v6) :=
  (dats m 0 c).arrAt_eq_of_cover 4 (KVal.momArr 1 (V m c main_v6)) (fun t _ => flushed4_eq m c t) cover4

/-! ## Output 5: the third momentum shares -/

/-- What point t writes back is block t of the array function of the channel array. -/
theorem flushed5_eq (c : Dev nD) (t : Fin cfg0.N) :
    (dats m 0 c).flushed 5 t = ((cfg0.win 5).blk t).view.read (Elt F) (KVal.momArr 2 (V m c main_v6)) := by
  show (cfg0.win 5).cut (grid0.coords t) ((dats m 0 c).after 5 t) = _
  rw [after0_5]
  obtain ⟨-, -, -, -, -, -, -, -, -, -, e0, e1⟩ := blk_index t
  funext j
  rw [View.read_apply]
  refine mom_pt 2 (V m c main_v6) (iblk m c 0 t) j (((cfg0.win 5).blk t).view.emb j) ?_ ?_
  · show win0_5.index t (0 : Fin 2) * 8 + 1 * (j 0).val = (j 0).val
    rw [e0]; omega
  · intro r
    refine col_eq m c t (j 1) _ ?_ r
    show win0_5.index t (1 : Fin 2) * 32768 + 1 * (j 1).val = t.val * 32768 + (j 1).val
    rw [e1]; omega

/-- An entry is in point t's block iff each coordinate is in the block's range on its axis. -/
theorem mem_blk5 (t : Fin cfg0.N) (i : S8x1015808.Idx) :
    i ∈ ((cfg0.win 5).blk t).view.set ↔ ∀ a : Fin 2, win0_5.index t a * S8x32768.size a ≤ (i a).val ∧ (i a).val < win0_5.index t a * S8x32768.size a + S8x32768.size a := by
  show i ∈ ((View.whole main_v7_4).slice (win0_5.rect t)).set ↔ _
  rw [View.set_slice_whole, Rect.mem_set_unit]
  exact Iff.rfl

/-- Column p lies in the block of point p / 32768, and 31 · 32768 = 1015808: every entry is written back. -/
theorem cover5 (i : S8x1015808.Idx) : ∃ t : Fin cfg0.N, (cfg0.win 5).flush t = true ∧ i ∈ ((cfg0.win 5).blk t).view.set := by
  have hi0 : (i 0).val < 8 := (i 0).isLt
  have hi1 : (i 1).val < 1015808 := (i 1).isLt
  have hN : cfg0.N = 31 := N_0
  have hlt : (i 1).val / 32768 < cfg0.N := by rw [hN]; omega
  obtain ⟨-, -, -, -, -, -, -, -, -, -, e0, e1⟩ := blk_index ⟨(i 1).val / 32768, hlt⟩
  refine ⟨⟨(i 1).val / 32768, hlt⟩, flush0_5 _, ?_⟩
  rw [mem_blk5]
  intro a
  match a with
  | ⟨0, _⟩ =>
    show win0_5.index ⟨(i 1).val / 32768, hlt⟩ (0 : Fin 2) * 8 ≤ (i 0).val
      ∧ (i 0).val < win0_5.index ⟨(i 1).val / 32768, hlt⟩ (0 : Fin 2) * 8 + 8
    rw [e0]; omega
  | ⟨1, _⟩ =>
    show win0_5.index ⟨(i 1).val / 32768, hlt⟩ (1 : Fin 2) * 32768 ≤ (i 1).val
      ∧ (i 1).val < win0_5.index ⟨(i 1).val / 32768, hlt⟩ (1 : Fin 2) * 32768 + 32768
    rw [e1]
    show (i 1).val / 32768 * 32768 ≤ (i 1).val ∧ (i 1).val < (i 1).val / 32768 * 32768 + 32768
    omega

/-- So the array ends holding the array function of the channel array. -/
theorem final_5 (c : Dev nD) : (dats m 0 c).arrAt 5 cfg0.N = KVal.momArr 2 (V m c main_v6) :=
  (dats m 0 c).arrAt_eq_of_cover 5 (KVal.momArr 2 (V m c main_v6)) (fun t _ => flushed5_eq m c t) cover5

end Cert.KernelIdeal.Hand

end
-- ==== Proof.LibScatterAddRows.lean ====
/-
  General lemmas on the host's accumulating scatter at the ideal instance, for index arrays of one index per update row
  (jax's `x.at[idx].add(u)` / `segment_sum`): the result at row `c` is the operand's entry plus the sum of the update rows
  whose index word, read as a signed integer, is `c`.  An index outside the operand lands nowhere, so it equals no `c`.
  Also: a sum over `Fin M` with `M = A·B` split row-major into a double sum.
-/
import Idealize.ShloMosaic.PureOps
import Idealize.ShloMosaic.PureOps.Ideal
import Idealize.ShloMosaic.Lib.ValueIdx

noncomputable section

namespace Cert.LibScatter

open Idealize.ShloMosaic Idealize.ShloMosaic.ValueIdx

/-- Equal axes give equal coordinates. -/
private theorem val_congr {s : Shape} (j : s.Idx) {a b : Fin s.rank} (h : a = b) : (j a).val = (j b).val := by
  subst h; rfl

/-- Rank 1: the window starts, on the operand's only axis, at the update row's index word read signed. -/
private theorem start1 {C M w : Nat} (d : ScatterDims ⟨1, ![C]⟩ ⟨2, ![M, 1]⟩ ⟨1, ![M]⟩)
    (huw : d.updateWindowDims = []) (hiw : d.insertedWindowDims = [0]) (hsd : d.scatterDimsToOperandDims = [0])
    (hiv : d.indexVectorDim = 1) (idx : IVec ⟨2, ![M, 1]⟩ w) (j : (⟨1, ![M]⟩ : Shape).Idx) :
    d.start j idx 0 = (idx (ix2 (j 0) 0)).toInt := by
  unfold ScatterDims.start
  rw [dif_pos (by rw [hsd]; simp)]
  congr 2
  funext b
  match b with
  | ⟨0, _⟩ =>
    unfold ScatterDims.siIdx
    rw [dif_neg (by simp [hiv])]
    unfold ScatterDims.siCoord
    apply Fin.ext
    simp only [Fin.coe_cast]
    exact val_congr j (Subsingleton.elim _ _)
  | ⟨1, _⟩ =>
    unfold ScatterDims.siIdx
    rw [dif_pos (by simp [hiv])]
    apply Fin.ext
    show List.idxOf 0 d.scatterDimsToOperandDims = 0
    rw [hsd]; rfl

/-- Rank 1: the operand's only axis is inserted, so the window coordinate on it is `0`. -/
private theorem window1 {C M : Nat} (d : ScatterDims ⟨1, ![C]⟩ ⟨2, ![M, 1]⟩ ⟨1, ![M]⟩)
    (hiw : d.insertedWindowDims = [0]) (j : (⟨1, ![M]⟩ : Shape).Idx) :
    d.window j 0 = 0 := by
  unfold ScatterDims.window
  rw [dif_neg]
  intro h
  have h2 := (List.mem_filter.1 h).2
  simp [hiw] at h2

/-- Rank 1: update row `j` lands at `c` exactly when its index word, read signed, is `c`. -/
private theorem resultIdx1 {C M w : Nat} (d : ScatterDims ⟨1, ![C]⟩ ⟨2, ![M, 1]⟩ ⟨1, ![M]⟩)
    (huw : d.updateWindowDims = []) (hiw : d.insertedWindowDims = [0]) (hsd : d.scatterDimsToOperandDims = [0])
    (hiv : d.indexVectorDim = 1) (idx : IVec ⟨2, ![M, 1]⟩ w) (j : (⟨1, ![M]⟩ : Shape).Idx) (c : Fin C) :
    d.resultIdx? j idx = some (ix1 c) ↔ (idx (ix2 (j 0) 0)).toInt = (c.val : Int) := by
  have hs := start1 d huw hiw hsd hiv idx j
  have hw := window1 d hiw j
  have hc := c.isLt
  unfold ScatterDims.resultIdx?
  constructor
  · intro h
    split at h
    · have h0 := congrArg Fin.val (congrFun (Option.some.inj h) 0)
      simp only [hs, hw] at h0
      rename_i hall
      have h1 := (hall 0).1
      rw [hs, hw] at h1
      change ((idx (ix2 (j 0) 0)).toInt + ((0 : Nat) : Int)).toNat = c.val at h0
      omega
    · cases h
  · intro h
    have hall : ∀ a, 0 ≤ d.start j idx a + d.window j a ∧ d.start j idx a + d.window j a < (⟨1, ![C]⟩ : Shape).size a := by
      intro a
      have ha : a = 0 := Subsingleton.elim _ _
      subst ha
      rw [hs, hw, h]
      change (0 : Int) ≤ (c.val : Int) + ((0 : Nat) : Int) ∧ (c.val : Int) + ((0 : Nat) : Int) < ((C : Nat) : Int)
      omega
    rw [dif_pos hall]
    congr 1
    funext a
    have ha : a = 0 := Subsingleton.elim _ _
    subst ha
    apply Fin.ext
    change (d.start j idx 0 + (d.window j 0 : Int)).toNat = c.val
    rw [hs, hw, h]
    omega

/-- Rank 2 with window axis `1`: the only update scatter axis is axis `0`. -/
private theorem mem_uScatter2 {C B M : Nat} (d : ScatterDims ⟨2, ![C, B]⟩ ⟨2, ![M, 1]⟩ ⟨2, ![M, B]⟩)
    (huw : d.updateWindowDims = [1]) (a : Fin 2) (ha : a ∈ d.uScatter) : a = 0 := by
  have h2 := (List.mem_filter.1 ha).2
  simp [huw] at h2
  omega

/-- Rank 2: on operand axis `0` the window starts at the update row's index word read signed. -/
private theorem start2_0 {C B M w : Nat} (d : ScatterDims ⟨2, ![C, B]⟩ ⟨2, ![M, 1]⟩ ⟨2, ![M, B]⟩)
    (huw : d.updateWindowDims = [1]) (hsd : d.scatterDimsToOperandDims = [0])
    (hiv : d.indexVectorDim = 1) (idx : IVec ⟨2, ![M, 1]⟩ w) (j : (⟨2, ![M, B]⟩ : Shape).Idx) :
    d.start j idx 0 = (idx (ix2 (j 0) 0)).toInt := by
  unfold ScatterDims.start
  rw [dif_pos (by rw [hsd]; simp)]
  congr 2
  funext b
  match b with
  | ⟨0, _⟩ =>
    unfold ScatterDims.siIdx
    rw [dif_neg (by simp [hiv])]
    unfold ScatterDims.siCoord
    apply Fin.ext
    simp only [Fin.coe_cast]
    exact val_congr j (mem_uScatter2 d huw _ (List.getElem_mem _))
  | ⟨1, _⟩ =>
    unfold ScatterDims.siIdx
    rw [dif_pos (by simp [hiv])]
    apply Fin.ext
    show List.idxOf 0 d.scatterDimsToOperandDims = 0
    rw [hsd]; rfl

/-- Rank 2: operand axis `1` is not named by the map, so the window starts at `0` on it. -/
private theorem start2_1 {C B M w : Nat} (d : ScatterDims ⟨2, ![C, B]⟩ ⟨2, ![M, 1]⟩ ⟨2, ![M, B]⟩)
    (hsd : d.scatterDimsToOperandDims = [0]) (idx : IVec ⟨2, ![M, 1]⟩ w) (j : (⟨2, ![M, B]⟩ : Shape).Idx) :
    d.start j idx 1 = 0 := by
  unfold ScatterDims.start
  rw [dif_neg (by rw [hsd]; simp)]

/-- Rank 2: operand axis `0` is inserted, so the window coordinate on it is `0`. -/
private theorem window2_0 {C B M : Nat} (d : ScatterDims ⟨2, ![C, B]⟩ ⟨2, ![M, 1]⟩ ⟨2, ![M, B]⟩)
    (hiw : d.insertedWindowDims = [0]) (j : (⟨2, ![M, B]⟩ : Shape).Idx) :
    d.window j 0 = 0 := by
  unfold ScatterDims.window
  rw [dif_neg]
  intro h
  have h2 := (List.mem_filter.1 h).2
  simp [hiw] at h2

/-- Rank 2: on operand axis `1` the window coordinate is the update's coordinate on axis `1`. -/
private theorem window2_1 {C B M : Nat} (d : ScatterDims ⟨2, ![C, B]⟩ ⟨2, ![M, 1]⟩ ⟨2, ![M, B]⟩)
    (huw : d.updateWindowDims = [1]) (hiw : d.insertedWindowDims = [0]) (j : (⟨2, ![M, B]⟩ : Shape).Idx) :
    d.window j 1 = (j 1).val := by
  have hm : (1 : Fin 2) ∈ d.sKept := List.mem_filter.2 ⟨List.mem_finRange _, by simp [hiw]⟩
  have hall : ∀ a ∈ d.updateWindowDims, a = 1 := by rw [huw]; simp
  unfold ScatterDims.window
  rw [dif_pos hm]
  exact val_congr j (hall _ (List.getElem_mem _))

/-- Rank 2: update entry `(p, q)` lands at `(c, b)` exactly when row `p`'s index word, read signed, is `c` and `q = b`. -/
private theorem resultIdx2 {C B M w : Nat} (d : ScatterDims ⟨2, ![C, B]⟩ ⟨2, ![M, 1]⟩ ⟨2, ![M, B]⟩)
    (huw : d.updateWindowDims = [1]) (hiw : d.insertedWindowDims = [0]) (hsd : d.scatterDimsToOperandDims = [0])
    (hiv : d.indexVectorDim = 1) (idx : IVec ⟨2, ![M, 1]⟩ w) (p : Fin M) (q : Fin B) (c : Fin C) (b : Fin B) :
    d.resultIdx? (ix2 p q) idx = some (ix2 c b) ↔ ((idx (ix2 p 0)).toInt = (c.val : Int) ∧ q = b) := by
  have hs0 := start2_0 d huw hsd hiv idx (ix2 p q)
  have hs1 := start2_1 d hsd idx (ix2 p q)
  have hw0 := window2_0 d hiw (ix2 p q)
  have hw1 := window2_1 d huw hiw (ix2 p q)
  change d.start (ix2 p q) idx 0 = (idx (ix2 p 0)).toInt at hs0
  change d.window (ix2 p q) 1 = q.val at hw1
  have hc := c.isLt
  have hq := q.isLt
  unfold ScatterDims.resultIdx?
  constructor
  · intro h
    split at h
    · rename_i hall
      have h0 := congrArg Fin.val (congrFun (Option.some.inj h) 0)
      have h1 := congrArg Fin.val (congrFun (Option.some.inj h) 1)
      change (d.start (ix2 p q) idx 0 + (d.window (ix2 p q) 0 : Int)).toNat = c.val at h0
      change (d.start (ix2 p q) idx 1 + (d.window (ix2 p q) 1 : Int)).toNat = b.val at h1
      have g0 := (hall 0).1
      rw [hs0, hw0] at h0 g0
      rw [hs1, hw1] at h1
      refine ⟨by omega, Fin.ext (by omega)⟩
    · cases h
  · rintro ⟨h, rfl⟩
    have hall : ∀ a, 0 ≤ d.start (ix2 p q) idx a + d.window (ix2 p q) a
        ∧ d.start (ix2 p q) idx a + d.window (ix2 p q) a < (⟨2, ![C, B]⟩ : Shape).size a := by
      intro a
      match a with
      | ⟨0, _⟩ =>
        change 0 ≤ d.start (ix2 p q) idx 0 + (d.window (ix2 p q) 0 : Int)
          ∧ d.start (ix2 p q) idx 0 + (d.window (ix2 p q) 0 : Int) < ((C : Nat) : Int)
        rw [hs0, hw0, h]
        omega
      | ⟨1, _⟩ =>
        change 0 ≤ d.start (ix2 p q) idx 1 + (d.window (ix2 p q) 1 : Int)
          ∧ d.start (ix2 p q) idx 1 + (d.window (ix2 p q) 1 : Int) < ((B : Nat) : Int)
        rw [hs1, hw1]
        omega
    rw [dif_pos hall]
    congr 1
    funext a
    match a with
    | ⟨0, _⟩ =>
      apply Fin.ext
      change (d.start (ix2 p q) idx 0 + (d.window (ix2 p q) 0 : Int)).toNat = c.val
      rw [hs0, hw0, h]
      omega
    | ⟨1, _⟩ =>
      apply Fin.ext
      change (d.start (ix2 p q) idx 1 + (d.window (ix2 p q) 1 : Int)).toNat = q.val
      rw [hs1, hw1]
      omega

/-- Rank-1 operand `[C]`, indices `[M,1]`, updates `[M]` (no window axis): row `c` receives the updates whose index is `c`. -/
theorem scatterAdd_rows1 {C M w : Nat} (d : ScatterDims ⟨1, ![C]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![C]⟩ : Shape).Idx → EReal) (idx : IVec ⟨2, ![M, 1]⟩ w) (upd : (⟨1, ![M]⟩ : Shape).Idx → EReal) (c : Fin C) :
    Ideal.hostScatterAdd d x idx upd (ix1 c)
      = x (ix1 c) + ∑ j : Fin M, if (idx (ix2 j 0)).toInt = (c.val : Int) then upd (ix1 j) else 0 := by
  unfold Ideal.hostScatterAdd
  congr 1
  rw [Finset.sum_filter]
  let e : (⟨1, ![M]⟩ : Shape).Idx ≃ Fin M :=
    { toFun := fun j => j 0, invFun := ix1, left_inv := fun j => (eq_ix1 j).symm, right_inv := fun _ => rfl }
  rw [← Equiv.sum_comp e.symm]
  apply Fintype.sum_congr
  intro j
  show (if d.resultIdx? (ix1 j) idx = some (ix1 c) then upd (ix1 j) else 0) = _
  simp only [resultIdx1 d huw hiw hsd hiv idx (ix1 j) c]
  rfl

/-- Rank-2 operand `[C,B]`, indices `[M,1]`, updates `[M,B]` (axis 1 the window): entry `(c, b)` receives column `b` of the
    update rows whose index is `c`. -/
theorem scatterAdd_rows2 {C B M w : Nat} (d : ScatterDims ⟨2, ![C, B]⟩ ⟨2, ![M, 1]⟩ ⟨2, ![M, B]⟩)
    (huw : d.updateWindowDims = [1]) (hiw : d.insertedWindowDims = [0]) (hsd : d.scatterDimsToOperandDims = [0])
    (hiv : d.indexVectorDim = 1)
    (x : (⟨2, ![C, B]⟩ : Shape).Idx → EReal) (idx : IVec ⟨2, ![M, 1]⟩ w) (upd : (⟨2, ![M, B]⟩ : Shape).Idx → EReal)
    (c : Fin C) (b : Fin B) :
    Ideal.hostScatterAdd d x idx upd (ix2 c b)
      = x (ix2 c b) + ∑ j : Fin M, if (idx (ix2 j 0)).toInt = (c.val : Int) then upd (ix2 j b) else 0 := by
  unfold Ideal.hostScatterAdd
  congr 1
  rw [Finset.sum_filter, sum_idx2]
  apply Fintype.sum_congr
  intro p
  simp only [resultIdx2 d huw hiw hsd hiv idx p _ c b]
  rw [Finset.sum_eq_single b]
  · simp
  · intro q _ hq
    rw [if_neg (fun h => hq h.2)]
  · intro h
    exact absurd (Finset.mem_univ b) h

/-- A sum over `Fin M`, `M = A·B`, as the row-major double sum: position `a·B + b`. -/
theorem sum_fin_rowMajor {A B M : Nat} (h : A * B = M) (f : Fin M → EReal) :
    ∑ j : Fin M, f j
      = ∑ a : Fin A, ∑ b : Fin B, f ⟨a.val * B + b.val, by
          have := a.isLt; have := b.isLt
          calc a.val * B + b.val < a.val * B + B := by omega
            _ = (a.val + 1) * B := by ring
            _ ≤ A * B := Nat.mul_le_mul_right B (by omega)
            _ = M := h⟩ := by
  subst h
  rw [← Equiv.sum_comp finProdFinEquiv f, Fintype.sum_prod_type]
  apply Fintype.sum_congr
  intro a
  apply Fintype.sum_congr
  intro b
  congr 1
  apply Fin.ext
  simp [finProdFinEquiv]
  ring

end Cert.LibScatter

end
-- ==== Proof.KI.TailValue.lean ====
/-
  The host tail's value at the ideal instance.  The flattened arrays hold, at row-major position k·1015808 + p, corner k's
  quantity for column p; the accumulating scatter sums, per cell c, the entries whose clipped cell number is c.  Columns
  p ≥ 1000000 hold the pad value for the mass, so their shares are products with zero and add nothing; the remaining terms,
  summed over corners then particles, are the specification's sum over particles then corners.
-/
import proofs.«111574_j40132174414020_1_alg».proof.Proof.Gen.KernelIdeal
import proofs.«111574_j40132174414020_1_alg».proof.Proof.KI.ValueDefs
import proofs.«111574_j40132174414020_1_alg».proof.Proof.Spec
import proofs.«111574_j40132174414020_1_alg».proof.Proof.LibScatterAddRows
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The layout operations of the tail read at an index -/

section Layout
variable {α : Type}

/-- The flattened array at row-major position k·1015808 + p holds entry (k, p). -/
theorem flat_apply (x : S8x1015808.Idx → α) (k : Fin 8) (p : Fin 1015808) (h : k.val * 1015808 + p.val < 8126464) :
    shapeCast S8126464 x shapeCasts_S8x1015808_S8126464 (ix1 ⟨k.val * 1015808 + p.val, h⟩) = x (ix2 k p) := by
  refine shapeCast_apply x _ _ (ix2 k p) ?_
  rw [Shape.rowMajor_val_two, Shape.rowMajor_val_one]
  rfl

/-- A vector of 8126464 entries made a one-column array reads its entry j at (j, 0). -/
theorem col_apply (x : S8126464.Idx → α) (j : Fin 8126464) (b : Fin 1) :
    broadcastInDim S8126464x1 ![0] bcast_S8126464_S8126464x1_0 x (ix2 j b) = x (ix1 j) := by
  refine broadcastInDim_apply _ _ x _ (ix1 j) ?_
  intro a
  match a with
  | ⟨0, _⟩ => rfl

/-- A vector of 2097152 entries made a one-column array reads its entry c at (c, 0). -/
theorem colC_apply (x : S2097152.Idx → α) (c : Fin 2097152) (b : Fin 1) :
    broadcastInDim S2097152x1 ![0] bcast_S2097152_S2097152x1_0 x (ix2 c b) = x (ix1 c) := by
  refine broadcastInDim_apply _ _ x _ (ix1 c) ?_
  intro a
  match a with
  | ⟨0, _⟩ => rfl

end Layout

/-- The scatter indices at row j: the flattened cell numbers' entry j. -/
theorem tIdx_apply (h : IVec S8x1015808 32) (j : Fin 8126464) :
    KVal.tIdx h (ix2 j 0) = shapeCast S8126464 h shapeCasts_S8x1015808_S8126464 (ix1 j) :=
  col_apply _ j 0

/-- The zero-filled vector of cells. -/
theorem zero1_apply (c : Fin 2097152) :
    broadcastInDim S2097152 ![] bcast_S_S2097152 (constant (F := Ideal) S_ .f32 0x00000000#32) (ix1 c)
      = Ideal.ofBits .f32 0x00000000#32 :=
  (broadcastInDim_apply _ _ _ _ ix0 (fun a => a.elim0)).trans (constant_apply _ _)

/-- The zero-filled three-column grid of cells. -/
theorem zero3_apply (c : Fin 2097152) (b : Fin 3) :
    broadcastInDim S2097152x3 ![] bcast_S_S2097152x3 (constant (F := Ideal) S_ .f32 0x00000000#32) (ix2 c b)
      = Ideal.ofBits .f32 0x00000000#32 :=
  (broadcastInDim_apply _ _ _ _ ix0 (fun a => a.elim0)).trans (constant_apply _ _)

/-! ## The two accumulating scatters -/

/-- One of the three momentum-share arrays by its column. -/
def sel3 {α : Type} (b : Fin 3) (mx my mz : α) : α :=
  match b with
  | ⟨0, _⟩ => mx
  | ⟨1, _⟩ => my
  | ⟨2, _⟩ => mz

/-- The stacked momentum shares at (j, b): column b's flattened array at j. -/
theorem tMomU_apply (mx my mz : FVec Ideal S8x1015808 .f32) (j : Fin 8126464) (b : Fin 3) :
    KVal.tMomU (F := Ideal) mx my mz (ix2 j b)
      = shapeCast S8126464 (sel3 b mx my mz) shapeCasts_S8x1015808_S8126464 (ix1 j) := by
  unfold KVal.tMomU
  match b with
  | ⟨0, _⟩ =>
    refine (concatenate_apply_piece (1 : Fin S8126464x3.rank) _ _ _ 0 (by show (0 : Nat) < 3; omega) S8126464x1 _ rfl rfl 0 rfl (ix2 j 0) ?_ rfl).trans
      (col_apply _ j 0)
    intro a ha
    match a with
    | ⟨0, _⟩ => rfl
    | ⟨1, _⟩ => exact absurd rfl ha
  | ⟨1, _⟩ =>
    refine (concatenate_apply_piece (1 : Fin S8126464x3.rank) _ _ _ 1 (by show (1 : Nat) < 3; omega) S8126464x1 _ rfl rfl 1 rfl (ix2 j 0) ?_ rfl).trans
      (col_apply _ j 0)
    intro a ha
    match a with
    | ⟨0, _⟩ => rfl
    | ⟨1, _⟩ => exact absurd rfl ha
  | ⟨2, _⟩ =>
    refine (concatenate_apply_piece (1 : Fin S8126464x3.rank) _ _ _ 2 (by show (2 : Nat) < 3; omega) S8126464x1 _ rfl rfl 2 rfl (ix2 j 0) ?_ rfl).trans
      (col_apply _ j 0)
    intro a ha
    match a with
    | ⟨0, _⟩ => rfl
    | ⟨1, _⟩ => exact absurd rfl ha

/-- The node masses are the accumulating scatter of the flattened mass shares into the zero vector. -/
theorem tMass_eq (h : IVec S8x1015808 32) (s : FVec Ideal S8x1015808 .f32) :
    KVal.tMass (F := Ideal) h s
      = Ideal.hostScatterAdd scatter_S2097152_S8126464x1_S8126464_n_0_0_1
          (broadcastInDim S2097152 ![] bcast_S_S2097152 (constant (F := Ideal) S_ .f32 0x00000000#32))
          (KVal.tIdx h) (shapeCast S8126464 s shapeCasts_S8x1015808_S8126464) := rfl

/-- The node momenta are the accumulating scatter of the stacked momentum shares into the zero grid. -/
theorem tMom_eq (h : IVec S8x1015808 32) (mx my mz : FVec Ideal S8x1015808 .f32) :
    KVal.tMom (F := Ideal) h mx my mz
      = Ideal.hostScatterAdd scatter_S2097152x3_S8126464x1_S8126464x3_1_0_0_1
          (broadcastInDim S2097152x3 ![] bcast_S_S2097152x3 (constant (F := Ideal) S_ .f32 0x00000000#32))
          (KVal.tIdx h) (KVal.tMomU (F := Ideal) mx my mz) := rfl

/-- Position k·1015808 + p lies below 8126464. -/
theorem pos_lt (k : Fin 8) (p : Fin 1015808) : k.val * 1015808 + p.val < 8126464 := by
  have := k.isLt; have := p.isLt; omega

/-- The rank-1 scatter at cell c, its 8126464 updates taken corner by corner and column by column. -/
theorem scat1 (x0 : S2097152.Idx → EReal) (idx : IVec S8126464x1 32) (upd : S8126464.Idx → EReal) (c : Fin 2097152) :
    Ideal.hostScatterAdd scatter_S2097152_S8126464x1_S8126464_n_0_0_1 x0 idx upd (ix1 c)
      = x0 (ix1 c) + ∑ k : Fin 8, ∑ p : Fin 1015808,
          if (idx (ix2 ⟨k.val * 1015808 + p.val, pos_lt k p⟩ 0)).toInt = (c.val : Int)
            then upd (ix1 ⟨k.val * 1015808 + p.val, pos_lt k p⟩) else 0 :=
  (Cert.LibScatter.scatterAdd_rows1 scatter_S2097152_S8126464x1_S8126464_n_0_0_1 rfl rfl rfl rfl x0 idx upd c).trans
    (congrArg (fun t => x0 (ix1 c) + t)
      (Cert.LibScatter.sum_fin_rowMajor (A := 8) (B := 1015808) (M := 8126464) (by norm_num)
        (fun j => if (idx (ix2 j 0)).toInt = (c.val : Int) then upd (ix1 j) else 0)))

/-- The rank-2 scatter at cell c, column b, likewise. -/
theorem scat2 (x0 : S2097152x3.Idx → EReal) (idx : IVec S8126464x1 32) (upd : S8126464x3.Idx → EReal)
    (c : Fin 2097152) (b : Fin 3) :
    Ideal.hostScatterAdd scatter_S2097152x3_S8126464x1_S8126464x3_1_0_0_1 x0 idx upd (ix2 c b)
      = x0 (ix2 c b) + ∑ k : Fin 8, ∑ p : Fin 1015808,
          if (idx (ix2 ⟨k.val * 1015808 + p.val, pos_lt k p⟩ 0)).toInt = (c.val : Int)
            then upd (ix2 ⟨k.val * 1015808 + p.val, pos_lt k p⟩ b) else 0 :=
  (Cert.LibScatter.scatterAdd_rows2 scatter_S2097152x3_S8126464x1_S8126464x3_1_0_0_1 rfl rfl rfl rfl x0 idx upd c b).trans
    (congrArg (fun t => x0 (ix2 c b) + t)
      (Cert.LibScatter.sum_fin_rowMajor (A := 8) (B := 1015808) (M := 8126464) (by norm_num)
        (fun j => if (idx (ix2 j 0)).toInt = (c.val : Int) then upd (ix2 j b) else 0)))

/-- One mass summand: the flattened arrays at position k·1015808 + p are the arrays at (k, p). -/
theorem summand1 (h : IVec S8x1015808 32) (s : FVec Ideal S8x1015808 .f32) (c : Fin 2097152) (k : Fin 8) (p : Fin 1015808) :
    (if (KVal.tIdx h (ix2 ⟨k.val * 1015808 + p.val, pos_lt k p⟩ 0)).toInt = (c.val : Int)
      then (shapeCast S8126464 s shapeCasts_S8x1015808_S8126464 (ix1 ⟨k.val * 1015808 + p.val, pos_lt k p⟩) : EReal) else 0)
      = if (h (ix2 k p)).toInt = (c.val : Int) then (s (ix2 k p) : EReal) else 0 := by
  rw [tIdx_apply, flat_apply, flat_apply]

/-- One momentum summand of component b. -/
theorem summand2 (h : IVec S8x1015808 32) (mx my mz : FVec Ideal S8x1015808 .f32) (c : Fin 2097152) (b : Fin 3)
    (k : Fin 8) (p : Fin 1015808) :
    (if (KVal.tIdx h (ix2 ⟨k.val * 1015808 + p.val, pos_lt k p⟩ 0)).toInt = (c.val : Int)
      then (KVal.tMomU (F := Ideal) mx my mz (ix2 ⟨k.val * 1015808 + p.val, pos_lt k p⟩ b) : EReal) else 0)
      = if (h (ix2 k p)).toInt = (c.val : Int) then (sel3 b mx my mz (ix2 k p) : EReal) else 0 := by
  rw [tIdx_apply, flat_apply, tMomU_apply, flat_apply]

/-- The node masses at cell c: zero plus, over corners and columns, the mass shares whose cell number is c. -/
theorem tMass_apply (h : IVec S8x1015808 32) (s : FVec Ideal S8x1015808 .f32) (c : Fin 2097152) :
    (KVal.tMass (F := Ideal) h s (ix1 c) : EReal)
      = (Ideal.ofBits .f32 0x00000000#32 : EReal)
        + ∑ k : Fin 8, ∑ p : Fin 1015808, if (h (ix2 k p)).toInt = (c.val : Int) then (s (ix2 k p) : EReal) else 0 := by
  refine (congrFun (tMass_eq h s) (ix1 c)).trans ?_
  refine (scat1 _ _ _ c).trans ?_
  refine congrArg₂ (fun a b : EReal => a + b) (zero1_apply c) ?_
  exact Finset.sum_congr rfl fun k _ => Finset.sum_congr rfl fun p _ => summand1 h s c k p

/-- The node momenta at cell c, component b: zero plus the momentum shares of component b whose cell number is c. -/
theorem tMom_apply (h : IVec S8x1015808 32) (mx my mz : FVec Ideal S8x1015808 .f32) (c : Fin 2097152) (b : Fin 3) :
    (KVal.tMom (F := Ideal) h mx my mz (ix2 c b) : EReal)
      = (Ideal.ofBits .f32 0x00000000#32 : EReal)
        + ∑ k : Fin 8, ∑ p : Fin 1015808,
            if (h (ix2 k p)).toInt = (c.val : Int) then (sel3 b mx my mz (ix2 k p) : EReal) else 0 := by
  refine (congrFun (tMom_eq h mx my mz) (ix2 c b)).trans ?_
  refine (scat2 _ _ _ c b).trans ?_
  refine congrArg₂ (fun a b : EReal => a + b) (zero3_apply c b) ?_
  exact Finset.sum_congr rfl fun k _ => Finset.sum_congr rfl fun p _ => summand2 h mx my mz c b k p

/-! ## The channel array's rows -/

section Rows
variable (pos vel : FVec Ideal S1000000x3 .f32) (mass : FVec Ideal S1000000 .f32)

/-- Rows 0–2 of a particle's column: its position. -/
theorem entry_pos (p : Fin 1000000) (r : Fin 3) (hr : r.val < 7) (hp : p.val < 1015808) :
    KVal.entry pos vel mass (ix2 ⟨r.val, hr⟩ ⟨p.val, hp⟩) = pos (ix2 p r) :=
  (dif_pos (show p.val < 1000000 from p.isLt)).trans (dif_pos (show r.val < 3 from r.isLt))

/-- Rows 3–5 of a particle's column: its velocity. -/
theorem entry_vel (p : Fin 1000000) (r : Fin 3) (hr : 3 + r.val < 7) (hp : p.val < 1015808) :
    KVal.entry pos vel mass (ix2 ⟨3 + r.val, hr⟩ ⟨p.val, hp⟩) = vel (ix2 p r) := by
  refine (dif_pos (show p.val < 1000000 from p.isLt)).trans
    ((dif_neg (show ¬ 3 + r.val < 3 by omega)).trans ((dif_pos (show 3 + r.val < 6 by omega)).trans ?_))
  refine congrArg vel (congrArg (ix2 p) (Fin.ext ?_))
  show 3 + r.val - 3 = r.val
  omega

/-- Row 6 of a particle's column: its mass. -/
theorem entry_mass (p : Fin 1000000) (hp : p.val < 1015808) :
    KVal.entry pos vel mass (ix2 6 ⟨p.val, hp⟩) = mass (ix1 p) :=
  (dif_pos (show p.val < 1000000 from p.isLt)).trans
    ((dif_neg (show ¬ 6 < 3 by omega)).trans (dif_neg (show ¬ 6 < 6 by omega)))

/-- The pad value is zero. -/
theorem padv_zero : ((KVal.padv : Ideal .f32) : EReal) = 0 := by
  show ((((0#32 : BitVec 32).toInt : ℝ) : EReal)) = 0
  simp

/-- Every row of a column past the particles holds zero. -/
theorem entry_pad (r : Fin 7) (p : Fin 1015808) (hp : 1000000 ≤ p.val) :
    (KVal.entry pos vel mass (ix2 r p) : EReal) = 0 :=
  (dif_neg (show ¬ p.val < 1000000 by omega)).trans padv_zero

end Rows

/-! ## The column sum: the padding adds nothing -/

/-- A sum over the 1015808 columns of terms vanishing from column 1000000 on is the sum over the particles. -/
theorem sum_cols (g : Fin 1015808 → EReal) (hg : ∀ p : Fin 1015808, 1000000 ≤ p.val → g p = 0) :
    ∑ p : Fin 1015808, g p = ∑ p : Fin 1000000, g ⟨p.val, by have := p.isLt; omega⟩ := by
  have e := Fin.sum_univ_add (M := EReal) (a := 1000000) (b := 15808) (fun i => g i)
  refine e.trans ?_
  have z : ∑ i : Fin 15808, g (Fin.natAdd 1000000 i) = 0 :=
    Finset.sum_eq_zero fun i _ => hg _ (by show 1000000 ≤ 1000000 + i.val; omega)
  rw [z, add_zero]
  exact Finset.sum_congr rfl fun i _ => rfl

/-! ## The region's arrays on a particle's column and on a padding column -/

section Cols
variable (pos vel : FVec Ideal S1000000x3 .f32) (mass : FVec Ideal S1000000 .f32)

/-- On a particle's column the cell-number array holds the particle's clipped cell numbers. -/
theorem hash_real (p : Fin 1000000) (k : Fin 8) (hp : p.val < 1015808) :
    KVal.hashArr (KVal.entry pos vel mass) (ix2 k ⟨p.val, hp⟩) = Cert.Spec.cellAt pos p k := by
  have e0 : KVal.entry pos vel mass (ix2 0 ⟨p.val, hp⟩) = pos (ix2 p 0) := entry_pos pos vel mass p 0 (by decide) hp
  have e1 : KVal.entry pos vel mass (ix2 1 ⟨p.val, hp⟩) = pos (ix2 p 1) := entry_pos pos vel mass p 1 (by decide) hp
  have e2 : KVal.entry pos vel mass (ix2 2 ⟨p.val, hp⟩) = pos (ix2 p 2) := entry_pos pos vel mass p 2 (by decide) hp
  show Cert.Spec.cell (KVal.entry pos vel mass (ix2 0 ⟨p.val, hp⟩)) (KVal.entry pos vel mass (ix2 1 ⟨p.val, hp⟩))
      (KVal.entry pos vel mass (ix2 2 ⟨p.val, hp⟩)) k
    = Cert.Spec.cell (pos (ix2 p 0)) (pos (ix2 p 1)) (pos (ix2 p 2)) k
  rw [e0, e1, e2]

/-- On a particle's column the mass-share array holds the particle's mass shares. -/
theorem sm_real (p : Fin 1000000) (k : Fin 8) (hp : p.val < 1015808) :
    KVal.smArr (KVal.entry pos vel mass) (ix2 k ⟨p.val, hp⟩)
      = Cert.Spec.sm (pos (ix2 p 0)) (pos (ix2 p 1)) (pos (ix2 p 2)) (mass (ix1 p)) k := by
  have e0 : KVal.entry pos vel mass (ix2 0 ⟨p.val, hp⟩) = pos (ix2 p 0) := entry_pos pos vel mass p 0 (by decide) hp
  have e1 : KVal.entry pos vel mass (ix2 1 ⟨p.val, hp⟩) = pos (ix2 p 1) := entry_pos pos vel mass p 1 (by decide) hp
  have e2 : KVal.entry pos vel mass (ix2 2 ⟨p.val, hp⟩) = pos (ix2 p 2) := entry_pos pos vel mass p 2 (by decide) hp
  have e6 : KVal.entry pos vel mass (ix2 6 ⟨p.val, hp⟩) = mass (ix1 p) := entry_mass pos vel mass p hp
  show Cert.Spec.sm (KVal.entry pos vel mass (ix2 0 ⟨p.val, hp⟩)) (KVal.entry pos vel mass (ix2 1 ⟨p.val, hp⟩))
      (KVal.entry pos vel mass (ix2 2 ⟨p.val, hp⟩)) (KVal.entry pos vel mass (ix2 6 ⟨p.val, hp⟩)) k = _
  rw [e0, e1, e2, e6]

/-- On a particle's column the momentum-share array of component a holds the particle's momentum shares. -/
theorem mom_real (a : Fin 3) (p : Fin 1000000) (k : Fin 8) (hp : p.val < 1015808) :
    KVal.momArr a (KVal.entry pos vel mass) (ix2 k ⟨p.val, hp⟩)
      = Cert.Spec.mom (pos (ix2 p 0)) (pos (ix2 p 1)) (pos (ix2 p 2)) (mass (ix1 p)) (vel (ix2 p a)) k := by
  have e0 : KVal.entry pos vel mass (ix2 0 ⟨p.val, hp⟩) = pos (ix2 p 0) := entry_pos pos vel mass p 0 (by decide) hp
  have e1 : KVal.entry pos vel mass (ix2 1 ⟨p.val, hp⟩) = pos (ix2 p 1) := entry_pos pos vel mass p 1 (by decide) hp
  have e2 : KVal.entry pos vel mass (ix2 2 ⟨p.val, hp⟩) = pos (ix2 p 2) := entry_pos pos vel mass p 2 (by decide) hp
  have e6 : KVal.entry pos vel mass (ix2 6 ⟨p.val, hp⟩) = mass (ix1 p) := entry_mass pos vel mass p hp
  have ev : KVal.entry pos vel mass (ix2 ⟨3 + a.val, by omega⟩ ⟨p.val, hp⟩) = vel (ix2 p a) :=
    entry_vel pos vel mass p a (by omega) hp
  show Cert.Spec.mom (KVal.entry pos vel mass (ix2 0 ⟨p.val, hp⟩)) (KVal.entry pos vel mass (ix2 1 ⟨p.val, hp⟩))
      (KVal.entry pos vel mass (ix2 2 ⟨p.val, hp⟩)) (KVal.entry pos vel mass (ix2 6 ⟨p.val, hp⟩))
      (KVal.entry pos vel mass (ix2 ⟨3 + a.val, by omega⟩ ⟨p.val, hp⟩)) k = _
  rw [e0, e1, e2, e6, ev]

/-- On a padding column the mass share is a product with zero. -/
theorem sm_pad (k : Fin 8) (p : Fin 1015808) (hp : 1000000 ≤ p.val) :
    (KVal.smArr (KVal.entry pos vel mass) (ix2 k p) : EReal) = 0 := by
  show (Cert.Spec.shp (F := Ideal) (KVal.entry pos vel mass (ix2 0 p)) (KVal.entry pos vel mass (ix2 1 p))
      (KVal.entry pos vel mass (ix2 2 p)) k : EReal) * (KVal.entry pos vel mass (ix2 6 p) : EReal) = 0
  rw [entry_pad pos vel mass 6 p hp, mul_zero]

/-- On a padding column every momentum share is a product with that zero. -/
theorem mom_pad (a : Fin 3) (k : Fin 8) (p : Fin 1015808) (hp : 1000000 ≤ p.val) :
    (KVal.momArr a (KVal.entry pos vel mass) (ix2 k p) : EReal) = 0 := by
  show (KVal.smArr (KVal.entry pos vel mass) (ix2 k p) : EReal)
      * (KVal.entry pos vel mass (ix2 ⟨3 + a.val, by omega⟩ p) : EReal) = 0
  rw [sm_pad pos vel mass k p hp, zero_mul]

/-- The exchange: a share array that vanishes on the padding and holds u on the particles' columns, summed over
    corners then columns against the cell numbers, is the sum over particles then corners. -/
theorem core (V : FVec Ideal S8x1015808 .f32) (c : Fin 2097152) (u : Fin 1000000 → Fin 8 → EReal)
    (hreal : ∀ (p : Fin 1000000) (k : Fin 8) (hp : p.val < 1015808), (V (ix2 k ⟨p.val, hp⟩) : EReal) = u p k)
    (hpad : ∀ (k : Fin 8) (p : Fin 1015808), 1000000 ≤ p.val → (V (ix2 k p) : EReal) = 0) :
    (∑ k : Fin 8, ∑ p : Fin 1015808,
        if (KVal.hashArr (KVal.entry pos vel mass) (ix2 k p)).toInt = (c.val : Int) then (V (ix2 k p) : EReal) else 0)
      = ∑ p : Fin 1000000, ∑ k : Fin 8, if (Cert.Spec.cellAt pos p k).toInt = (c.val : Int) then u p k else 0 := by
  refine Finset.sum_comm.trans ?_
  refine (sum_cols _ ?_).trans ?_
  · intro p hp
    refine Finset.sum_eq_zero fun k _ => ?_
    rw [hpad k p hp]
    exact ite_self 0
  · refine Finset.sum_congr rfl fun p _ => Finset.sum_congr rfl fun k _ => ?_
    have hp : p.val < 1015808 := by have := p.isLt; omega
    show (if (KVal.hashArr (KVal.entry pos vel mass) (ix2 k ⟨p.val, hp⟩)).toInt = (c.val : Int)
        then (V (ix2 k ⟨p.val, hp⟩) : EReal) else 0) = _
    rw [hash_real pos vel mass p k hp, hreal p k hp]

end Cols

/-! ## The result read at (c, q) -/

/-- The result is the one-column node masses joined with the three-column node momenta. -/
theorem tailTerm_eq (h : IVec S8x1015808 32) (s mx my mz : FVec Ideal S8x1015808 .f32) :
    KVal.tailTerm (F := Ideal) h s mx my mz
      = concatenate S2097152x4 1
          [⟨S2097152x1, broadcastInDim S2097152x1 ![0] bcast_S2097152_S2097152x1_0 (KVal.tMass (F := Ideal) h s)⟩,
           ⟨S2097152x3, KVal.tMom (F := Ideal) h mx my mz⟩]
          concatenates_S2097152x1_S2097152x3_S2097152x4_d1 := rfl

/-- Column 0 of the result is the node mass. -/
theorem tail_col0 (h : IVec S8x1015808 32) (s mx my mz : FVec Ideal S8x1015808 .f32) (c : Fin 2097152) :
    KVal.tailTerm (F := Ideal) h s mx my mz (ix2 c 0) = KVal.tMass (F := Ideal) h s (ix1 c) := by
  refine (congrFun (tailTerm_eq h s mx my mz) (ix2 c 0)).trans ?_
  refine (concatenate_pair_apply_left (t := S2097152x4) (s₁ := S2097152x1) (s₂ := S2097152x3) (1 : Fin S2097152x4.rank)
    _ _ _ _ rfl (ix2 c 0) ?_).trans (colC_apply _ c 0)
  intro a
  match a with
  | ⟨0, _⟩ => rfl
  | ⟨1, _⟩ => rfl

/-- Column b + 1 of the result is component b of the node momentum. -/
theorem tail_colS (h : IVec S8x1015808 32) (s mx my mz : FVec Ideal S8x1015808 .f32) (c : Fin 2097152) (b : Fin 3)
    (hb : b.val + 1 < 4) :
    KVal.tailTerm (F := Ideal) h s mx my mz (ix2 c ⟨b.val + 1, hb⟩) = KVal.tMom (F := Ideal) h mx my mz (ix2 c b) := by
  refine (congrFun (tailTerm_eq h s mx my mz) _).trans ?_
  refine concatenate_pair_apply_right (t := S2097152x4) (s₁ := S2097152x1) (s₂ := S2097152x3) (1 : Fin S2097152x4.rank)
    _ _ _ _ rfl rfl (ix2 c b) ?_ ?_
  · intro a ha
    match a with
    | ⟨0, _⟩ => rfl
    | ⟨1, _⟩ => exact absurd rfl ha
  · rfl

/-- The specification's result at (c, q). -/
theorem out_apply (pos vel : FVec Ideal S1000000x3 .f32) (mass : FVec Ideal S1000000 .f32) (c : Fin 2097152) (q : Fin 4) :
    (Cert.Spec.Out pos vel mass (ix2 c q) : EReal)
      = (Ideal.ofBits .f32 0x00000000#32 : EReal)
        + ∑ p : Fin 1000000, ∑ k : Fin 8,
            if (Cert.Spec.cellAt pos p k).toInt = (c.val : Int) then (Cert.Spec.updAt pos vel mass p k q : EReal) else 0 := rfl

/-- The tail applied to the region's arrays of the padded channel array is the specification's result. -/
theorem tail_value (pos vel : FVec Ideal S1000000x3 .f32) (mass : FVec Ideal S1000000 .f32) :
    KVal.tailTerm (F := Ideal)
        (KVal.hashArr (KVal.entry pos vel mass)) (KVal.smArr (KVal.entry pos vel mass))
        (KVal.momArr 0 (KVal.entry pos vel mass)) (KVal.momArr 1 (KVal.entry pos vel mass)) (KVal.momArr 2 (KVal.entry pos vel mass))
      = Cert.Spec.Out pos vel mass := by
  funext i
  obtain ⟨c, q, rfl⟩ : ∃ c q, i = ix2 c q := ⟨i 0, i 1, eq_ix2 i⟩
  refine Eq.trans ?_ (out_apply pos vel mass c q).symm
  match q with
  | ⟨0, _⟩ =>
    refine (tail_col0 _ _ _ _ _ c).trans ((tMass_apply _ _ c).trans ?_)
    refine congrArg (fun t : EReal => (Ideal.ofBits .f32 0x00000000#32 : EReal) + t) ?_
    exact core pos vel mass (KVal.smArr (KVal.entry pos vel mass)) c
      (fun p k => Cert.Spec.updAt pos vel mass p k ⟨0, by omega⟩)
      (fun p k hp => sm_real pos vel mass p k hp) (fun k p hp => sm_pad pos vel mass k p hp)
  | ⟨1, _⟩ =>
    refine (tail_colS _ _ _ _ _ c 0 (by decide)).trans ((tMom_apply _ _ _ _ c 0).trans ?_)
    refine congrArg (fun t : EReal => (Ideal.ofBits .f32 0x00000000#32 : EReal) + t) ?_
    exact core pos vel mass (sel3 0 (KVal.momArr 0 (KVal.entry pos vel mass)) (KVal.momArr 1 (KVal.entry pos vel mass))
        (KVal.momArr 2 (KVal.entry pos vel mass))) c
      (fun p k => Cert.Spec.updAt pos vel mass p k ⟨1, by omega⟩)
      (fun p k hp => mom_real pos vel mass 0 p k hp) (fun k p hp => mom_pad pos vel mass 0 k p hp)
  | ⟨2, _⟩ =>
    refine (tail_colS _ _ _ _ _ c 1 (by decide)).trans ((tMom_apply _ _ _ _ c 1).trans ?_)
    refine congrArg (fun t : EReal => (Ideal.ofBits .f32 0x00000000#32 : EReal) + t) ?_
    exact core pos vel mass (sel3 1 (KVal.momArr 0 (KVal.entry pos vel mass)) (KVal.momArr 1 (KVal.entry pos vel mass))
        (KVal.momArr 2 (KVal.entry pos vel mass))) c
      (fun p k => Cert.Spec.updAt pos vel mass p k ⟨2, by omega⟩)
      (fun p k hp => mom_real pos vel mass 1 p k hp) (fun k p hp => mom_pad pos vel mass 1 k p hp)
  | ⟨3, _⟩ =>
    refine (tail_colS _ _ _ _ _ c 2 (by decide)).trans ((tMom_apply _ _ _ _ c 2).trans ?_)
    refine congrArg (fun t : EReal => (Ideal.ofBits .f32 0x00000000#32 : EReal) + t) ?_
    exact core pos vel mass (sel3 2 (KVal.momArr 0 (KVal.entry pos vel mass)) (KVal.momArr 1 (KVal.entry pos vel mass))
        (KVal.momArr 2 (KVal.entry pos vel mass))) c
      (fun p k => Cert.Spec.updAt pos vel mass p k ⟨3, by omega⟩)
      (fun p k hp => mom_real pos vel mass 2 p k hp) (fun k p hp => mom_pad pos vel mass 2 k p hp)

end Cert.KernelIdeal.Hand

end
-- ==== Proof.KI.Value.lean ====
/-
  The kernel program's run with its result named, at the ideal instance.  The frame run leaves each array of the pipeline at
  what the proof data computes and every other buffer as the host tail leaves it.  The tail's result buffer is the tail's
  operations applied to the five arrays the region wrote; those arrays are the whole-array functions of the channel array,
  the channel array is the padded, transposed, stacked arguments, and the tail applied to them is the specification's sum.
-/
import proofs.«111574_j40132174414020_1_alg».proof.Proof.KI.Frame
import proofs.«111574_j40132174414020_1_alg».proof.Proof.KI.Entry
import proofs.«111574_j40132174414020_1_alg».proof.Proof.KI.Final
import proofs.«111574_j40132174414020_1_alg».proof.Proof.KI.TailValue
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- The host tail's result buffer, from any contents of the five arrays the region wrote. -/
theorem tail_after (W : Valuation τ sig (Elt F)) :
    (StableHlo.after hostOps1 W (Proc.devRef .tc main_v24) : FVec F S2097152x4 .f32)
      = KVal.tailTerm (W (Proc.devRef .tc main_v7_0)) (W (Proc.devRef .tc main_v7_1)) (W (Proc.devRef .tc main_v7_2))
          (W (Proc.devRef .tc main_v7_3)) (W (Proc.devRef .tc main_v7_4)) := by
  after_results
  rfl

/-- The result buffer after the tail is the specification's result of the argument arrays. -/
theorem result_eq (m : (ℓ : Loc nD τ sig) → Buf (Elt Ideal) ℓ) (c : Dev nD) :
    (Pipeline.afterTail₀ cfgs (dats m) 0 (V0 m) [hostOps1] c main_v24 : FVec Ideal S2097152x4 .f32)
      = Cert.Spec.Out (m ((c : Thread nD τ).loc main_arg0)) (m ((c : Thread nD τ).loc main_arg1)) (m ((c : Thread nD τ).loc main_arg2)) := by
  have e1 := (Pipeline.withArrays_arr spec0 launch0.win.arr_inj c (V0 m c) (fun w => (dats m 0 c).arrAt w cfg0.N) 1).trans (final_1 m c)
  have e2 := (Pipeline.withArrays_arr spec0 launch0.win.arr_inj c (V0 m c) (fun w => (dats m 0 c).arrAt w cfg0.N) 2).trans (final_2 m c)
  have e3 := (Pipeline.withArrays_arr spec0 launch0.win.arr_inj c (V0 m c) (fun w => (dats m 0 c).arrAt w cfg0.N) 3).trans (final_3 m c)
  have e4 := (Pipeline.withArrays_arr spec0 launch0.win.arr_inj c (V0 m c) (fun w => (dats m 0 c).arrAt w cfg0.N) 4).trans (final_4 m c)
  have e5 := (Pipeline.withArrays_arr spec0 launch0.win.arr_inj c (V0 m c) (fun w => (dats m 0 c).arrAt w cfg0.N) 5).trans (final_5 m c)
  unfold Pipeline.afterTail₀
  show StableHlo.after hostOps1 _ (Proc.devRef .tc main_v24) = _
  rw [tail_after]
  refine Eq.trans ?_ (tail_value _ _ _)
  rw [← V_main_v6 m c]
  exact congr (congr (congr (congr (congrArg KVal.tailTerm e1) e2) e3) e4) e5

/-- Every weakly fair execution of @main terminates with the result buffer at the specification's result of the argument
    arrays, and the argument arrays as launched. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v24)
          = Cert.Spec.Out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v24 (Pipeline.mem_restRefs_of main_v24 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main (F := Ideal) m ρ)

end Cert.KernelIdeal.Hand

end
-- ==== Proof.Ref.Term.lean ====
/-
  The reference program's result as a pure function of its three argument arrays: one definition per stage, each the
  program's own operations composed in the program's order.  A particle's position is scaled to cell units, floored to its
  base corner, offset by the eight corner bit patterns; per axis the distance to the corner and the linear weight; the
  corner's cell number from the three integer grid coordinates, its range test and its clipped value; the weight product
  (zero outside the range) times the mass; the mass and the three momentum components accumulated by cell number; the two
  accumulations joined column-wise.
-/
import proofs.«111574_j40132174414020_1_alg».proof.ReferenceIdeal

noncomputable section

namespace Cert.ReferenceIdeal.Term

open Cert.ReferenceIdeal Idealize.ShloMosaic

variable {F : FTy → Type} [FloatOps F] [Cert.ReferenceIdeal.Facts]
open Facts₀ Facts

/-- Position in cell units: (x − 0) · 64, per particle and axis. -/
def rRel (a0 : FVec F S1000000x3 .f32) : FVec F S1000000x3 .f32 :=
  mulf
    (subf a0
      (broadcastInDim S1000000x3 ![0, 1] bcast_S1x3_S1000000x3_0_1
        (broadcastInDim S1x3 ![1] bcast_S3_S1x3_1 (constant S3 .f32 0x00000000#32))))
    (broadcastInDim S1000000x3 ![] bcast_S_S1000000x3 (constant S_ .f32 0x42800000#32))

/-- The base corner: the floor of the scaled position. -/
def rBase (a0 : FVec F S1000000x3 .f32) : FVec F S1000000x3 .f32 :=
  Host.floor (rRel a0)

/-- The eight corner offsets per axis, as floats. -/
def rOff : FVec F S1x8x3 .f32 :=
  sitofp .f32 (broadcastInDim S1x8x3 ![1, 2] bcast_S8x3_S1x8x3_1_2 (fun i => lit0 (S8x3.rowMajor i)))

/-- Grid coordinate of each corner along each axis: base + offset. -/
def rGp (a0 : FVec F S1000000x3 .f32) : FVec F S1000000x8x3 .f32 :=
  addf
    (broadcastInDim S1000000x8x3 ![0, 1, 2] bcast_S1000000x1x3_S1000000x8x3_0_1_2
      (broadcastInDim S1000000x1x3 ![0, 2] bcast_S1000000x3_S1000000x1x3_0_2 (rBase a0)))
    (broadcastInDim S1000000x8x3 ![0, 1, 2] bcast_S1x8x3_S1000000x8x3_0_1_2 (rOff (F := F)))

/-- Signed distance from the particle to each corner along each axis. -/
def rDist (a0 : FVec F S1000000x3 .f32) : FVec F S1000000x8x3 .f32 :=
  subf
    (broadcastInDim S1000000x8x3 ![0, 1, 2] bcast_S1000000x1x3_S1000000x8x3_0_1_2
      (broadcastInDim S1000000x1x3 ![0, 2] bcast_S1000000x3_S1000000x1x3_0_2 (rRel a0)))
    (rGp a0)

/-- The corner's grid coordinates as 32-bit integers. -/
def rGpi (a0 : FVec F S1000000x3 .f32) : IVec S1000000x8x3 32 :=
  fptosi 32 (rGp a0)

/-- The cell number before the range test: z + 128·x + 16384·y. -/
def rH (a0 : FVec F S1000000x3 .f32) : IVec S1000000x8 32 :=
  addi
    (addi
      (shapeCast S1000000x8
        (extractStridedSlice S1000000x8x1 ![0, 0, 2] (rGpi a0) slices_S1000000x8x3_S1000000x8x1_0_0_2)
        shapeCasts_S1000000x8x1_S1000000x8)
      (muli
        (shapeCast S1000000x8
          (extractStridedSlice S1000000x8x1 ![0, 0, 0] (rGpi a0) slices_S1000000x8x3_S1000000x8x1_0_0_0)
          shapeCasts_S1000000x8x1_S1000000x8)
        (broadcastInDim S1000000x8 ![] bcast_S_S1000000x8 (constantI S_ 32 128#32))))
    (muli
      (shapeCast S1000000x8
        (extractStridedSlice S1000000x8x1 ![0, 0, 1] (rGpi a0) slices_S1000000x8x3_S1000000x8x1_0_0_1)
        shapeCasts_S1000000x8x1_S1000000x8)
      (broadcastInDim S1000000x8 ![] bcast_S_S1000000x8 (constantI S_ 32 16384#32)))

/-- The linear weight along each axis: 1 − |distance|. -/
def rW (a0 : FVec F S1000000x3 .f32) : FVec F S1000000x8x3 .f32 :=
  subf
    (broadcastInDim S1000000x8x3 ![] bcast_S_S1000000x8x3 (constant S_ .f32 0x3F800000#32))
    (Host.absf (rDist a0))

/-- The product of the three axis weights. -/
def rShp0 (a0 : FVec F S1000000x3 .f32) : FVec F S1000000x8 .f32 :=
  mulf
    (mulf
      (shapeCast S1000000x8
        (extractStridedSlice S1000000x8x1 ![0, 0, 0] (rW a0) slices_S1000000x8x3_S1000000x8x1_0_0_0)
        shapeCasts_S1000000x8x1_S1000000x8)
      (shapeCast S1000000x8
        (extractStridedSlice S1000000x8x1 ![0, 0, 1] (rW a0) slices_S1000000x8x3_S1000000x8x1_0_0_1)
        shapeCasts_S1000000x8x1_S1000000x8))
    (shapeCast S1000000x8
      (extractStridedSlice S1000000x8x1 ![0, 0, 2] (rW a0) slices_S1000000x8x3_S1000000x8x1_0_0_2)
      shapeCasts_S1000000x8x1_S1000000x8)

/-- The range test 0 ≤ cell number < 2²¹. -/
def rValid (a0 : FVec F S1000000x3 .f32) : IVec S1000000x8 1 :=
  andi
    (cmpi .sge (rH a0) (broadcastInDim S1000000x8 ![] bcast_S_S1000000x8 (constantI S_ 32 0#32)))
    (cmpi .slt (rH a0) (broadcastInDim S1000000x8 ![] bcast_S_S1000000x8 (constantI S_ 32 2097152#32)))

/-- The weight, zero where the cell number is out of range. -/
def rShp (a0 : FVec F S1000000x3 .f32) : FVec F S1000000x8 .f32 :=
  select (rValid a0) (rShp0 a0)
    (broadcastInDim S1000000x8 ![] bcast_S_S1000000x8 (id (constant S_ .f32 0x00000000#32)))

/-- The cell number clipped into [0, 2²¹ − 1]. -/
def rClip (a0 : FVec F S1000000x3 .f32) : IVec S1000000x8 32 :=
  minsi
    (broadcastInDim S1000000x8 ![] bcast_S_S1000000x8 (id (constantI S_ 32 2097151#32)))
    (maxsi
      (broadcastInDim S1000000x8 ![] bcast_S_S1000000x8 (id (constantI S_ 32 0#32)))
      (rH a0))

/-- The clipped cell numbers of all (particle, corner) pairs in row-major order. -/
def rIdx (a0 : FVec F S1000000x3 .f32) : IVec S8000000 32 :=
  shapeCast S8000000 (rClip a0) shapeCasts_S1000000x8_S8000000

/-- The mass share of each corner: weight · mass. -/
def rSm (a0 : FVec F S1000000x3 .f32) (a2 : FVec F S1000000 .f32) : FVec F S1000000x8 .f32 :=
  mulf (rShp a0)
    (broadcastInDim S1000000x8 ![0, 1] bcast_S1000000x1_S1000000x8_0_1
      (broadcastInDim S1000000x1 ![0] bcast_S1000000_S1000000x1_0 a2))

/-- Mass accumulated by cell number. -/
def rMass (a0 : FVec F S1000000x3 .f32) (a2 : FVec F S1000000 .f32) : FVec F S2097152 .f32 :=
  Host.scatterAdd scatter_S2097152_S8000000x1_S8000000_n_0_0_1
    (broadcastInDim S2097152 ![] bcast_S_S2097152 (constant S_ .f32 0x00000000#32))
    (broadcastInDim S8000000x1 ![0] bcast_S8000000_S8000000x1_0 (rIdx a0))
    (shapeCast S8000000 (rSm a0 a2) shapeCasts_S1000000x8_S8000000)

/-- The momentum shares of all (particle, corner) pairs in row-major order, one column per velocity component. -/
def rMomU (a0 a1 : FVec F S1000000x3 .f32) (a2 : FVec F S1000000 .f32) : FVec F S8000000x3 .f32 :=
  shapeCast S8000000x3
    (mulf
      (broadcastInDim S1000000x8x3 ![0, 1, 2] bcast_S1000000x8x1_S1000000x8x3_0_1_2
        (broadcastInDim S1000000x8x1 ![0, 1] bcast_S1000000x8_S1000000x8x1_0_1 (rSm a0 a2)))
      (broadcastInDim S1000000x8x3 ![0, 1, 2] bcast_S1000000x1x3_S1000000x8x3_0_1_2
        (broadcastInDim S1000000x1x3 ![0, 2] bcast_S1000000x3_S1000000x1x3_0_2 a1)))
    shapeCasts_S1000000x8x3_S8000000x3

/-- Momentum accumulated by cell number. -/
def rMom (a0 a1 : FVec F S1000000x3 .f32) (a2 : FVec F S1000000 .f32) : FVec F S2097152x3 .f32 :=
  Host.scatterAdd scatter_S2097152x3_S8000000x1_S8000000x3_1_0_0_1
    (broadcastInDim S2097152x3 ![] bcast_S_S2097152x3 (constant S_ .f32 0x00000000#32))
    (broadcastInDim S8000000x1 ![0] bcast_S8000000_S8000000x1_0 (rIdx a0))
    (rMomU a0 a1 a2)

/-- The result: the mass column followed by the three momentum columns. -/
def rOut (a0 a1 : FVec F S1000000x3 .f32) (a2 : FVec F S1000000 .f32) : FVec F S2097152x4 .f32 :=
  concatenate S2097152x4 1
    [⟨S2097152x1, broadcastInDim S2097152x1 ![0] bcast_S2097152_S2097152x1_0 (rMass a0 a2)⟩,
     ⟨S2097152x3, rMom a0 a1 a2⟩]
    concatenates_S2097152x1_S2097152x3_S2097152x4_d1

end Cert.ReferenceIdeal.Term

end
-- ==== Proof.Ref.Run.lean ====
/-
  The reference program's @main as one list of its host operations, the three module-local functions'
  operations written at their call sites over each call's own buffers, and its run read back: every weakly
  fair execution terminates with the result buffer at the operations' composed term of the arguments' launch
  contents, the arguments unchanged.
-/
import proofs.«111574_j40132174414020_1_alg».proof.Proof.Gen.ReferenceIdeal
import Idealize.ShloMosaic.Lib.StableHlo.Run
import proofs.«111574_j40132174414020_1_alg».proof.Proof.Ref.Term

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 128 operations in execution order: its own 115, and at the three calls the callee's operations over
    the call's buffers (the select-or-zero on the weights: 3; the same on the three-column gradient array: 4;
    the clip of the cell numbers into range: 6). -/
abbrev ops : List (HloOp τ sig (Elt F)) :=
  [ nullary main_cst (constant S3 .f32 0x00000000#32),
    nullary main_c (fun i => lit0 (S8x3.rowMajor i)),
    unary main_cst main_v0 (broadcastInDim S1x3 ![1] bcast_S3_S1x3_1 : (⟨S3, .f32⟩ : BufTy).Contents (Elt F) → (⟨S1x3, .f32⟩ : BufTy).Contents (Elt F)),
    unary main_v0 main_v1 (broadcastInDim S1000000x3 ![0, 1] bcast_S1x3_S1000000x3_0_1 : (⟨S1x3, .f32⟩ : BufTy).Contents (Elt F) → (⟨S1000000x3, .f32⟩ : BufTy).Contents (Elt F)),
    binary main_arg0 main_v1 main_v2 (subf : (⟨S1000000x3, .f32⟩ : BufTy).Contents (Elt F) → (⟨S1000000x3, .f32⟩ : BufTy).Contents (Elt F) → (⟨S1000000x3, .f32⟩ : BufTy).Contents (Elt F)),
    nullary main_cst_0 (constant S_ .f32 0x42800000#32),
    unary main_cst_0 main_v3 (broadcastInDim S1000000x3 ![] bcast_S_S1000000x3 : (⟨S_, .f32⟩ : BufTy).Contents (Elt F) → (⟨S1000000x3, .f32⟩ : BufTy).Contents (Elt F)),
    binary main_v2 main_v3 main_v4 (mulf : (⟨S1000000x3, .f32⟩ : BufTy).Contents (Elt F) → (⟨S1000000x3, .f32⟩ : BufTy).Contents (Elt F) → (⟨S1000000x3, .f32⟩ : BufTy).Contents (Elt F)),
    unary main_v4 main_v5 (Host.floor : (⟨S1000000x3, .f32⟩ : BufTy).Contents (Elt F) → (⟨S1000000x3, .f32⟩ : BufTy).Contents (Elt F)),
    unary main_v5 main_v6 (broadcastInDim S1000000x1x3 ![0, 2] bcast_S1000000x3_S1000000x1x3_0_2 : (⟨S1000000x3, .f32⟩ : BufTy).Contents (Elt F) → (⟨S1000000x1x3, .f32⟩ : BufTy).Contents (Elt F)),
    unary main_c main_v7 (broadcastInDim S1x8x3 ![1, 2] bcast_S8x3_S1x8x3_1_2 : (⟨S8x3, .i32⟩ : BufTy).Contents (Elt F) → (⟨S1x8x3, .i32⟩ : BufTy).Contents (Elt F)),
    unary main_v7 main_v8 (sitofp .f32 : (⟨S1x8x3, .i32⟩ : BufTy).Contents (Elt F) → (⟨S1x8x3, .f32⟩ : BufTy).Contents (Elt F)),
    unary main_v6 main_v9 (broadcastInDim S1000000x8x3 ![0, 1, 2] bcast_S1000000x1x3_S1000000x8x3_0_1_2 : (⟨S1000000x1x3, .f32⟩ : BufTy).Contents (Elt F) → (⟨S1000000x8x3, .f32⟩ : BufTy).Contents (Elt F)),
    unary main_v8 main_v10 (broadcastInDim S1000000x8x3 ![0, 1, 2] bcast_S1x8x3_S1000000x8x3_0_1_2 : (⟨S1x8x3, .f32⟩ : BufTy).Contents (Elt F) → (⟨S1000000x8x3, .f32⟩ : BufTy).Contents (Elt F)),
    binary main_v9 main_v10 main_v11 (addf : (⟨S1000000x8x3, .f32⟩ : BufTy).Contents (Elt F) → (⟨S1000000x8x3, .f32⟩ : BufTy).Contents (Elt F) → (⟨S1000000x8x3, .f32⟩ : BufTy).Contents (Elt F)),
    unary main_v4 main_v12 (broadcastInDim S1000000x1x3 ![0, 2] bcast_S1000000x3_S1000000x1x3_0_2 : (⟨S1000000x3, .f32⟩ : BufTy).Contents (Elt F) → (⟨S1000000x1x3, .f32⟩ : BufTy).Contents (Elt F)),
    unary main_v12 main_v13 (broadcastInDim S1000000x8x3 ![0, 1, 2] bcast_S1000000x1x3_S1000000x8x3_0_1_2 : (⟨S1000000x1x3, .f32⟩ : BufTy).Contents (Elt F) → (⟨S1000000x8x3, .f32⟩ : BufTy).Contents (Elt F)),
    binary main_v13 main_v11 main_v14 (subf : (⟨S1000000x8x3, .f32⟩ : BufTy).Contents (Elt F) → (⟨S1000000x8x3, .f32⟩ : BufTy).Contents (Elt F) → (⟨S1000000x8x3, .f32⟩ : BufTy).Contents (Elt F)),
    unary main_v11 main_v15 (fptosi 32 : (⟨S1000000x8x3, .f32⟩ : BufTy).Contents (Elt F) → (⟨S1000000x8x3, .i32⟩ : BufTy).Contents (Elt F)),
    unary main_v15 main_v16 ((extractStridedSlice S1000000x8x1 ![0, 0, 2] · slices_S1000000x8x3_S1000000x8x1_0_0_2) : (⟨S1000000x8x3, .i32⟩ : BufTy).Contents (Elt F) → (⟨S1000000x8x1, .i32⟩ : BufTy).Contents (Elt F)),
    reshape main_v16 main_v17 rfl shapeCasts_S1000000x8x1_S1000000x8,
    unary main_v15 main_v18 ((extractStridedSlice S1000000x8x1 ![0, 0, 0] · slices_S1000000x8x3_S1000000x8x1_0_0_0) : (⟨S1000000x8x3, .i32⟩ : BufTy).Contents (Elt F) → (⟨S1000000x8x1, .i32⟩ : BufTy).Contents (Elt F)),
    reshape main_v18 main_v19 rfl shapeCasts_S1000000x8x1_S1000000x8,
    nullary main_c_1 (constantI S_ 32 128#32),
    unary main_c_1 main_v20 (broadcastInDim S1000000x8 ![] bcast_S_S1000000x8 : (⟨S_, .i32⟩ : BufTy).Contents (Elt F) → (⟨S1000000x8, .i32⟩ : BufTy).Contents (Elt F)),
    binary main_v19 main_v20 main_v21 (muli : (⟨S1000000x8, .i32⟩ : BufTy).Contents (Elt F) → (⟨S1000000x8, .i32⟩ : BufTy).Contents (Elt F) → (⟨S1000000x8, .i32⟩ : BufTy).Contents (Elt F)),
    binary main_v17 main_v21 main_v22 (addi : (⟨S1000000x8, .i32⟩ : BufTy).Contents (Elt F) → (⟨S1000000x8, .i32⟩ : BufTy).Contents (Elt F) → (⟨S1000000x8, .i32⟩ : BufTy).Contents (Elt F)),
    unary main_v15 main_v23 ((extractStridedSlice S1000000x8x1 ![0, 0, 1] · slices_S1000000x8x3_S1000000x8x1_0_0_1) : (⟨S1000000x8x3, .i32⟩ : BufTy).Contents (Elt F) → (⟨S1000000x8x1, .i32⟩ : BufTy).Contents (Elt F)),
    reshape main_v23 main_v24 rfl shapeCasts_S1000000x8x1_S1000000x8,
    nullary main_c_2 (constantI S_ 32 16384#32),
    unary main_c_2 main_v25 (broadcastInDim S1000000x8 ![] bcast_S_S1000000x8 : (⟨S_, .i32⟩ : BufTy).Contents (Elt F) → (⟨S1000000x8, .i32⟩ : BufTy).Contents (Elt F)),
    binary main_v24 main_v25 main_v26 (muli : (⟨S1000000x8, .i32⟩ : BufTy).Contents (Elt F) → (⟨S1000000x8, .i32⟩ : BufTy).Contents (Elt F) → (⟨S1000000x8, .i32⟩ : BufTy).Contents (Elt F)),
    binary main_v22 main_v26 main_v27 (addi : (⟨S1000000x8, .i32⟩ : BufTy).Contents (Elt F) → (⟨S1000000x8, .i32⟩ : BufTy).Contents (Elt F) → (⟨S1000000x8, .i32⟩ : BufTy).Contents (Elt F)),
    unary main_v14 main_v28 (Host.absf : (⟨S1000000x8x3, .f32⟩ : BufTy).Contents (Elt F) → (⟨S1000000x8x3, .f32⟩ : BufTy).Contents (Elt F)),
    nullary main_cst_3 (constant S_ .f32 0x3F800000#32),
    unary main_cst_3 main_v29 (broadcastInDim S1000000x8x3 ![] bcast_S_S1000000x8x3 : (⟨S_, .f32⟩ : BufTy).Contents (Elt F) → (⟨S1000000x8x3, .f32⟩ : BufTy).Contents (Elt F)),
    binary main_v29 main_v28 main_v30 (subf : (⟨S1000000x8x3, .f32⟩ : BufTy).Contents (Elt F) → (⟨S1000000x8x3, .f32⟩ : BufTy).Contents (Elt F) → (⟨S1000000x8x3, .f32⟩ : BufTy).Contents (Elt F)),
    unary main_v30 main_v31 ((extractStridedSlice S1000000x8x1 ![0, 0, 0] · slices_S1000000x8x3_S1000000x8x1_0_0_0) : (⟨S1000000x8x3, .f32⟩ : BufTy).Contents (Elt F) → (⟨S1000000x8x1, .f32⟩ : BufTy).Contents (Elt F)),
    reshape main_v31 main_v32 rfl shapeCasts_S1000000x8x1_S1000000x8,
    unary main_v30 main_v33 ((extractStridedSlice S1000000x8x1 ![0, 0, 1] · slices_S1000000x8x3_S1000000x8x1_0_0_1) : (⟨S1000000x8x3, .f32⟩ : BufTy).Contents (Elt F) → (⟨S1000000x8x1, .f32⟩ : BufTy).Contents (Elt F)),
    reshape main_v33 main_v34 rfl shapeCasts_S1000000x8x1_S1000000x8,
    binary main_v32 main_v34 main_v35 (mulf : (⟨S1000000x8, .f32⟩ : BufTy).Contents (Elt F) → (⟨S1000000x8, .f32⟩ : BufTy).Contents (Elt F) → (⟨S1000000x8, .f32⟩ : BufTy).Contents (Elt F)),
    unary main_v30 main_v36 ((extractStridedSlice S1000000x8x1 ![0, 0, 2] · slices_S1000000x8x3_S1000000x8x1_0_0_2) : (⟨S1000000x8x3, .f32⟩ : BufTy).Contents (Elt F) → (⟨S1000000x8x1, .f32⟩ : BufTy).Contents (Elt F)),
    reshape main_v36 main_v37 rfl shapeCasts_S1000000x8x1_S1000000x8,
    binary main_v35 main_v37 main_v38 (mulf : (⟨S1000000x8, .f32⟩ : BufTy).Contents (Elt F) → (⟨S1000000x8, .f32⟩ : BufTy).Contents (Elt F) → (⟨S1000000x8, .f32⟩ : BufTy).Contents (Elt F)),
    nullary main_c_4 (constantI S_ 32 0#32),
    unary main_c_4 main_v39 (broadcastInDim S1000000x8 ![] bcast_S_S1000000x8 : (⟨S_, .i32⟩ : BufTy).Contents (Elt F) → (⟨S1000000x8, .i32⟩ : BufTy).Contents (Elt F)),
    binary main_v27 main_v39 main_v40 (cmpi .sge : (⟨S1000000x8, .i32⟩ : BufTy).Contents (Elt F) → (⟨S1000000x8, .i32⟩ : BufTy).Contents (Elt F) → (⟨S1000000x8, .i1⟩ : BufTy).Contents (Elt F)),
    nullary main_c_5 (constantI S_ 32 2097152#32),
    unary main_c_5 main_v41 (broadcastInDim S1000000x8 ![] bcast_S_S1000000x8 : (⟨S_, .i32⟩ : BufTy).Contents (Elt F) → (⟨S1000000x8, .i32⟩ : BufTy).Contents (Elt F)),
    binary main_v27 main_v41 main_v42 (cmpi .slt : (⟨S1000000x8, .i32⟩ : BufTy).Contents (Elt F) → (⟨S1000000x8, .i32⟩ : BufTy).Contents (Elt F) → (⟨S1000000x8, .i1⟩ : BufTy).Contents (Elt F)),
    binary main_v40 main_v42 main_v43 (andi : (⟨S1000000x8, .i1⟩ : BufTy).Contents (Elt F) → (⟨S1000000x8, .i1⟩ : BufTy).Contents (Elt F) → (⟨S1000000x8, .i1⟩ : BufTy).Contents (Elt F)),
    nullary main_cst_6 (constant S_ .f32 0x00000000#32),
    TRef.unary (.of main_cst_6) main_call0.v0 id,
    TRef.unary main_call0.v0 main_call0.v1 (broadcastInDim S1000000x8 ![] bcast_S_S1000000x8),
    TRef.ternary (.of main_v43) (.of main_v38) main_call0.v1 main_call0.v2 select,
    unary main_v14 main_v45 ((extractStridedSlice S1000000x8x1 ![0, 0, 0] · slices_S1000000x8x3_S1000000x8x1_0_0_0) : (⟨S1000000x8x3, .f32⟩ : BufTy).Contents (Elt F) → (⟨S1000000x8x1, .f32⟩ : BufTy).Contents (Elt F)),
    reshape main_v45 main_v46 rfl shapeCasts_S1000000x8x1_S1000000x8,
    unary main_v46 main_v47 (Host.sign : (⟨S1000000x8, .f32⟩ : BufTy).Contents (Elt F) → (⟨S1000000x8, .f32⟩ : BufTy).Contents (Elt F)),
    unary main_v47 main_v48 (Host.negf : (⟨S1000000x8, .f32⟩ : BufTy).Contents (Elt F) → (⟨S1000000x8, .f32⟩ : BufTy).Contents (Elt F)),
    unary main_v30 main_v49 ((extractStridedSlice S1000000x8x1 ![0, 0, 1] · slices_S1000000x8x3_S1000000x8x1_0_0_1) : (⟨S1000000x8x3, .f32⟩ : BufTy).Contents (Elt F) → (⟨S1000000x8x1, .f32⟩ : BufTy).Contents (Elt F)),
    reshape main_v49 main_v50 rfl shapeCasts_S1000000x8x1_S1000000x8,
    binary main_v48 main_v50 main_v51 (mulf : (⟨S1000000x8, .f32⟩ : BufTy).Contents (Elt F) → (⟨S1000000x8, .f32⟩ : BufTy).Contents (Elt F) → (⟨S1000000x8, .f32⟩ : BufTy).Contents (Elt F)),
    unary main_v30 main_v52 ((extractStridedSlice S1000000x8x1 ![0, 0, 2] · slices_S1000000x8x3_S1000000x8x1_0_0_2) : (⟨S1000000x8x3, .f32⟩ : BufTy).Contents (Elt F) → (⟨S1000000x8x1, .f32⟩ : BufTy).Contents (Elt F)),
    reshape main_v52 main_v53 rfl shapeCasts_S1000000x8x1_S1000000x8,
    binary main_v51 main_v53 main_v54 (mulf : (⟨S1000000x8, .f32⟩ : BufTy).Contents (Elt F) → (⟨S1000000x8, .f32⟩ : BufTy).Contents (Elt F) → (⟨S1000000x8, .f32⟩ : BufTy).Contents (Elt F)),
    unary main_v14 main_v55 ((extractStridedSlice S1000000x8x1 ![0, 0, 1] · slices_S1000000x8x3_S1000000x8x1_0_0_1) : (⟨S1000000x8x3, .f32⟩ : BufTy).Contents (Elt F) → (⟨S1000000x8x1, .f32⟩ : BufTy).Contents (Elt F)),
    reshape main_v55 main_v56 rfl shapeCasts_S1000000x8x1_S1000000x8,
    unary main_v56 main_v57 (Host.sign : (⟨S1000000x8, .f32⟩ : BufTy).Contents (Elt F) → (⟨S1000000x8, .f32⟩ : BufTy).Contents (Elt F)),
    unary main_v57 main_v58 (Host.negf : (⟨S1000000x8, .f32⟩ : BufTy).Contents (Elt F) → (⟨S1000000x8, .f32⟩ : BufTy).Contents (Elt F)),
    unary main_v30 main_v59 ((extractStridedSlice S1000000x8x1 ![0, 0, 0] · slices_S1000000x8x3_S1000000x8x1_0_0_0) : (⟨S1000000x8x3, .f32⟩ : BufTy).Contents (Elt F) → (⟨S1000000x8x1, .f32⟩ : BufTy).Contents (Elt F)),
    reshape main_v59 main_v60 rfl shapeCasts_S1000000x8x1_S1000000x8,
    binary main_v58 main_v60 main_v61 (mulf : (⟨S1000000x8, .f32⟩ : BufTy).Contents (Elt F) → (⟨S1000000x8, .f32⟩ : BufTy).Contents (Elt F) → (⟨S1000000x8, .f32⟩ : BufTy).Contents (Elt F)),
    unary main_v30 main_v62 ((extractStridedSlice S1000000x8x1 ![0, 0, 2] · slices_S1000000x8x3_S1000000x8x1_0_0_2) : (⟨S1000000x8x3, .f32⟩ : BufTy).Contents (Elt F) → (⟨S1000000x8x1, .f32⟩ : BufTy).Contents (Elt F)),
    reshape main_v62 main_v63 rfl shapeCasts_S1000000x8x1_S1000000x8,
    binary main_v61 main_v63 main_v64 (mulf : (⟨S1000000x8, .f32⟩ : BufTy).Contents (Elt F) → (⟨S1000000x8, .f32⟩ : BufTy).Contents (Elt F) → (⟨S1000000x8, .f32⟩ : BufTy).Contents (Elt F)),
    unary main_v14 main_v65 ((extractStridedSlice S1000000x8x1 ![0, 0, 2] · slices_S1000000x8x3_S1000000x8x1_0_0_2) : (⟨S1000000x8x3, .f32⟩ : BufTy).Contents (Elt F) → (⟨S1000000x8x1, .f32⟩ : BufTy).Contents (Elt F)),
    reshape main_v65 main_v66 rfl shapeCasts_S1000000x8x1_S1000000x8,
    unary main_v66 main_v67 (Host.sign : (⟨S1000000x8, .f32⟩ : BufTy).Contents (Elt F) → (⟨S1000000x8, .f32⟩ : BufTy).Contents (Elt F)),
    unary main_v67 main_v68 (Host.negf : (⟨S1000000x8, .f32⟩ : BufTy).Contents (Elt F) → (⟨S1000000x8, .f32⟩ : BufTy).Contents (Elt F)),
    unary main_v30 main_v69 ((extractStridedSlice S1000000x8x1 ![0, 0, 0] · slices_S1000000x8x3_S1000000x8x1_0_0_0) : (⟨S1000000x8x3, .f32⟩ : BufTy).Contents (Elt F) → (⟨S1000000x8x1, .f32⟩ : BufTy).Contents (Elt F)),
    reshape main_v69 main_v70 rfl shapeCasts_S1000000x8x1_S1000000x8,
    binary main_v68 main_v70 main_v71 (mulf : (⟨S1000000x8, .f32⟩ : BufTy).Contents (Elt F) → (⟨S1000000x8, .f32⟩ : BufTy).Contents (Elt F) → (⟨S1000000x8, .f32⟩ : BufTy).Contents (Elt F)),
    unary main_v30 main_v72 ((extractStridedSlice S1000000x8x1 ![0, 0, 1] · slices_S1000000x8x3_S1000000x8x1_0_0_1) : (⟨S1000000x8x3, .f32⟩ : BufTy).Contents (Elt F) → (⟨S1000000x8x1, .f32⟩ : BufTy).Contents (Elt F)),
    reshape main_v72 main_v73 rfl shapeCasts_S1000000x8x1_S1000000x8,
    binary main_v71 main_v73 main_v74 (mulf : (⟨S1000000x8, .f32⟩ : BufTy).Contents (Elt F) → (⟨S1000000x8, .f32⟩ : BufTy).Contents (Elt F) → (⟨S1000000x8, .f32⟩ : BufTy).Contents (Elt F)),
    unary main_v54 main_v75 (broadcastInDim S1000000x8x1 ![0, 1] bcast_S1000000x8_S1000000x8x1_0_1 : (⟨S1000000x8, .f32⟩ : BufTy).Contents (Elt F) → (⟨S1000000x8x1, .f32⟩ : BufTy).Contents (Elt F)),
    unary main_v64 main_v76 (broadcastInDim S1000000x8x1 ![0, 1] bcast_S1000000x8_S1000000x8x1_0_1 : (⟨S1000000x8, .f32⟩ : BufTy).Contents (Elt F) → (⟨S1000000x8x1, .f32⟩ : BufTy).Contents (Elt F)),
    unary main_v74 main_v77 (broadcastInDim S1000000x8x1 ![0, 1] bcast_S1000000x8_S1000000x8x1_0_1 : (⟨S1000000x8, .f32⟩ : BufTy).Contents (Elt F) → (⟨S1000000x8x1, .f32⟩ : BufTy).Contents (Elt F)),
    nary ![main_v75, main_v76, main_v77] main_v78 (fun u => concatenate S1000000x8x3 2 [⟨S1000000x8x1, u 0⟩, ⟨S1000000x8x1, u 1⟩, ⟨S1000000x8x1, u 2⟩] concatenates_S1000000x8x1_S1000000x8x1_S1000000x8x1_S1000000x8x3_d2),
    nullary main_cst_7 (constant S_ .f32 0x42800000#32),
    unary main_cst_7 main_v79 (broadcastInDim S1000000x8x3 ![] bcast_S_S1000000x8x3 : (⟨S_, .f32⟩ : BufTy).Contents (Elt F) → (⟨S1000000x8x3, .f32⟩ : BufTy).Contents (Elt F)),
    binary main_v78 main_v79 main_v80 (mulf : (⟨S1000000x8x3, .f32⟩ : BufTy).Contents (Elt F) → (⟨S1000000x8x3, .f32⟩ : BufTy).Contents (Elt F) → (⟨S1000000x8x3, .f32⟩ : BufTy).Contents (Elt F)),
    unary main_v43 main_v81 (broadcastInDim S1000000x8x1 ![0, 1] bcast_S1000000x8_S1000000x8x1_0_1 : (⟨S1000000x8, .i1⟩ : BufTy).Contents (Elt F) → (⟨S1000000x8x1, .i1⟩ : BufTy).Contents (Elt F)),
    nullary main_cst_8 (constant S_ .f32 0x00000000#32),
    TRef.unary (.of main_cst_8) main_call1.v0 id,
    TRef.unary (.of main_v81 : TRef sig ⟨S1000000x8x1, .i1⟩) main_call1.v1 (broadcastInDim S1000000x8x3 ![0, 1, 2] bcast_S1000000x8x1_S1000000x8x3_0_1_2),
    TRef.unary main_call1.v0 main_call1.v2 (broadcastInDim S1000000x8x3 ![] bcast_S_S1000000x8x3),
    TRef.ternary main_call1.v1 (.of main_v80) main_call1.v2 main_call1.v3 select,
    nullary main_c_9 (constantI S_ 32 0#32),
    nullary main_c_10 (constantI S_ 32 2097151#32),
    TRef.unary (.of main_c_9) main_call2.v0 id,
    TRef.unary main_call2.v0 main_call2.v1 (broadcastInDim S1000000x8 ![] bcast_S_S1000000x8),
    TRef.binary main_call2.v1 (.of main_v27) main_call2.v2 maxsi,
    TRef.unary (.of main_c_10) main_call2.v3 id,
    TRef.unary main_call2.v3 main_call2.v4 (broadcastInDim S1000000x8 ![] bcast_S_S1000000x8),
    TRef.binary main_call2.v4 main_call2.v2 main_call2.v5 minsi,
    reshape main_v83 main_v84 rfl shapeCasts_S1000000x8_S8000000,
    unary main_arg2 main_v85 (broadcastInDim S1000000x1 ![0] bcast_S1000000_S1000000x1_0 : (⟨S1000000, .f32⟩ : BufTy).Contents (Elt F) → (⟨S1000000x1, .f32⟩ : BufTy).Contents (Elt F)),
    unary main_v85 main_v86 (broadcastInDim S1000000x8 ![0, 1] bcast_S1000000x1_S1000000x8_0_1 : (⟨S1000000x1, .f32⟩ : BufTy).Contents (Elt F) → (⟨S1000000x8, .f32⟩ : BufTy).Contents (Elt F)),
    binary main_v44 main_v86 main_v87 (mulf : (⟨S1000000x8, .f32⟩ : BufTy).Contents (Elt F) → (⟨S1000000x8, .f32⟩ : BufTy).Contents (Elt F) → (⟨S1000000x8, .f32⟩ : BufTy).Contents (Elt F)),
    reshape main_v87 main_v88 rfl shapeCasts_S1000000x8_S8000000,
    nullary main_cst_11 (constant S_ .f32 0x00000000#32),
    unary main_cst_11 main_v89 (broadcastInDim S2097152 ![] bcast_S_S2097152 : (⟨S_, .f32⟩ : BufTy).Contents (Elt F) → (⟨S2097152, .f32⟩ : BufTy).Contents (Elt F)),
    unary main_v84 main_v90 (broadcastInDim S8000000x1 ![0] bcast_S8000000_S8000000x1_0 : (⟨S8000000, .i32⟩ : BufTy).Contents (Elt F) → (⟨S8000000x1, .i32⟩ : BufTy).Contents (Elt F)),
    ternary main_v89 main_v90 main_v88 main_v91 ((fun x i u => Host.scatterAdd scatter_S2097152_S8000000x1_S8000000_n_0_0_1 x i u) : (⟨S2097152, .f32⟩ : BufTy).Contents (Elt F) → (⟨S8000000x1, .i32⟩ : BufTy).Contents (Elt F) → (⟨S8000000, .f32⟩ : BufTy).Contents (Elt F) → (⟨S2097152, .f32⟩ : BufTy).Contents (Elt F)),
    unary main_v87 main_v92 (broadcastInDim S1000000x8x1 ![0, 1] bcast_S1000000x8_S1000000x8x1_0_1 : (⟨S1000000x8, .f32⟩ : BufTy).Contents (Elt F) → (⟨S1000000x8x1, .f32⟩ : BufTy).Contents (Elt F)),
    unary main_arg1 main_v93 (broadcastInDim S1000000x1x3 ![0, 2] bcast_S1000000x3_S1000000x1x3_0_2 : (⟨S1000000x3, .f32⟩ : BufTy).Contents (Elt F) → (⟨S1000000x1x3, .f32⟩ : BufTy).Contents (Elt F)),
    unary main_v92 main_v94 (broadcastInDim S1000000x8x3 ![0, 1, 2] bcast_S1000000x8x1_S1000000x8x3_0_1_2 : (⟨S1000000x8x1, .f32⟩ : BufTy).Contents (Elt F) → (⟨S1000000x8x3, .f32⟩ : BufTy).Contents (Elt F)),
    unary main_v93 main_v95 (broadcastInDim S1000000x8x3 ![0, 1, 2] bcast_S1000000x1x3_S1000000x8x3_0_1_2 : (⟨S1000000x1x3, .f32⟩ : BufTy).Contents (Elt F) → (⟨S1000000x8x3, .f32⟩ : BufTy).Contents (Elt F)),
    binary main_v94 main_v95 main_v96 (mulf : (⟨S1000000x8x3, .f32⟩ : BufTy).Contents (Elt F) → (⟨S1000000x8x3, .f32⟩ : BufTy).Contents (Elt F) → (⟨S1000000x8x3, .f32⟩ : BufTy).Contents (Elt F)),
    reshape main_v96 main_v97 rfl shapeCasts_S1000000x8x3_S8000000x3,
    nullary main_cst_12 (constant S_ .f32 0x00000000#32),
    unary main_cst_12 main_v98 (broadcastInDim S2097152x3 ![] bcast_S_S2097152x3 : (⟨S_, .f32⟩ : BufTy).Contents (Elt F) → (⟨S2097152x3, .f32⟩ : BufTy).Contents (Elt F)),
    unary main_v84 main_v99 (broadcastInDim S8000000x1 ![0] bcast_S8000000_S8000000x1_0 : (⟨S8000000, .i32⟩ : BufTy).Contents (Elt F) → (⟨S8000000x1, .i32⟩ : BufTy).Contents (Elt F)),
    ternary main_v98 main_v99 main_v97 main_v100 ((fun x i u => Host.scatterAdd scatter_S2097152x3_S8000000x1_S8000000x3_1_0_0_1 x i u) : (⟨S2097152x3, .f32⟩ : BufTy).Contents (Elt F) → (⟨S8000000x1, .i32⟩ : BufTy).Contents (Elt F) → (⟨S8000000x3, .f32⟩ : BufTy).Contents (Elt F) → (⟨S2097152x3, .f32⟩ : BufTy).Contents (Elt F)),
    unary main_v91 main_v101 (broadcastInDim S2097152x1 ![0] bcast_S2097152_S2097152x1_0 : (⟨S2097152, .f32⟩ : BufTy).Contents (Elt F) → (⟨S2097152x1, .f32⟩ : BufTy).Contents (Elt F)),
    binary main_v101 main_v100 main_v102 ((fun a b => concatenate S2097152x4 1 [⟨S2097152x1, a⟩, ⟨S2097152x3, b⟩] concatenates_S2097152x1_S2097152x3_S2097152x4_d1) : (⟨S2097152x1, .f32⟩ : BufTy).Contents (Elt F) → (⟨S2097152x3, .f32⟩ : BufTy).Contents (Elt F) → (⟨S2097152x4, .f32⟩ : BufTy).Contents (Elt F)) ]

set_option maxRecDepth 4096 in
set_option maxHeartbeats 4000000 in
/-- @main is that straight line: the two windows and the functions' bodies unfolded at their calls, both sides are
    one chain of steps once sequencing is reassociated. -/
theorem main_eq (c : Dev nD) : main (F := F) c = seq ops := by
  simp only [main, main_part0, main_part1, fn_where.body, fn_where_0.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., binary_bufs_sub .., nullary_bufs_sub ..,
    unary_bufs_sub .., binary_bufs_sub .., unary_bufs_sub .., unary_bufs_sub .., unary_bufs_sub .., unary_bufs_sub ..,
    unary_bufs_sub .., unary_bufs_sub .., binary_bufs_sub .., unary_bufs_sub .., unary_bufs_sub .., binary_bufs_sub ..,
    unary_bufs_sub .., unary_bufs_sub .., reshape_bufs_sub .., unary_bufs_sub .., reshape_bufs_sub .., nullary_bufs_sub ..,
    unary_bufs_sub .., binary_bufs_sub .., binary_bufs_sub .., unary_bufs_sub .., reshape_bufs_sub .., nullary_bufs_sub ..,
    unary_bufs_sub .., binary_bufs_sub .., binary_bufs_sub .., unary_bufs_sub .., nullary_bufs_sub .., unary_bufs_sub ..,
    binary_bufs_sub .., unary_bufs_sub .., reshape_bufs_sub .., unary_bufs_sub .., reshape_bufs_sub .., binary_bufs_sub ..,
    unary_bufs_sub .., reshape_bufs_sub .., binary_bufs_sub .., nullary_bufs_sub .., unary_bufs_sub .., binary_bufs_sub ..,
    nullary_bufs_sub .., unary_bufs_sub .., binary_bufs_sub .., binary_bufs_sub .., nullary_bufs_sub .., unary_bufs_sub ..,
    unary_bufs_sub .., ternary_bufs_sub .., unary_bufs_sub .., reshape_bufs_sub .., unary_bufs_sub .., unary_bufs_sub ..,
    unary_bufs_sub .., reshape_bufs_sub .., binary_bufs_sub .., unary_bufs_sub .., reshape_bufs_sub .., binary_bufs_sub ..,
    unary_bufs_sub .., reshape_bufs_sub .., unary_bufs_sub .., unary_bufs_sub .., unary_bufs_sub .., reshape_bufs_sub ..,
    binary_bufs_sub .., unary_bufs_sub .., reshape_bufs_sub .., binary_bufs_sub .., unary_bufs_sub .., reshape_bufs_sub ..,
    unary_bufs_sub .., unary_bufs_sub .., unary_bufs_sub .., reshape_bufs_sub .., binary_bufs_sub .., unary_bufs_sub ..,
    reshape_bufs_sub .., binary_bufs_sub .., unary_bufs_sub .., unary_bufs_sub .., unary_bufs_sub .., nary_bufs_sub ..,
    nullary_bufs_sub .., unary_bufs_sub .., binary_bufs_sub .., unary_bufs_sub .., nullary_bufs_sub .., unary_bufs_sub ..,
    unary_bufs_sub .., unary_bufs_sub .., ternary_bufs_sub .., nullary_bufs_sub .., nullary_bufs_sub .., unary_bufs_sub ..,
    unary_bufs_sub .., binary_bufs_sub .., unary_bufs_sub .., unary_bufs_sub .., binary_bufs_sub .., reshape_bufs_sub ..,
    unary_bufs_sub .., unary_bufs_sub .., binary_bufs_sub .., reshape_bufs_sub .., nullary_bufs_sub .., unary_bufs_sub ..,
    unary_bufs_sub .., ternary_bufs_sub .., unary_bufs_sub .., unary_bufs_sub .., unary_bufs_sub .., unary_bufs_sub ..,
    binary_bufs_sub .., reshape_bufs_sub .., nullary_bufs_sub .., unary_bufs_sub .., unary_bufs_sub .., ternary_bufs_sub ..,
    unary_bufs_sub .., binary_bufs_sub ..⟩

/-- At the compiled mesh, for any float values, from any memory with zero counters: every weakly fair execution of
    @main on the TensorCores terminates, and every final state has each TensorCore buffer at the operations' fold
    over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! No operation writes an argument: each of the 128 writes one buffer, and it is never an argument's. -/

theorem arg0_keep (V : Valuation τ sig (Elt F)) :
    after ops V (main_arg0 : DevRef τ sig) = V (main_arg0 : DevRef τ sig) :=
  after_of_forall_not_mem (b := Proc.devRef .tc main_arg0) _ _ (List.forall_iff_forall_mem.mp (by
    simp only [List.Forall, nullary_writes, unary_writes, binary_writes, ternary_writes, reshape_writes, nary_writes,
      Finset.mem_singleton]
    repeat' apply And.intro
    all_goals exact devRef_ne_of_ne (by decide)))

theorem arg1_keep (V : Valuation τ sig (Elt F)) :
    after ops V (main_arg1 : DevRef τ sig) = V (main_arg1 : DevRef τ sig) :=
  after_of_forall_not_mem (b := Proc.devRef .tc main_arg1) _ _ (List.forall_iff_forall_mem.mp (by
    simp only [List.Forall, nullary_writes, unary_writes, binary_writes, ternary_writes, reshape_writes, nary_writes,
      Finset.mem_singleton]
    repeat' apply And.intro
    all_goals exact devRef_ne_of_ne (by decide)))

theorem arg2_keep (V : Valuation τ sig (Elt F)) :
    after ops V (main_arg2 : DevRef τ sig) = V (main_arg2 : DevRef τ sig) :=
  after_of_forall_not_mem (b := Proc.devRef .tc main_arg2) _ _ (List.forall_iff_forall_mem.mp (by
    simp only [List.Forall, nullary_writes, unary_writes, binary_writes, ternary_writes, reshape_writes, nary_writes,
      Finset.mem_singleton]
    repeat' apply And.intro
    all_goals exact devRef_ne_of_ne (by decide)))

set_option maxRecDepth 8192 in
set_option maxHeartbeats 4000000 in
/-- The fold at the result buffer is the staged term of the three arguments: each operation's result read at its
    own buffer is its function's value, at any other buffer what was there before; the live operations compose to
    the staged definitions in the same order, and the three sign chains never reach the result buffer. -/
theorem out_eq (V : Valuation τ sig (Elt F)) :
    after ops V (main_v102 : DevRef τ sig)
      = Cert.ReferenceIdeal.Term.rOut (V (main_arg0 : DevRef τ sig)) (V (main_arg1 : DevRef τ sig)) (V (main_arg2 : DevRef τ sig)) := by
  after_results_simp
  rfl

/-- On every device, for any float values, from any memory with zero counters: every weakly fair execution of
    @main terminates with the result buffer at the staged term of the arguments' launch contents and the three
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v102)
          = Cert.ReferenceIdeal.Term.rOut (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v102).trans (out_eq (launchContents m c)),
      (h c main_arg0).trans (arg0_keep (launchContents m c)),
      (h c main_arg1).trans (arg1_keep (launchContents m c)),
      (h c main_arg2).trans (arg2_keep (launchContents m c))⟩)
    (run_fold m ρ)

end Cert.ReferenceIdeal.Hand

end
-- ==== Proof.Ref.ValueStages.lean ====
/-
  The reference program's stages read at one index over explicit coordinates (particle p, corner k, axis a).
  The layout operations (repeating an array along a new or unit axis, taking one column, viewing an array under another shape
  with the same row-major order) each read one entry of their operand; the elementwise operations then give the scalar
  functions of the specification: scaled position, corner coordinate, distance, weight, cell number, range test, clipped
  cell number, mass share and momentum share, the pair (p, k) sitting at row-major position 8·p + k of the flattened arrays.
-/
import proofs.«111574_j40132174414020_1_alg».proof.Proof.Ref.Term
import proofs.«111574_j40132174414020_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Idealize.ShloMosaic Idealize.ShloMosaic.ValueIdx

section Layout
variable {α : Type}

/-- [A,C] placed on axes 0 and 2 of [A,1,C]. -/
theorem bc_02 {A C : Nat} (h : (⟨2, ![A, C]⟩ : Shape).BroadcastsInDim ⟨3, ![A, 1, C]⟩ ![0, 2])
    (x : (⟨2, ![A, C]⟩ : Shape).Idx → α) (p : Fin A) (z : Fin 1) (a : Fin C) :
    broadcastInDim ⟨3, ![A, 1, C]⟩ ![0, 2] h x (ix3 p z a) = x (ix2 p a) := by
  refine broadcastInDim_apply ![0, 2] h x (ix3 p z a) (ix2 p a) ?_
  intro c
  have hp := p.isLt; have ha := a.isLt
  match c with
  | ⟨0, _⟩ =>
    show p.val = if A = 1 then 0 else p.val
    split
    · omega
    · rfl
  | ⟨1, _⟩ =>
    show a.val = if C = 1 then 0 else a.val
    split
    · omega
    · rfl

/-- [A,1,C] repeated along axis 1 to [A,B,C]. -/
theorem bc_mid {A B C : Nat} (h : (⟨3, ![A, 1, C]⟩ : Shape).BroadcastsInDim ⟨3, ![A, B, C]⟩ ![0, 1, 2])
    (x : (⟨3, ![A, 1, C]⟩ : Shape).Idx → α) (p : Fin A) (k : Fin B) (a : Fin C) :
    broadcastInDim ⟨3, ![A, B, C]⟩ ![0, 1, 2] h x (ix3 p k a) = x (ix3 p 0 a) := by
  refine broadcastInDim_apply ![0, 1, 2] h x (ix3 p k a) (ix3 p 0 a) ?_
  intro c
  have hp := p.isLt; have ha := a.isLt
  match c with
  | ⟨0, _⟩ =>
    show p.val = if A = 1 then 0 else p.val
    split
    · omega
    · rfl
  | ⟨1, _⟩ =>
    show (0 : Nat) = if (1 : Nat) = 1 then 0 else k.val
    simp
  | ⟨2, _⟩ =>
    show a.val = if C = 1 then 0 else a.val
    split
    · omega
    · rfl

/-- [1,B,C] repeated along axis 0 to [A,B,C]. -/
theorem bc_lead {A B C : Nat} (h : (⟨3, ![1, B, C]⟩ : Shape).BroadcastsInDim ⟨3, ![A, B, C]⟩ ![0, 1, 2])
    (x : (⟨3, ![1, B, C]⟩ : Shape).Idx → α) (p : Fin A) (k : Fin B) (a : Fin C) :
    broadcastInDim ⟨3, ![A, B, C]⟩ ![0, 1, 2] h x (ix3 p k a) = x (ix3 0 k a) := by
  refine broadcastInDim_apply ![0, 1, 2] h x (ix3 p k a) (ix3 0 k a) ?_
  intro c
  have hk := k.isLt; have ha := a.isLt
  match c with
  | ⟨0, _⟩ =>
    show (0 : Nat) = if (1 : Nat) = 1 then 0 else p.val
    simp
  | ⟨1, _⟩ =>
    show k.val = if B = 1 then 0 else k.val
    split
    · omega
    · rfl
  | ⟨2, _⟩ =>
    show a.val = if C = 1 then 0 else a.val
    split
    · omega
    · rfl

/-- [B,C] placed on axes 1 and 2 of [1,B,C]. -/
theorem bc_12 {B C : Nat} (h : (⟨2, ![B, C]⟩ : Shape).BroadcastsInDim ⟨3, ![1, B, C]⟩ ![1, 2])
    (x : (⟨2, ![B, C]⟩ : Shape).Idx → α) (z : Fin 1) (k : Fin B) (a : Fin C) :
    broadcastInDim ⟨3, ![1, B, C]⟩ ![1, 2] h x (ix3 z k a) = x (ix2 k a) := by
  refine broadcastInDim_apply ![1, 2] h x (ix3 z k a) (ix2 k a) ?_
  intro c
  have hk := k.isLt; have ha := a.isLt
  match c with
  | ⟨0, _⟩ =>
    show k.val = if B = 1 then 0 else k.val
    split
    · omega
    · rfl
  | ⟨1, _⟩ =>
    show a.val = if C = 1 then 0 else a.val
    split
    · omega
    · rfl

/-- [A,B,1] repeated along axis 2 to [A,B,C]. -/
theorem bc_last {A B C : Nat} (h : (⟨3, ![A, B, 1]⟩ : Shape).BroadcastsInDim ⟨3, ![A, B, C]⟩ ![0, 1, 2])
    (x : (⟨3, ![A, B, 1]⟩ : Shape).Idx → α) (p : Fin A) (k : Fin B) (a : Fin C) :
    broadcastInDim ⟨3, ![A, B, C]⟩ ![0, 1, 2] h x (ix3 p k a) = x (ix3 p k 0) := by
  refine broadcastInDim_apply ![0, 1, 2] h x (ix3 p k a) (ix3 p k 0) ?_
  intro c
  have hp := p.isLt; have hk := k.isLt
  match c with
  | ⟨0, _⟩ =>
    show p.val = if A = 1 then 0 else p.val
    split
    · omega
    · rfl
  | ⟨1, _⟩ =>
    show k.val = if B = 1 then 0 else k.val
    split
    · omega
    · rfl
  | ⟨2, _⟩ =>
    show (0 : Nat) = if (1 : Nat) = 1 then 0 else a.val
    simp

/-- [A,B] placed on axes 0 and 1 of [A,B,1]. -/
theorem bc_01 {A B : Nat} (h : (⟨2, ![A, B]⟩ : Shape).BroadcastsInDim ⟨3, ![A, B, 1]⟩ ![0, 1])
    (x : (⟨2, ![A, B]⟩ : Shape).Idx → α) (p : Fin A) (k : Fin B) (z : Fin 1) :
    broadcastInDim ⟨3, ![A, B, 1]⟩ ![0, 1] h x (ix3 p k z) = x (ix2 p k) := by
  refine broadcastInDim_apply ![0, 1] h x (ix3 p k z) (ix2 p k) ?_
  intro c
  have hp := p.isLt; have hk := k.isLt
  match c with
  | ⟨0, _⟩ =>
    show p.val = if A = 1 then 0 else p.val
    split
    · omega
    · rfl
  | ⟨1, _⟩ =>
    show k.val = if B = 1 then 0 else k.val
    split
    · omega
    · rfl

/-- [A] placed on axis 0 of [A,1]. -/
theorem bc_0 {A : Nat} (h : (⟨1, ![A]⟩ : Shape).BroadcastsInDim ⟨2, ![A, 1]⟩ ![0])
    (x : (⟨1, ![A]⟩ : Shape).Idx → α) (p : Fin A) (z : Fin 1) :
    broadcastInDim ⟨2, ![A, 1]⟩ ![0] h x (ix2 p z) = x (ix1 p) := by
  refine broadcastInDim_apply ![0] h x (ix2 p z) (ix1 p) ?_
  intro c
  have hp := p.isLt
  match c with
  | ⟨0, _⟩ =>
    show p.val = if A = 1 then 0 else p.val
    split
    · omega
    · rfl

/-- [A,1] repeated along axis 1 to [A,B]. -/
theorem bc_col {A B : Nat} (h : (⟨2, ![A, 1]⟩ : Shape).BroadcastsInDim ⟨2, ![A, B]⟩ ![0, 1])
    (x : (⟨2, ![A, 1]⟩ : Shape).Idx → α) (p : Fin A) (k : Fin B) :
    broadcastInDim ⟨2, ![A, B]⟩ ![0, 1] h x (ix2 p k) = x (ix2 p 0) := by
  refine broadcastInDim_apply ![0, 1] h x (ix2 p k) (ix2 p 0) ?_
  intro c
  have hp := p.isLt
  match c with
  | ⟨0, _⟩ =>
    show p.val = if A = 1 then 0 else p.val
    split
    · omega
    · rfl
  | ⟨1, _⟩ =>
    show (0 : Nat) = if (1 : Nat) = 1 then 0 else k.val
    simp

/-- The width-one slice of [A,B,C] at offset o on the last axis. -/
theorem slice_last {A B C : Nat} (o : Nat) (ho : o < C) (h : (⟨3, ![A, B, C]⟩ : Shape).Slices ![0, 0, o] ⟨3, ![A, B, 1]⟩)
    (x : (⟨3, ![A, B, C]⟩ : Shape).Idx → α) (p : Fin A) (k : Fin B) (z : Fin 1) :
    extractStridedSlice ⟨3, ![A, B, 1]⟩ ![0, 0, o] x h (ix3 p k z) = x (ix3 p k ⟨o, ho⟩) := by
  refine extractStridedSlice_apply ![0, 0, o] x h (ix3 p k z) (ix3 p k ⟨o, ho⟩) ?_
  intro c
  have hz : z.val = 0 := by omega
  match c with
  | ⟨0, _⟩ => show p.val = 0 + p.val; omega
  | ⟨1, _⟩ => show k.val = 0 + k.val; omega
  | ⟨2, _⟩ => show o = o + z.val; omega

/-- [A,B,1] viewed as [A,B]. -/
theorem cast_drop {A B : Nat} (h : (⟨3, ![A, B, 1]⟩ : Shape).ShapeCasts ⟨2, ![A, B]⟩)
    (x : (⟨3, ![A, B, 1]⟩ : Shape).Idx → α) (p : Fin A) (k : Fin B) :
    shapeCast ⟨2, ![A, B]⟩ x h (ix2 p k) = x (ix3 p k 0) := by
  refine shapeCast_apply x h (ix2 p k) (ix3 p k 0) ?_
  rw [Shape.rowMajor_val_two, Shape.rowMajor_val_three]
  show (p.val * B + k.val) * 1 + 0 = p.val * B + k.val
  omega

/-- [A,B] flattened row-major to [M]. -/
theorem cast_flat2 {A B M : Nat} (h : (⟨2, ![A, B]⟩ : Shape).ShapeCasts ⟨1, ![M]⟩)
    (x : (⟨2, ![A, B]⟩ : Shape).Idx → α) (p : Fin A) (k : Fin B) (hlt : p.val * B + k.val < M) :
    shapeCast ⟨1, ![M]⟩ x h (ix1 ⟨p.val * B + k.val, hlt⟩) = x (ix2 p k) := by
  refine shapeCast_apply x h (ix1 ⟨p.val * B + k.val, hlt⟩) (ix2 p k) ?_
  rw [Shape.rowMajor_val_two, Shape.rowMajor_val_one]
  rfl

/-- [A,B,C] with its first two axes flattened row-major to [M,C]. -/
theorem cast_flat3 {A B C M : Nat} (h : (⟨3, ![A, B, C]⟩ : Shape).ShapeCasts ⟨2, ![M, C]⟩)
    (x : (⟨3, ![A, B, C]⟩ : Shape).Idx → α) (p : Fin A) (k : Fin B) (a : Fin C) (hlt : p.val * B + k.val < M) :
    shapeCast ⟨2, ![M, C]⟩ x h (ix2 ⟨p.val * B + k.val, hlt⟩ a) = x (ix3 p k a) := by
  refine shapeCast_apply x h (ix2 ⟨p.val * B + k.val, hlt⟩ a) (ix3 p k a) ?_
  rw [Shape.rowMajor_val_two, Shape.rowMajor_val_three]
  rfl

end Layout

section Stages
open Cert.ReferenceIdeal Cert.ReferenceIdeal.Term
variable [Cert.ReferenceIdeal.Facts]
open Facts₀ Facts

/-- The eight corner offsets: entry (k, a) of the table, as a float, is the offset literal of bit a of k. -/
theorem off_eq (k : Fin 8) (a : Fin 3) :
    (FloatOps.sitofp .f32 (lit0 (S8x3.rowMajor (ix2 k a))) : Ideal .f32) = Cert.Spec.offF (Cert.Spec.bit k a) := by
  have hrm : S8x3.rowMajor (ix2 k a) = ⟨k.val * 3 + a.val, by have := k.isLt; have := a.isLt; show _ < 24; omega⟩ :=
    Fin.ext (by rw [Shape.rowMajor_val_two]; rfl)
  rw [hrm]
  have h0 : (FloatOps.sitofp .f32 (0#32 : BitVec 32) : Ideal .f32) = Cert.Spec.offF false := by
    show (((0#32 : BitVec 32).toInt : ℝ) : EReal) = Ideal.ofBits .f32 0x00000000#32
    rw [Ideal.ofBits_zero_f32]; simp
  have h1 : (FloatOps.sitofp .f32 (1#32 : BitVec 32) : Ideal .f32) = Cert.Spec.offF true := by
    show (((1#32 : BitVec 32).toInt : ℝ) : EReal) = Ideal.ofBits .f32 0x3F800000#32
    rw [Ideal.ofBits_one_f32]; simp
  fin_cases k <;> fin_cases a <;> first | exact h0 | exact h1

variable (pos vel : FVec Ideal S1000000x3 .f32) (mass : FVec Ideal S1000000 .f32)

theorem rRel_at (j : S1000000x3.Idx) : rRel pos j = Cert.Spec.rel (pos j) := by
  show FloatOps.mulf (FloatOps.subf (pos j) (FloatOps.ofBits .f32 0x00000000#32)) (FloatOps.ofBits .f32 0x42800000#32)
    = FloatOps.mulf (pos j) (FloatOps.ofBits .f32 0x42800000#32)
  rw [Ideal.subf_def, Ideal.ofBits_def, Ideal.ofBits_zero_f32, sub_zero]

theorem rOff_at (z : Fin 1) (k : Fin 8) (a : Fin 3) :
    rOff (F := Ideal) (ix3 z k a) = Cert.Spec.offF (Cert.Spec.bit k a) := by
  show FloatOps.sitofp .f32 (broadcastInDim S1x8x3 ![1, 2] bcast_S8x3_S1x8x3_1_2 (fun i => lit0 (S8x3.rowMajor i)) (ix3 z k a)) = _
  rw [bc_12 bcast_S8x3_S1x8x3_1_2 (fun i => lit0 (S8x3.rowMajor i)) z k a]
  exact off_eq k a

theorem rGp_at (p : Fin 1000000) (k : Fin 8) (a : Fin 3) :
    rGp pos (ix3 p k a) = Cert.Spec.gp (pos (ix2 p a)) (Cert.Spec.bit k a) := by
  show FloatOps.addf
      (broadcastInDim S1000000x8x3 ![0, 1, 2] bcast_S1000000x1x3_S1000000x8x3_0_1_2
        (broadcastInDim S1000000x1x3 ![0, 2] bcast_S1000000x3_S1000000x1x3_0_2 (rBase pos)) (ix3 p k a))
      (broadcastInDim S1000000x8x3 ![0, 1, 2] bcast_S1x8x3_S1000000x8x3_0_1_2 (rOff (F := Ideal)) (ix3 p k a)) = _
  rw [bc_mid, bc_02, bc_lead, rOff_at]
  show FloatOps.addf (FloatOps.hostUnary .floor (rRel pos (ix2 p a))) _ = _
  rw [rRel_at]
  rfl

theorem rDist_at (p : Fin 1000000) (k : Fin 8) (a : Fin 3) :
    rDist pos (ix3 p k a) = Cert.Spec.dist (pos (ix2 p a)) (Cert.Spec.bit k a) := by
  show FloatOps.subf
      (broadcastInDim S1000000x8x3 ![0, 1, 2] bcast_S1000000x1x3_S1000000x8x3_0_1_2
        (broadcastInDim S1000000x1x3 ![0, 2] bcast_S1000000x3_S1000000x1x3_0_2 (rRel pos)) (ix3 p k a))
      (rGp pos (ix3 p k a)) = _
  rw [bc_mid, bc_02, rGp_at, rRel_at]
  rfl

theorem rGpi_at (p : Fin 1000000) (k : Fin 8) (a : Fin 3) :
    rGpi pos (ix3 p k a) = Cert.Spec.gpi (pos (ix2 p a)) (Cert.Spec.bit k a) := by
  show FloatOps.fptosi 32 (rGp pos (ix3 p k a)) = _
  rw [rGp_at]
  rfl

theorem rW_at (p : Fin 1000000) (k : Fin 8) (a : Fin 3) :
    rW pos (ix3 p k a) = Cert.Spec.wgt (pos (ix2 p a)) (Cert.Spec.bit k a) := by
  show FloatOps.subf (FloatOps.ofBits .f32 0x3F800000#32) (FloatOps.hostAbsf (rDist pos (ix3 p k a))) = _
  rw [rDist_at]
  rfl

end Stages

section StagesB
open Cert.ReferenceIdeal Cert.ReferenceIdeal.Term
variable [Cert.ReferenceIdeal.Facts]
open Facts₀ Facts
variable {α : Type}

/-- Column o of [A,B,C], taken as a width-one slice and viewed as [A,B]. -/
theorem drop_slice {A B C : Nat} (o : Nat) (ho : o < C)
    (hs : (⟨3, ![A, B, C]⟩ : Shape).Slices ![0, 0, o] ⟨3, ![A, B, 1]⟩)
    (hc : (⟨3, ![A, B, 1]⟩ : Shape).ShapeCasts ⟨2, ![A, B]⟩)
    (x : (⟨3, ![A, B, C]⟩ : Shape).Idx → α) (p : Fin A) (k : Fin B) :
    shapeCast ⟨2, ![A, B]⟩ (extractStridedSlice ⟨3, ![A, B, 1]⟩ ![0, 0, o] x hs) hc (ix2 p k) = x (ix3 p k ⟨o, ho⟩) := by
  rw [cast_drop, slice_last o ho]

variable (pos vel : FVec Ideal S1000000x3 .f32) (mass : FVec Ideal S1000000 .f32)

theorem rH_at (p : Fin 1000000) (k : Fin 8) :
    rH pos (ix2 p k) = Cert.Spec.rawHash (pos (ix2 p 0)) (pos (ix2 p 1)) (pos (ix2 p 2)) k := by
  show IntOp.addi
      (IntOp.addi
        (shapeCast S1000000x8
          (extractStridedSlice S1000000x8x1 ![0, 0, 2] (rGpi pos) slices_S1000000x8x3_S1000000x8x1_0_0_2)
          shapeCasts_S1000000x8x1_S1000000x8 (ix2 p k))
        (IntOp.muli
          (shapeCast S1000000x8
            (extractStridedSlice S1000000x8x1 ![0, 0, 0] (rGpi pos) slices_S1000000x8x3_S1000000x8x1_0_0_0)
            shapeCasts_S1000000x8x1_S1000000x8 (ix2 p k))
          128#32))
      (IntOp.muli
        (shapeCast S1000000x8
          (extractStridedSlice S1000000x8x1 ![0, 0, 1] (rGpi pos) slices_S1000000x8x3_S1000000x8x1_0_0_1)
          shapeCasts_S1000000x8x1_S1000000x8 (ix2 p k))
        16384#32) = _
  rw [drop_slice 2 (by omega), drop_slice 0 (by omega), drop_slice 1 (by omega), rGpi_at, rGpi_at, rGpi_at]
  rfl

theorem rShp0_at (p : Fin 1000000) (k : Fin 8) :
    rShp0 pos (ix2 p k)
      = FloatOps.mulf
          (FloatOps.mulf (Cert.Spec.wgt (pos (ix2 p 0)) (Cert.Spec.bit k 0)) (Cert.Spec.wgt (pos (ix2 p 1)) (Cert.Spec.bit k 1)))
          (Cert.Spec.wgt (pos (ix2 p 2)) (Cert.Spec.bit k 2)) := by
  show FloatOps.mulf
      (FloatOps.mulf
        (shapeCast S1000000x8
          (extractStridedSlice S1000000x8x1 ![0, 0, 0] (rW pos) slices_S1000000x8x3_S1000000x8x1_0_0_0)
          shapeCasts_S1000000x8x1_S1000000x8 (ix2 p k))
        (shapeCast S1000000x8
          (extractStridedSlice S1000000x8x1 ![0, 0, 1] (rW pos) slices_S1000000x8x3_S1000000x8x1_0_0_1)
          shapeCasts_S1000000x8x1_S1000000x8 (ix2 p k)))
      (shapeCast S1000000x8
        (extractStridedSlice S1000000x8x1 ![0, 0, 2] (rW pos) slices_S1000000x8x3_S1000000x8x1_0_0_2)
        shapeCasts_S1000000x8x1_S1000000x8 (ix2 p k)) = _
  rw [drop_slice 0 (by omega), drop_slice 1 (by omega), drop_slice 2 (by omega), rW_at, rW_at, rW_at]
  rfl

theorem rValid_at (p : Fin 1000000) (k : Fin 8) :
    rValid pos (ix2 p k) = Cert.Spec.valid (Cert.Spec.rawHash (pos (ix2 p 0)) (pos (ix2 p 1)) (pos (ix2 p 2)) k) := by
  show IntOp.andi (IntOp.cmpi .sge (rH pos (ix2 p k)) 0#32) (IntOp.cmpi .slt (rH pos (ix2 p k)) 2097152#32) = _
  rw [rH_at]
  rfl

theorem rShp_at (p : Fin 1000000) (k : Fin 8) :
    rShp pos (ix2 p k) = Cert.Spec.shp (pos (ix2 p 0)) (pos (ix2 p 1)) (pos (ix2 p 2)) k := by
  show Scalar.select (rValid pos (ix2 p k)) (rShp0 pos (ix2 p k)) (FloatOps.ofBits .f32 0x00000000#32) = _
  rw [rValid_at, rShp0_at]
  rfl

theorem rClip_at (p : Fin 1000000) (k : Fin 8) :
    rClip pos (ix2 p k) = Cert.Spec.cell (pos (ix2 p 0)) (pos (ix2 p 1)) (pos (ix2 p 2)) k := by
  show IntOp.minsi 2097151#32 (IntOp.maxsi 0#32 (rH pos (ix2 p k))) = _
  rw [rH_at]
  rfl

theorem rIdx_at (p : Fin 1000000) (k : Fin 8) (hlt : p.val * 8 + k.val < 8000000) :
    rIdx pos (ix1 ⟨p.val * 8 + k.val, hlt⟩) = Cert.Spec.cellAt pos p k := by
  show shapeCast S8000000 (rClip pos) shapeCasts_S1000000x8_S8000000 (ix1 ⟨p.val * 8 + k.val, hlt⟩) = _
  rw [cast_flat2, rClip_at]
  rfl

theorem rSm_at (p : Fin 1000000) (k : Fin 8) :
    rSm pos mass (ix2 p k) = Cert.Spec.sm (pos (ix2 p 0)) (pos (ix2 p 1)) (pos (ix2 p 2)) (mass (ix1 p)) k := by
  show FloatOps.mulf (rShp pos (ix2 p k))
      (broadcastInDim S1000000x8 ![0, 1] bcast_S1000000x1_S1000000x8_0_1
        (broadcastInDim S1000000x1 ![0] bcast_S1000000_S1000000x1_0 mass) (ix2 p k)) = _
  rw [bc_col, bc_0, rShp_at]
  rfl

theorem rSmFlat_at (p : Fin 1000000) (k : Fin 8) (hlt : p.val * 8 + k.val < 8000000) :
    shapeCast S8000000 (rSm pos mass) shapeCasts_S1000000x8_S8000000 (ix1 ⟨p.val * 8 + k.val, hlt⟩)
      = Cert.Spec.sm (pos (ix2 p 0)) (pos (ix2 p 1)) (pos (ix2 p 2)) (mass (ix1 p)) k := by
  rw [cast_flat2, rSm_at]

theorem rMomU_at (p : Fin 1000000) (k : Fin 8) (a : Fin 3) (hlt : p.val * 8 + k.val < 8000000) :
    rMomU pos vel mass (ix2 ⟨p.val * 8 + k.val, hlt⟩ a)
      = Cert.Spec.mom (pos (ix2 p 0)) (pos (ix2 p 1)) (pos (ix2 p 2)) (mass (ix1 p)) (vel (ix2 p a)) k := by
  show shapeCast S8000000x3
      (mulf
        (broadcastInDim S1000000x8x3 ![0, 1, 2] bcast_S1000000x8x1_S1000000x8x3_0_1_2
          (broadcastInDim S1000000x8x1 ![0, 1] bcast_S1000000x8_S1000000x8x1_0_1 (rSm pos mass)))
        (broadcastInDim S1000000x8x3 ![0, 1, 2] bcast_S1000000x1x3_S1000000x8x3_0_1_2
          (broadcastInDim S1000000x1x3 ![0, 2] bcast_S1000000x3_S1000000x1x3_0_2 vel)))
      shapeCasts_S1000000x8x3_S8000000x3 (ix2 ⟨p.val * 8 + k.val, hlt⟩ a) = _
  rw [cast_flat3]
  show FloatOps.mulf
      (broadcastInDim S1000000x8x3 ![0, 1, 2] bcast_S1000000x8x1_S1000000x8x3_0_1_2
        (broadcastInDim S1000000x8x1 ![0, 1] bcast_S1000000x8_S1000000x8x1_0_1 (rSm pos mass)) (ix3 p k a))
      (broadcastInDim S1000000x8x3 ![0, 1, 2] bcast_S1000000x1x3_S1000000x8x3_0_1_2
        (broadcastInDim S1000000x1x3 ![0, 2] bcast_S1000000x3_S1000000x1x3_0_2 vel) (ix3 p k a)) = _
  rw [bc_last, bc_01, bc_mid, bc_02, rSm_at]
  rfl

end StagesB

end Cert.ReferenceIdeal.RefValue

end
-- ==== Proof.Ref.Value.lean ====
/-
  The reference program's result, read entry by entry, is the stated particle-to-grid transfer.
  The two accumulations are the exact sums over all (particle, corner) pairs landing on a cell, the pair (p, k) at row-major
  position 8·p + k, each pair's cell number and contribution being the specification's by the stage readings; the final array
  is the mass column followed by the three momentum columns.
-/
import proofs.«111574_j40132174414020_1_alg».proof.Proof.Ref.ValueStages
import proofs.«111574_j40132174414020_1_alg».proof.Proof.LibScatterAddRows

noncomputable section

namespace Cert.ReferenceIdeal.RefValue

open Idealize.ShloMosaic Idealize.ShloMosaic.ValueIdx

section Assembly
open Cert.ReferenceIdeal Cert.ReferenceIdeal.Term
variable [Cert.ReferenceIdeal.Facts]
open Facts₀ Facts
variable (pos vel : FVec Ideal S1000000x3 .f32) (mass : FVec Ideal S1000000 .f32)

/-- At the ideal instance the host's accumulating scatter is the exact sum. -/
theorem host_scatterAdd_ideal {s si u : Shape} {w : Nat} (d : ScatterDims s si u) (x : FVec Ideal s .f32)
    (idx : IVec si w) (upd : FVec Ideal u .f32) :
    Host.scatterAdd d x idx upd = Ideal.hostScatterAdd d x idx upd := rfl

theorem rMass_unfold : rMass pos mass = Host.scatterAdd scatter_S2097152_S8000000x1_S8000000_n_0_0_1
      (broadcastInDim S2097152 ![] bcast_S_S2097152 (constant S_ .f32 0x00000000#32))
      (broadcastInDim S8000000x1 ![0] bcast_S8000000_S8000000x1_0 (rIdx pos))
      (shapeCast S8000000 (rSm pos mass) shapeCasts_S1000000x8_S8000000) := rfl

/-- Row c of the accumulated mass: zero plus the mass shares of the (particle, corner) pairs landing on cell c. -/
theorem rMass_at (c : Fin 2097152) :
    rMass pos mass (ix1 c)
      = (Ideal.ofBits .f32 0x00000000#32 : EReal) +
        ∑ p : Fin 1000000, ∑ k : Fin 8,
          if (Cert.Spec.cellAt pos p k).toInt = (c.val : Int) then
            (Cert.Spec.sm (pos (ix2 p 0)) (pos (ix2 p 1)) (pos (ix2 p 2)) (mass (ix1 p)) k : EReal) else 0 := by
  rw [rMass_unfold, host_scatterAdd_ideal,
    Cert.LibScatter.scatterAdd_rows1 scatter_S2097152_S8000000x1_S8000000_n_0_0_1 rfl rfl rfl rfl]
  refine congrArg₂ (· + ·) rfl ?_
  refine (Cert.LibScatter.sum_fin_rowMajor (A := 1000000) (B := 8) (by norm_num : 1000000 * 8 = 8000000) _).trans ?_
  refine Finset.sum_congr rfl fun p _ => Finset.sum_congr rfl fun k _ => ?_
  rw [bc_0, rIdx_at, rSmFlat_at]

theorem rMom_unfold : rMom pos vel mass = Host.scatterAdd scatter_S2097152x3_S8000000x1_S8000000x3_1_0_0_1
      (broadcastInDim S2097152x3 ![] bcast_S_S2097152x3 (constant S_ .f32 0x00000000#32))
      (broadcastInDim S8000000x1 ![0] bcast_S8000000_S8000000x1_0 (rIdx pos))
      (rMomU pos vel mass) := rfl

/-- Entry (c, a) of the accumulated momentum: zero plus the shares of component a landing on cell c. -/
theorem rMom_at (c : Fin 2097152) (a : Fin 3) :
    rMom pos vel mass (ix2 c a)
      = (Ideal.ofBits .f32 0x00000000#32 : EReal) +
        ∑ p : Fin 1000000, ∑ k : Fin 8,
          if (Cert.Spec.cellAt pos p k).toInt = (c.val : Int) then
            (Cert.Spec.mom (pos (ix2 p 0)) (pos (ix2 p 1)) (pos (ix2 p 2)) (mass (ix1 p)) (vel (ix2 p a)) k : EReal) else 0 := by
  rw [rMom_unfold, host_scatterAdd_ideal,
    Cert.LibScatter.scatterAdd_rows2 scatter_S2097152x3_S8000000x1_S8000000x3_1_0_0_1 rfl rfl rfl rfl]
  refine congrArg₂ (· + ·) rfl ?_
  refine (Cert.LibScatter.sum_fin_rowMajor (A := 1000000) (B := 8) (by norm_num : 1000000 * 8 = 8000000) _).trans ?_
  refine Finset.sum_congr rfl fun p _ => Finset.sum_congr rfl fun k _ => ?_
  rw [bc_0, rIdx_at, rMomU_at]

theorem rOut_unfold : Term.rOut pos vel mass = concatenate S2097152x4 1
      [⟨S2097152x1, broadcastInDim S2097152x1 ![0] bcast_S2097152_S2097152x1_0 (rMass pos mass)⟩,
       ⟨S2097152x3, rMom pos vel mass⟩]
      concatenates_S2097152x1_S2097152x3_S2097152x4_d1 := rfl

/-- The stated result read at row c, column q. -/
theorem Out_at (c : Fin 2097152) (q : Fin 4) :
    Cert.Spec.Out pos vel mass (ix2 c q)
      = (Ideal.ofBits .f32 0x00000000#32 : EReal) +
        ∑ p : Fin 1000000, ∑ k : Fin 8,
          if (Cert.Spec.cellAt pos p k).toInt = (c.val : Int) then
            (Cert.Spec.updAt pos vel mass p k q : EReal) else 0 := rfl

/-- The reference program's result is the stated particle-to-grid transfer. -/
theorem rOut_eq : Term.rOut (F := Ideal) pos vel mass = Cert.Spec.Out pos vel mass := by
  funext i
  obtain ⟨c, q, rfl⟩ : ∃ (c : Fin 2097152) (q : Fin 4), i = ix2 c q := ⟨i 0, i 1, eq_ix2 i⟩
  obtain ⟨q, hq⟩ := q
  cases q with
  | zero =>
    have hL : Term.rOut pos vel mass (ix2 c ⟨0, hq⟩) = rMass pos mass (ix1 c) := by
      rewrite [rOut_unfold,
        concatenate_pair_apply_left 1 _ _ concatenates_S2097152x1_S2097152x3_S2097152x4_d1 (ix2 c ⟨0, hq⟩) rfl
          (ix2 c (0 : Fin 1)) (fun b => by match b with | ⟨0, _⟩ => rfl | ⟨1, _⟩ => rfl)]
      exact bc_0 _ _ c 0
    rewrite [hL, rMass_at, Out_at]
    refine congrArg₂ (· + ·) rfl ?_
    refine Finset.sum_congr rfl fun p _ => Finset.sum_congr rfl fun k _ => ?_
    rfl
  | succ n =>
    have hn : n < 3 := by omega
    have hR : Term.rOut pos vel mass (ix2 c ⟨n + 1, hq⟩) = rMom pos vel mass (ix2 c ⟨n, hn⟩) := by
      rewrite [rOut_unfold]
      exact concatenate_pair_apply_right 1 _ _ concatenates_S2097152x1_S2097152x3_S2097152x4_d1 (ix2 c ⟨n + 1, hq⟩) rfl rfl
        (ix2 c ⟨n, hn⟩)
        (fun b hb => by
          match b with
          | ⟨0, _⟩ => rfl
          | ⟨1, _⟩ => exact absurd rfl hb)
        rfl
    rewrite [hR, rMom_at, Out_at]
    refine congrArg₂ (· + ·) rfl ?_
    refine Finset.sum_congr rfl fun p _ => Finset.sum_congr rfl fun k _ => ?_
    rfl

end Assembly

end Cert.ReferenceIdeal.RefValue

end
-- ==== Proof.lean ====
/-
  The certificate's claims.  Kernel and reference compute a particle-to-grid transfer: for each of 1000000 particles and
  each of the eight corners of its grid cell, a clipped cell number, a trilinear shape weight times the mass, and that
  times each velocity component; the result array's row c is the sum of those four quantities over all (particle, corner)
  pairs whose cell number is c.  The kernel lays particles out on columns, padded with 15808 zero-mass columns, corners on
  rows; the reference lays particles out on rows, corners on columns.  At the ideal instance the accumulating scatter is an
  unordered sum, a zero-mass column adds zero, and the two layouts index the same set of pairs: both results are the one
  sum of the specification.  The three frames: each program runs to the end, nothing faults, the arguments end as launched.
-/
import proofs.«111574_j40132174414020_1_alg».proof.Defs
import proofs.«111574_j40132174414020_1_alg».proof.Proof.Gen.Kernel
import proofs.«111574_j40132174414020_1_alg».proof.Proof.Gen.KernelIdeal
import proofs.«111574_j40132174414020_1_alg».proof.Proof.Gen.ReferenceIdeal
import proofs.«111574_j40132174414020_1_alg».proof.Proof.Gen.Pre_finite_inputs
import proofs.«111574_j40132174414020_1_alg».proof.Proof.K.Frame
import proofs.«111574_j40132174414020_1_alg».proof.Proof.KI.Frame
import proofs.«111574_j40132174414020_1_alg».proof.Proof.KI.Value
import proofs.«111574_j40132174414020_1_alg».proof.Proof.Ref.Run
import proofs.«111574_j40132174414020_1_alg».proof.Proof.Ref.Value
import Idealize.ShloMosaic.Adequacy
import Idealize.ShloMosaic.Init

noncomputable section

namespace Cert.Proof

open Idealize.ShloMosaic Idealize.SL.Sem

/-- The word-level kernel program runs, faults nowhere and keeps its arguments. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- From memories agreeing on the arguments both programs end with the specification's result of those arguments. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  exact Cert.ReferenceIdeal.RefValue.rOut_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
